-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S512x1024 : Shape := ⟨2, ![512, 1024]⟩
abbrev S512x3072 : Shape := ⟨2, ![512, 3072]⟩
abbrev S1x1024x1024 : Shape := ⟨3, ![1, 1024, 1024]⟩
abbrev S1x1024x1 : Shape := ⟨3, ![1, 1024, 1]⟩
abbrev S1x1024 : Shape := ⟨2, ![1, 1024]⟩

abbrev nBuf : Space → Nat
  | .hbm => 19
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x1, .f32⟩
  | .local _ .vmem, ⟨20, _⟩ => ⟨S1x1024x1, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![4, 2, 2], ![false, false, false]⟩

def k1_cond2 (i : grid1.Coords) : BitVec 1 :=
  let arg2 : BitVec 32 := BitVec.ofNat 32 (i 2).val
  let c1_i32 : BitVec 32 := 1#32
  let v41 : BitVec 1 := Scalar.cmpi .eq arg2 c1_i32
  let v42 : BitVec 32 := Scalar.extui v41
  let c0_i32_31 : BitVec 32 := 0#32
  let v43 : BitVec 1 := Scalar.cmpi .ne v42 c0_i32_31
  v43

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S8192x1024_S4x2048x1024 : S8192x1024.ShapeCasts S4x2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  dot_S512x1024_S1024x3072_S512x3072_1_0_0_1_n_n_wf : DotDims.WF S512x1024 S1024x3072 S512x3072 [1] [0] [0] [1] [] []
  dot_S1x1024x1024_S1x1024x1024_S1x1024x1024_2_2_1_1_0_0_wf : DotDims.WF S1x1024x1024 S1x1024x1024 S1x1024x1024 [2] [2] [1] [1] [0] [0]
  dot_S1x1024x1024_S1x1024x1024_S1x1024x1024_2_1_1_2_0_0_wf : DotDims.WF S1x1024x1024 S1x1024x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x1024.size a
  hwx1_1 : ∀ i : grid1.Coords, EltTy.bits .bf16 = 32 ∨ (Rect.block (s := S4x2048x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x1024.size a
  hwx1_2 : ∀ i : grid1.Coords, EltTy.bits .bf16 = 32 ∨ (Rect.block (s := S4x2048x1024) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x1024x1024_S1x1024x1024_S1x1024x1024_2_2_1_1_0_0 : DotDims S1x1024x1024 S1x1024x1024 S1x1024x1024 where
  lhsContracting := [2]
  rhsContracting := [2]
  lhsNonContracting := [1]
  rhsNonContracting := [1]
  lhsBatch := [0]
  rhsBatch := [0]
  wf := dot_S1x1024x1024_S1x1024x1024_S1x1024x1024_2_2_1_1_0_0_wf
def dot_S1x1024x1024_S1x1024x1024_S1x1024x1024_2_1_1_2_0_0 : DotDims S1x1024x1024 S1x1024x1024 S1x1024x1024 where
  lhsContracting := [2]
  rhsContracting := [1]
  lhsNonContracting := [1]
  rhsNonContracting := [2]
  lhsBatch := [0]
  rhsBatch := [0]
  wf := dot_S1x1024x1024_S1x1024x1024_S1x1024x1024_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Data.lean ====
/-
  The proof data of the two pipelined regions, for any float instance.

  Region 0 (the fused linear layers) visits 16 row blocks of 512 rows; at each it loads the block of `x`, the whole
  concatenated weight and bias, and stores three column slices of `x · Wcat + bcat` into its three output blocks. Nothing
  is carried between points: what it leaves in each output's staging buffer is a function of the point's input blocks.

  Region 1 (attention) visits the 16 points (batch b, query block qi, key block kv) with kv innermost, so a point `t` has
  kv = t mod 2. At kv = 0 the body first resets its three scratch buffers (accumulator 0, running maximum -inf, running
  sum 0) and then performs one online-softmax update with key block 0; at kv = 1 it performs the update with key block 1
  on what the point before left, and stores accumulator / sum into the output block, which the pipeline writes back only
  there. So between points the scratch buffers hold: before an even point anything (the body overwrites them before
  reading), before an odd point `t` the values one update from the reset leaves on the blocks of point `t - 1`.

  Both are stated over an arbitrary valuation `W` of the core's unscoped buffers at the region's entry.
-/
import proofs.«426186_j66417374266003_3_alg».proof.Proof.Gen.Kernel.Launch
import proofs.«426186_j66417374266003_3_alg».proof.Proof.Gen.Kernel.Skeleton
import proofs.«426186_j66417374266003_3_alg».proof.Proof.Gen.Kernel.Points
import Idealize.ShloMosaic.Lib.Pipeline.FrameBody
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Blocks -/

/-- Window `w` of region 0 at point `t`: the block of its array, the array read off the entry valuation. -/
def iblk0 (W : Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (W (Pipeline.arrRef spec0 w))

/-- Window `w` of region 1 at point `t`. -/
def iblk1 (W : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (W (Pipeline.arrRef spec1 w))

/-- The point before `t` (the point itself at the first one, where nothing reads it). -/
def prev1 (t : Fin cfg1.N) : Fin cfg1.N := ⟨t.val - 1, Nat.lt_of_le_of_lt (Nat.sub_le _ _) t.isLt⟩

/-! ## The attention body's two branch conditions, in closed form over the grid -/

/-- "This is key block 0": the condition of the reset. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "This is the last key block": the condition of the final division and store. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## What one online-softmax update leaves, over the generated payload names -/

/-- After the update from the reset on blocks `q k`: the running maximum, -/
def mA (q k : Vec F S1x1024x1024 .bf16) : Vec F S1x1024x1 .f32 := k1_pay2 (k1_pay9 q k k1_pay5)
/-- the running sum, -/
def lA (q k : Vec F S1x1024x1024 .bf16) : Vec F S1x1024x1 .f32 := k1_pay12 q k k1_pay5 k1_pay6
/-- and the accumulator. -/
def accA (q k v : Vec F S1x1024x1024 .bf16) : Vec F S1x1024x1024 .f32 :=
  k1_pay1 (k1_pay7 v) (k1_pay10 q k k1_pay5) (k1_pay11 q k k1_pay5) k1_pay4

/-- After the update on blocks `q k` from a running maximum `m0`: the new maximum, -/
def mB (q k : Vec F S1x1024x1024 .bf16) (m0 : Vec F S1x1024x1 .f32) : Vec F S1x1024x1 .f32 :=
  k1_pay2 (k1_pay9 q k m0)
/-- the new sum from `l0`, -/
def lB (q k : Vec F S1x1024x1024 .bf16) (m0 l0 : Vec F S1x1024x1 .f32) : Vec F S1x1024x1 .f32 :=
  k1_pay12 q k m0 l0
/-- the new accumulator from `a0`, -/
def accB (q k v : Vec F S1x1024x1024 .bf16) (m0 : Vec F S1x1024x1 .f32) (a0 : Vec F S1x1024x1024 .f32) :
    Vec F S1x1024x1024 .f32 :=
  k1_pay1 (k1_pay7 v) (k1_pay10 q k m0) (k1_pay11 q k m0) a0
/-- and the output block: the new accumulator divided by the new sum. -/
def outB (q k v : Vec F S1x1024x1024 .bf16) (m0 l0 : Vec F S1x1024x1 .f32) (a0 : Vec F S1x1024x1024 .f32) :
    Vec F S1x1024x1024 .f32 :=
  k1_pay3 (accB q k v m0 a0) (lB q k m0 l0)

/-- The output block of an odd point from the five blocks it depends on: query block, then keys and values of key
    block 0 (the point before) and of key block 1 (this point). -/
def outQ (q k0 v0 k1 v1 : Vec F S1x1024x1024 .bf16) : Vec F S1x1024x1024 .f32 :=
  outB q k1 v1 (mA q k0) (lA q k0) (accA q k0 v0)

/-! ## The scratch buffers between points -/

abbrev scAcc : Memref sig .tc .vmem S1x1024x1024 .f32 := Memref.whole cc1_scratch0
abbrev scMax : Memref sig .tc .vmem S1x1024x1 .f32 := Memref.whole cc1_scratch1
abbrev scSum : Memref sig .tc .vmem S1x1024x1 .f32 := Memref.whole cc1_scratch2

/-- The scoped buffers region 1 does not stage, other than its three scratch buffers: region 0's staging buffers, each
    at some contents. -/
def rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-! ## The proof data -/

/-- Region 0 on core `c`, entered at the valuation `W`: its arrays as `W` has them; after the body each input's buffer
    at its block, each output's at its column slice of `x · Wcat + bcat` on the point's blocks; the scoped buffers it
    does not stage ride along at some contents; nothing owed; full shares. -/
def dat0 (W : Valuation τ sig (Elt F)) (c : Dev nD) : Dat τ (Elt F) Unit ℕ (UR sig nD τ) ℕ cfg0 c where
  A w := W (Pipeline.arrRef spec0 w)
  after w t := match w with
    | ⟨0, _⟩ => iblk0 W c 0 t
    | ⟨1, _⟩ => iblk0 W c 1 t
    | ⟨2, _⟩ => iblk0 W c 2 t
    | ⟨3, _⟩ => k0_pay2 (iblk0 W c 0 t) (iblk0 W c 1 t) (iblk0 W c 2 t)
    | ⟨4, _⟩ => k0_pay3 (iblk0 W c 0 t) (iblk0 W c 1 t) (iblk0 W c 2 t)
    | ⟨5, _⟩ => k0_pay4 (iblk0 W c 0 t) (iblk0 W c 1 t) (iblk0 W c 2 t)
  Φ _ := Pipeline.scopedRest (Ix := Unit) (Name := ℕ) (U := UR sig nD τ) (Lvl := ℕ) (Val := Elt F) spec0 c
  q _ := fullShare
  owed _ := 0

/-- The three scratch buffers before position `n` of region 1: before an odd position at what the update from the
    reset leaves on the blocks of the point before; before an even one at anything. -/
def scr1 (W : Valuation τ sig (Elt F)) (c : Dev nD) (n : ℕ) (hn : n ≤ cfg1.N) : sProp 𝕄 :=
  if h : n % 2 = 1 then
    iprop(owns (c : Thread nD τ) scAcc fullShare (accA (iblk1 W c 0 ⟨n - 1, by omega⟩) (iblk1 W c 1 ⟨n - 1, by omega⟩) (iblk1 W c 2 ⟨n - 1, by omega⟩))
      ∗ owns (c : Thread nD τ) scMax fullShare (mA (iblk1 W c 0 ⟨n - 1, by omega⟩) (iblk1 W c 1 ⟨n - 1, by omega⟩))
      ∗ owns (c : Thread nD τ) scSum fullShare (lA (iblk1 W c 0 ⟨n - 1, by omega⟩) (iblk1 W c 1 ⟨n - 1, by omega⟩)))
  else
    iprop((∃ d, owns (c : Thread nD τ) scAcc fullShare d) ∗ (∃ d, owns (c : Thread nD τ) scMax fullShare d) ∗ (∃ d, owns (c : Thread nD τ) scSum fullShare d))

/-- Region 1 on core `c`, entered at the valuation `W`: after the body each input's buffer at its block, the output's
    (consulted at odd points only: at even ones the window is idle and not written back) at the quotient on the point's
    query block and both key blocks' keys and values; the invariant the scratch buffers as above beside region 0's
    staging buffers at some contents. -/
def dat1 (W : Valuation τ sig (Elt F)) (c : Dev nD) : Dat τ (Elt F) Unit ℕ (UR sig nD τ) ℕ cfg1 c where
  A w := W (Pipeline.arrRef spec1 w)
  after w t := match w with
    | ⟨0, _⟩ => iblk1 W c 0 t
    | ⟨1, _⟩ => iblk1 W c 1 t
    | ⟨2, _⟩ => iblk1 W c 2 t
    | ⟨3, _⟩ => outQ (iblk1 W c 0 t) (iblk1 W c 1 (prev1 t)) (iblk1 W c 2 (prev1 t)) (iblk1 W c 1 t) (iblk1 W c 2 t)
  Φ t := iprop(scr1 W c t.val (Nat.le_of_lt_succ t.isLt) ∗ rest1 c)
  q _ := fullShare
  owed _ := 0

end Cert.Kernel.Hand

end
-- ==== Proof.K.Run0.lean ====
/-
  The fused linear-layer kernel's body, run on any whole staging buffers: what it leaves in its three output buffers.
-/
import proofs.«426186_j66417374266003_3_alg».proof.Proof.K.Data
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, however they are spelt. -/
private theorem zero2 : (![0, 0] : Fin 2 → Nat) = fun _ => 0 := by
  funext a; fin_cases a <;> rfl

/-- One store through the whole-shape rectangle at zero offsets, read back through the view, is the stored payload:
    the rectangle holds every index, so the earlier contents are gone. -/
private theorem read_store_whole {κ : Kind} {sp : Space} {S : Shape} {e : EltTy} (v : View sig κ sp S e)
    (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p := by
  rw [View.read_writes_eq_canon _ _ _ (fun y => ⟨_, List.mem_singleton_self _, View.mem_set_unit_zero h inb y⟩),
    View.canon_unit_zero h]

/-- A load through the whole-shape rectangle at zero offsets of a whole memref whose contents read `X` reads `X`. -/
private theorem readAt_whole {S : Shape} {e : EltTy} {m : Memref sig .tc .vmem S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 1000000 in
/-- The linear-layer body on any whole staging memrefs: from the three inputs at `x`, `w`, `b` and the three outputs at
    anything it runs to the inputs as they were and each output at its column slice of `x · w + b`. -/
theorem run0 (c : Dev nD) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x : Vec F S512x1024 .f32) (w : Vec F S1024x3072 .bf16) (b : Vec F S1x3072 .f32) (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (k0_pay2 x w b) ∗ owns (c : Thread nD τ) arg5 fullShare (k0_pay3 x w b)
            ∗ owns (c : Thread nD τ) arg6 fullShare (k0_pay4 x w b)) -∗ K ⟨⟩))
      ⊢ wp frame (wpE (defs₀ (F := F)) Variants.none c none) E
          (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_store_whole _ _ zero2, readAt_whole harg1 zero2, readAt_whole harg2 zero2, readAt_whole harg3 zero2]
  isplitl [H4]
  · iexists _; isplitr
    swap; · iexact H4
    ipureintro
    rw [read_store_whole _ _ zero2, readAt_whole harg1 zero2, readAt_whole harg2 zero2, readAt_whole harg3 zero2]
  iexists _; isplitr
  swap; · iexact H5
  ipureintro
  rw [read_store_whole _ _ zero2, readAt_whole harg1 zero2, readAt_whole harg2 zero2, readAt_whole harg3 zero2]

end Cert.Kernel.Hand

end
-- ==== Proof.K.Body0.lean ====
/-
  Region 0's body obligation: at every grid point the linear-layer body, handed its input blocks and its output
  buffers, leaves what the proof data names.
-/
import proofs.«426186_j66417374266003_3_alg».proof.Proof.K.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data projected -/

/-- The proof data's arrays are the entry valuation's. -/
theorem A0_eq (W : Valuation τ sig (Elt F)) (c : Dev nD) (w : Fin cfg0.W) :
    (dat0 W c).A w = W (Pipeline.arrRef spec0 w) := by
  dsimp only [dat0]

/-- What the body leaves, window by window: each input's buffer at its block, each output's at its slice. -/
theorem after0_0 (W : Valuation τ sig (Elt F)) (c : Dev nD) (t : Fin cfg0.N) :
    (dat0 W c).after 0 t = iblk0 W c 0 t := by dsimp only [dat0]
theorem after0_1 (W : Valuation τ sig (Elt F)) (c : Dev nD) (t : Fin cfg0.N) :
    (dat0 W c).after 1 t = iblk0 W c 1 t := by dsimp only [dat0]
theorem after0_2 (W : Valuation τ sig (Elt F)) (c : Dev nD) (t : Fin cfg0.N) :
    (dat0 W c).after 2 t = iblk0 W c 2 t := by dsimp only [dat0]
theorem after0_3 (W : Valuation τ sig (Elt F)) (c : Dev nD) (t : Fin cfg0.N) :
    (dat0 W c).after 3 t = k0_pay2 (iblk0 W c 0 t) (iblk0 W c 1 t) (iblk0 W c 2 t) := by dsimp only [dat0]
theorem after0_4 (W : Valuation τ sig (Elt F)) (c : Dev nD) (t : Fin cfg0.N) :
    (dat0 W c).after 4 t = k0_pay3 (iblk0 W c 0 t) (iblk0 W c 1 t) (iblk0 W c 2 t) := by dsimp only [dat0]
theorem after0_5 (W : Valuation τ sig (Elt F)) (c : Dev nD) (t : Fin cfg0.N) :
    (dat0 W c).after 5 t = k0_pay4 (iblk0 W c 0 t) (iblk0 W c 1 t) (iblk0 W c 2 t) := by dsimp only [dat0]

/-- Each input's current staging buffer holds its block at every point, fetched there or not: the body leaves an input
    block in place, and where the pipeline does not fetch, the block index has not moved. -/
theorem before0_0 (W : Valuation τ sig (Elt F)) (c : Dev nD) (t : Fin cfg0.N) (d) :
    (dat0 W c).before 0 t d = iblk0 W c 0 t :=
  ((dat0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (W : Valuation τ sig (Elt F)) (c : Dev nD) (t : Fin cfg0.N) (d) :
    (dat0 W c).before 1 t d = iblk0 W c 1 t :=
  ((dat0 W c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (W : Valuation τ sig (Elt F)) (c : Dev nD) (t : Fin cfg0.N) (d) :
    (dat0 W c).before 2 t d = iblk0 W c 2 t :=
  ((dat0 W c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)

/-! ## The body obligation, at a generic point -/

/-- What the body is called with at point `t`: the invariant, what the core owes, and the six current staging buffers, -/
def bodyPre0 (W : Valuation τ sig (Elt F)) (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))

/-- and what it returns. -/
def bodyPost0 (W : Valuation τ sig (Elt F)) (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t))

/-- The body at any point: the inputs' buffers hold their blocks, so the run of the body applies at them, each output's
    buffer handed over at whatever it holds; the invariant and what the core owes pass through unread. -/
theorem sound_body0 (W : Valuation τ sig (Elt F)) (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).Φ t.succ = (dat0 W c).Φ t.castSucc from rfl,
    show (dat0 W c).owesAt () t.succ = (dat0 W c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run0 c (grid0.coords t) _ _ _ _ _ _ _ _ _ _ _ _ (iblk0 W c 0 t) (iblk0 W c 1 t) (iblk0 W c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 0, at every point, from any entry valuation. -/
theorem body_obligation0 (W : Valuation τ sig (Elt F)) (c : Dev nD) :
    BodyObligation (dat0 (F := F) W c) (defs₀ (F := F)) Variants.none () Set.univ := by
  intro t
  rw [bigSep_W0, bigSep_W0]
  exact sound_body0 W c t

end Cert.Kernel.Hand

end
-- ==== Proof.K.Run1A.lean ====
/-
  The attention kernel's body at a point of key block 0: the scratch buffers reset, then one online-softmax update.
-/
import proofs.«426186_j66417374266003_3_alg».proof.Proof.K.Data
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 rectangle are the constant function zero. -/
private theorem hz3 : (![0, 0, 0] : Fin 3 → Nat) = fun _ => 0 := funext fun a => by fin_cases a <;> rfl

/-- A buffer whose LAST store went through the whole-shape rectangle at zero offsets reads back that store's payload,
    whatever was stored before it and whatever the buffer held at first: the last piece covers every index, so the
    contents read as the canonical contents of the pieces, which under the last piece are its payload. -/
private theorem read_writes_cons_unit {sg : RefSig} {κ : Kind} {sp : Space} {S : Shape} {e : EltTy} (vw : View sg κ sp S e) (f : vw.ty.Contents (Elt F))
    {off : Fin S.rank → ℕ} (h : off = fun _ => 0) (inb : ∀ a, off a + S.size a ≤ S.size a)
    (w : S.Idx → Elt F e) (L : List (View.Piece (Elt F) S e)) :
    vw.read (Elt F) (vw.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- The attention body at a point of key block 0 (the reset taken, the final store not): from the three input blocks
    at `q`, `k`, `v`, the output buffer at `o` and the three scratch buffers at anything, it runs to the inputs and the
    output buffer as they were and the scratch buffers at what one update from the reset leaves. -/
theorem runA (c : Dev nD) (i : grid1.Coords) (hc0 : cond1_0 i) (hc1 : ¬cond1_1 i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1x1024x1024 .f32) (harg7 : arg7.IsWhole) (arg8 : Memref sig .tc .vmem S1x1024x1 .f32) (harg8 : arg8.IsWhole)
    (arg9 : Memref sig .tc .vmem S1x1024x1 .f32) (harg9 : arg9.IsWhole)
    (q k v : Vec F S1x1024x1024 .bf16) (o : Vec F S1x1024x1024 .f32) (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare o
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare o
            ∗ owns (c : Thread nD τ) arg7 fullShare (accA q k v) ∗ owns (c : Thread nD τ) arg8 fullShare (mA q k) ∗ owns (c : Thread nD τ) arg9 fullShare (lA q k)) -∗ K ⟨⟩))
      ⊢ wp frame (wpE (defs₀ (F := F)) Variants.none c none) E (cc1_kernel i arg3 harg3 arg4 harg4 arg5 harg5 arg6 harg6 arg7 harg7 arg8 harg8 arg9 harg9) K := by
  -- the body is its sequence of loads and stores over the named payloads; both conditionals are decided by the case
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  -- the inputs and the output buffer were only loaded: they hold what they held
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- each scratch buffer was stored whole twice (the reset, then the update): it reads the update's payload, in which
  -- every load of a scratch buffer after the reset reads the reset's payload and every load of an input its block
  isplitl [H7]
  · iexists _; isplitr
    swap; · iexact H7
    ipureintro
    refine (read_writes_cons_unit (S := S1x1024x1024) _ _ hz3 _ _ _).trans ?_
    sl_unfold_words
    rw [View.readCov_unit_zero (S := S1x1024x1) _ hz3, View.readCov_unit_zero (S := S1x1024x1024) _ hz3]
    unfold accA
    simp only [View.readAt_eq_ld, harg3.read_unread, harg4.read_unread, harg5.read_unread, View.ld_unit_zero (S := S1x1024x1024) hz3]
  isplitl [H8]
  · iexists _; isplitr
    swap; · iexact H8
    ipureintro
    refine (read_writes_cons_unit (S := S1x1024x1) _ _ hz3 _ _ _).trans ?_
    sl_unfold_words
    rw [View.readCov_unit_zero (S := S1x1024x1) _ hz3]
    unfold mA
    simp only [View.readAt_eq_ld, harg3.read_unread, harg4.read_unread, harg5.read_unread, View.ld_unit_zero (S := S1x1024x1024) hz3]
  · iexists _; isplitr
    swap; · iexact H9
    ipureintro
    refine (read_writes_cons_unit (S := S1x1024x1) _ _ hz3 _ _ _).trans ?_
    sl_unfold_words
    rw [View.readCov_unit_zero (S := S1x1024x1) _ hz3, View.readCov_unit_zero (S := S1x1024x1) _ hz3]
    unfold lA
    simp only [View.readAt_eq_ld, harg3.read_unread, harg4.read_unread, harg5.read_unread, View.ld_unit_zero (S := S1x1024x1024) hz3]

end Cert.Kernel.Hand

end
-- ==== Proof.K.Run1B.lean ====
/-
  The attention kernel's body at a point of key block 1: one online-softmax update on what the point before left, then
  the accumulator divided by the sum stored into the output block.
-/
import proofs.«426186_j66417374266003_3_alg».proof.Proof.K.Data
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-shape rectangle at zero offsets, read back, is its payload, whatever the buffer held:
    the one piece covers every index, so the contents read as the pieces' canonical contents, which is the payload. -/
private theorem read_writes_unit_zero {sg : RefSig} {κ : Kind} {sp : Space} {S : Shape} {e : EltTy}
    (vw : View sg κ sp S e) (f : vw.ty.Contents (Elt F)) {off : Fin S.rank → ℕ} (h : off = fun _ => 0)
    (inb : ∀ a, off a + S.size a ≤ S.size a) (w : S.Idx → Elt F e) :
    vw.read (Elt F) (vw.writes (Elt F) f [(⟨Rect.unit off S.size inb, w⟩ : View.Piece (Elt F) S e)]) = w := by
  rw [View.read_writes_eq_canon vw f _ (fun y => ⟨_, List.mem_singleton_self _, View.mem_set_unit_zero h inb y⟩),
    View.canon_unit_zero h]

/-- The attention body at a point of key block 1 (the reset not taken, the final store taken): from the three input
    blocks, the output buffer at anything and the scratch buffers at accumulator `a0`, maximum `m0`, sum `l0`, it runs
    to the inputs as they were, the scratch buffers one update further, and the output buffer at the new accumulator
    divided by the new sum. -/
theorem runB (c : Dev nD) (i : grid1.Coords) (hc0 : ¬cond1_0 i) (hc1 : cond1_1 i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1x1024x1024 .f32) (harg7 : arg7.IsWhole) (arg8 : Memref sig .tc .vmem S1x1024x1 .f32) (harg8 : arg8.IsWhole)
    (arg9 : Memref sig .tc .vmem S1x1024x1 .f32) (harg9 : arg9.IsWhole)
    (q k v : Vec F S1x1024x1024 .bf16) (a0 : Vec F S1x1024x1024 .f32) (m0 l0 : Vec F S1x1024x1 .f32) (E : Set ℕ) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare a0 ∗ owns (c : Thread nD τ) arg8 fullShare m0 ∗ owns (c : Thread nD τ) arg9 fullShare l0
        ∗ (iprop(owns (c : Thread nD τ) arg3 fullShare q ∗ owns (c : Thread nD τ) arg4 fullShare k ∗ owns (c : Thread nD τ) arg5 fullShare v ∗ owns (c : Thread nD τ) arg6 fullShare (outB q k v m0 l0 a0)
            ∗ owns (c : Thread nD τ) arg7 fullShare (accB q k v m0 a0) ∗ owns (c : Thread nD τ) arg8 fullShare (mB q k m0) ∗ owns (c : Thread nD τ) arg9 fullShare (lB q k m0 l0)) -∗ K ⟨⟩))
      ⊢ wp frame (wpE (defs₀ (F := F)) Variants.none c none) E (cc1_kernel i arg3 harg3 arg4 harg4 arg5 harg5 arg6 harg6 arg7 harg7 arg8 harg8 arg9 harg9) K := by
  have hz : (![0, 0, 0] : Fin 3 → ℕ) = fun _ => 0 := by
    funext a; match a with | ⟨0, _⟩ => rfl | ⟨1, _⟩ => rfl | ⟨2, _⟩ => rfl
  -- the body is its sequence of loads and stores over the named payloads; every buffer is held whole
  simp only [cc1_kernel_eq_skeleton]; unfold cc1_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hc0 | exact hc1)
  sl_step
  -- the three inputs are as they were
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output: its one whole-buffer store read back is the payload, the quotient of what the accumulator and the
  -- sum hold after their own stores (each read back as that store's payload), over the inputs' contents
  isplitl [H6]
  · iexists _; isplitr
    swap; · iexact H6
    ipureintro
    sl_unfold_run_names
    rw [read_writes_unit_zero (S := S1x1024x1024) _ _ hz, View.readCov_unit_zero (S := S1x1024x1024) _ hz, View.readCov_unit_zero (S := S1x1024x1) _ hz]
    simp only [View.readAt_eq_ld, harg3.read_unread, harg4.read_unread, harg5.read_unread, harg7.read_unread,
      harg8.read_unread, harg9.read_unread, View.ld_unit_zero (S := S1x1024x1024) hz, View.ld_unit_zero (S := S1x1024x1) hz]
    rfl
  -- the accumulator: its one whole-buffer store read back, over the contents the loads read
  isplitl [H7]
  · iexists _; isplitr
    swap; · iexact H7
    ipureintro
    sl_unfold_run_names
    rw [read_writes_unit_zero (S := S1x1024x1024) _ _ hz]
    simp only [View.readAt_eq_ld, harg3.read_unread, harg4.read_unread, harg5.read_unread, harg7.read_unread,
      harg8.read_unread, View.ld_unit_zero (S := S1x1024x1024) hz, View.ld_unit_zero (S := S1x1024x1) hz]
    rfl
  -- the running maximum likewise
  isplitl [H8]
  · iexists _; isplitr
    swap; · iexact H8
    ipureintro
    sl_unfold_run_names
    rw [read_writes_unit_zero (S := S1x1024x1) _ _ hz]
    simp only [View.readAt_eq_ld, harg3.read_unread, harg4.read_unread, harg8.read_unread,
      View.ld_unit_zero (S := S1x1024x1024) hz, View.ld_unit_zero (S := S1x1024x1) hz]
    rfl
  -- and the running sum
  iexists _; isplitr
  swap; · iexact H9
  ipureintro
  sl_unfold_run_names
  rw [read_writes_unit_zero (S := S1x1024x1) _ _ hz]
  simp only [View.readAt_eq_ld, harg3.read_unread, harg4.read_unread, harg8.read_unread, harg9.read_unread,
    View.ld_unit_zero (S := S1x1024x1024) hz, View.ld_unit_zero (S := S1x1024x1) hz]
  rfl

end Cert.Kernel.Hand

end
-- ==== Proof.K.Body1.lean ====
/-
  Region 1's body obligation: at every grid point the attention body, handed its input blocks, its output buffer and
  the scratch buffers as the point before left them, leaves what the proof data names.
-/
import proofs.«426186_j66417374266003_3_alg».proof.Proof.K.Run1A
import proofs.«426186_j66417374266003_3_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle, and where the output is written back -/

/-- The three inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- The output is idle at the points of key block 0, -/
theorem idleAt1_3 : ∀ t : Fin cfg1.N, t.val % 2 = 0 → cfg1.idle 3 (grid1.coords t) = true :=
  (by decide +kernel : ∀ t : Fin grid1.N, t.val % 2 = 0 → idle1 3 (grid1.coords t) = true)
/-- and live at those of key block 1. -/
theorem liveAt1_3 : ∀ t : Fin cfg1.N, t.val % 2 = 1 → cfg1.idle 3 (grid1.coords t) = false :=
  (by decide +kernel : ∀ t : Fin grid1.N, t.val % 2 = 1 → idle1 3 (grid1.coords t) = false)
/-- At a point of key block 0 the output's block is not written back. -/
theorem noFlush1_3 (t : Fin cfg1.N) (h : t.val % 2 = 0) : (cfg1.win 3).flush t = false :=
  Bool.eq_false_iff.mpr fun hf => by have := (flush1_3 t).mp hf; omega

/-- The query window's block index does not depend on the key block: at a point of key block 1 it is the index of
    the point before. -/
theorem index1_0_prev : ∀ t : Fin cfg1.N, t.val % 2 = 1 → (cfg1.win 0).index (prev1 t) = (cfg1.win 0).index t :=
  (by decide +kernel : ∀ t : Fin grid1.N, t.val % 2 = 1 → win1_0.index (prev1 t) = win1_0.index t)

/-! ## What the body finds in the inputs' buffers -/

theorem after1_0 (W : Valuation τ sig (Elt F)) (c : Dev nD) (t : Fin cfg1.N) : (dat1 W c).after 0 t = iblk1 W c 0 t := by dsimp only [dat1]
theorem after1_1 (W : Valuation τ sig (Elt F)) (c : Dev nD) (t : Fin cfg1.N) : (dat1 W c).after 1 t = iblk1 W c 1 t := by dsimp only [dat1]
theorem after1_2 (W : Valuation τ sig (Elt F)) (c : Dev nD) (t : Fin cfg1.N) : (dat1 W c).after 2 t = iblk1 W c 2 t := by dsimp only [dat1]
theorem after1_3 (W : Valuation τ sig (Elt F)) (c : Dev nD) (t : Fin cfg1.N) :
    (dat1 W c).after 3 t = outQ (iblk1 W c 0 t) (iblk1 W c 1 (prev1 t)) (iblk1 W c 2 (prev1 t)) (iblk1 W c 1 t) (iblk1 W c 2 t) := by
  dsimp only [dat1]

/-- A fetch of an input's (uncut) block fills the buffer with the block. -/
theorem fetched1_0 (W : Valuation τ sig (Elt F)) (c : Dev nD) (t : Fin cfg1.N) (d) : (dat1 W c).fetched 0 t d = iblk1 W c 0 t := by
  unfold Dat.fetched Dat.blockOf iblk1; rfl
theorem fetched1_1 (W : Valuation τ sig (Elt F)) (c : Dev nD) (t : Fin cfg1.N) (d) : (dat1 W c).fetched 1 t d = iblk1 W c 1 t := by
  unfold Dat.fetched Dat.blockOf iblk1; rfl
theorem fetched1_2 (W : Valuation τ sig (Elt F)) (c : Dev nD) (t : Fin cfg1.N) (d) : (dat1 W c).fetched 2 t d = iblk1 W c 2 t := by
  unfold Dat.fetched Dat.blockOf iblk1; rfl

/-- Each input's current buffer holds its block at every point, fetched there or not. -/
theorem before1_0 (W : Valuation τ sig (Elt F)) (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rfl) t d).trans (fetched1_0 W c t d)
theorem before1_1 (W : Valuation τ sig (Elt F)) (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rfl) t d).trans (fetched1_1 W c t d)
theorem before1_2 (W : Valuation τ sig (Elt F)) (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rfl) t d).trans (fetched1_2 W c t d)

/-- The query block of a point of key block 1 is the query block of the point before: fetches at two points with
    one block index read the same elements of the array. -/
theorem iblk1_0_prev (W : Valuation τ sig (Elt F)) (c : Dev nD) (t : Fin cfg1.N) (h : t.val % 2 = 1) :
    (iblk1 W c 0 (prev1 t) : Vec F S1x1024x1024 .bf16) = iblk1 W c 0 t :=
  ((fetched1_0 W c (prev1 t) (iblk1 W c 0 t)).symm.trans
    ((dat1 W c).fetched_congr 0 (index1_0_prev t h) rfl (iblk1 W c 0 t))).trans (fetched1_0 W c t (iblk1 W c 0 t))

/-! ## The invariant, at a point's start and end -/

theorem Phi1_castSucc (W : Valuation τ sig (Elt F)) (c : Dev nD) (t : Fin cfg1.N) :
    (dat1 W c).Φ t.castSucc = iprop(scr1 W c t.val (Nat.le_of_lt t.isLt) ∗ rest1 c) := rfl
theorem Phi1_succ (W : Valuation τ sig (Elt F)) (c : Dev nD) (t : Fin cfg1.N) :
    (dat1 W c).Φ t.succ = iprop(scr1 W c (t.val + 1) t.isLt ∗ rest1 c) := rfl

/-- Before an even position the scratch buffers hold anything; -/
theorem scr1_of_even (W : Valuation τ sig (Elt F)) (c : Dev nD) (n : ℕ) (hn : n ≤ cfg1.N) (h : ¬n % 2 = 1) :
    scr1 W c n hn = iprop((∃ d, owns (c : Thread nD τ) scAcc fullShare d) ∗ (∃ d, owns (c : Thread nD τ) scMax fullShare d) ∗ (∃ d, owns (c : Thread nD τ) scSum fullShare d)) := by
  unfold scr1; rw [dif_neg h]
/-- before an odd one what the update from the reset leaves on the blocks of the point before. -/
theorem scr1_of_odd (W : Valuation τ sig (Elt F)) (c : Dev nD) (n : ℕ) (hn : n ≤ cfg1.N) (h : n % 2 = 1) :
    scr1 W c n hn = iprop(owns (c : Thread nD τ) scAcc fullShare (accA (iblk1 W c 0 ⟨n - 1, by omega⟩) (iblk1 W c 1 ⟨n - 1, by omega⟩) (iblk1 W c 2 ⟨n - 1, by omega⟩))
      ∗ owns (c : Thread nD τ) scMax fullShare (mA (iblk1 W c 0 ⟨n - 1, by omega⟩) (iblk1 W c 1 ⟨n - 1, by omega⟩))
      ∗ owns (c : Thread nD τ) scSum fullShare (lA (iblk1 W c 0 ⟨n - 1, by omega⟩) (iblk1 W c 1 ⟨n - 1, by omega⟩))) := by
  unfold scr1; rw [dif_pos h]

/-- After a point of key block 0: the update from the reset on that point's blocks. -/
theorem scr1_succ_even (W : Valuation τ sig (Elt F)) (c : Dev nD) (t : Fin cfg1.N) (h : t.val % 2 = 0) :
    scr1 W c (t.val + 1) t.isLt = iprop(owns (c : Thread nD τ) scAcc fullShare (accA (iblk1 W c 0 t) (iblk1 W c 1 t) (iblk1 W c 2 t))
      ∗ owns (c : Thread nD τ) scMax fullShare (mA (iblk1 W c 0 t) (iblk1 W c 1 t))
      ∗ owns (c : Thread nD τ) scSum fullShare (lA (iblk1 W c 0 t) (iblk1 W c 1 t))) := by
  rw [scr1_of_odd W c _ _ (by omega)]; rfl

/-- Before a point of key block 1: the update from the reset on the point's own query block (it is the query block of
    the point before) and the keys and values of the point before. -/
theorem scr1_at_odd (W : Valuation τ sig (Elt F)) (c : Dev nD) (t : Fin cfg1.N) (h : t.val % 2 = 1) :
    scr1 W c t.val (Nat.le_of_lt t.isLt) = iprop(owns (c : Thread nD τ) scAcc fullShare (accA (iblk1 W c 0 t) (iblk1 W c 1 (prev1 t)) (iblk1 W c 2 (prev1 t)))
      ∗ owns (c : Thread nD τ) scMax fullShare (mA (iblk1 W c 0 t) (iblk1 W c 1 (prev1 t)))
      ∗ owns (c : Thread nD τ) scSum fullShare (lA (iblk1 W c 0 t) (iblk1 W c 1 (prev1 t)))) := by
  rw [scr1_of_odd W c _ _ h, ← iblk1_0_prev W c t h]; rfl

/-! ## The body obligation, at a generic point -/

/-- Each window's current staging memref at point `t`, as the pipeline passes it to the body. -/
abbrev ms1_0 (t : Fin cfg1.N) : Memref sig .tc .vmem S1x1024x1024 .bf16 := win1_0.stage (cfg1.slots t 0)
abbrev ms1_1 (t : Fin cfg1.N) : Memref sig .tc .vmem S1x1024x1024 .bf16 := win1_1.stage (cfg1.slots t 1)
abbrev ms1_2 (t : Fin cfg1.N) : Memref sig .tc .vmem S1x1024x1024 .bf16 := win1_2.stage (cfg1.slots t 2)
abbrev ms1_3 (t : Fin cfg1.N) : Memref sig .tc .vmem S1x1024x1024 .f32 := win1_3.stage (cfg1.slots t 3)

/-- What the body is called with at point `t` (the obligation's precondition, the windows one by one), -/
def bodyPre1 (W : Valuation τ sig (Elt F)) (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d)))

/-- and what it returns. -/
def bodyPost1 (W : Valuation τ sig (Elt F)) (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t)

set_option maxHeartbeats 4800000 in
/-- The body at any point. The inputs' buffers hold their blocks. At a point of key block 0 the reset is taken and the
    final store is not: the run from any scratch contents applies, the output's buffer (idle there, not written back) is
    handed back as found, and the scratch buffers are left at the update from the reset on this point's blocks, which is
    the invariant before the next (odd) position. At a point of key block 1 the run from the carried scratch contents
    applies; the scratch buffers go back at anything and the output's buffer holds the quotient, which is the stated
    block because the point's query block is that of the point before. The core owes nothing throughout. -/
theorem sound_body1 (W : Valuation τ sig (Elt F)) (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2]
  rw [show (dat1 W c).owesAt () t.succ = (dat1 W c).owesAt () t.castSucc from rfl]
  rw [show (dat1 W c).leavesExact 0 t = owns (c : Thread nD τ) (ms1_0 t) fullShare ((dat1 W c).after 0 t) from by
    unfold Dat.leavesExact; rw [liveAt1_0 t], after1_0]
  rw [show (dat1 W c).leavesExact 1 t = owns (c : Thread nD τ) (ms1_1 t) fullShare ((dat1 W c).after 1 t) from by
    unfold Dat.leavesExact; rw [liveAt1_1 t], after1_1]
  rw [show (dat1 W c).leavesExact 2 t = owns (c : Thread nD τ) (ms1_2 t) fullShare ((dat1 W c).after 2 t) from by
    unfold Dat.leavesExact; rw [liveAt1_2 t], after1_2]
  rw [Phi1_castSucc, Phi1_succ]
  by_cases h : t.val % 2 = 0
  · have h' : ¬t.val % 2 = 1 := by omega
    rw [Dat.leavesExact_idle (dat1 W c) 3 t (idleAt1_3 t h) (noFlush1_3 t h)]
    rw [scr1_of_even W c t.val _ h', scr1_succ_even W c t h]
    iintro ⟨⟨⟨HA, HM, HL⟩, Hr⟩, Ho, ⟨%d0, H0⟩, ⟨%d1, H1⟩, ⟨%d2, H2⟩, ⟨%d3, H3⟩⟩
    iapply (runA c (grid1.coords t) ((hcond1_0 t).mpr h) (fun hc => h' ((hcond1_1 t).mp hc)) _ _ _ _ _ _ _ _ _ _ _ _ _ _
      (iblk1 W c 0 t) (iblk1 W c 1 t) (iblk1 W c 2 t) ((dat1 W c).before 3 t d3) Set.univ _)
    isplitl [H0]; · iexact H0
    isplitl [H1]; · iexact H1
    isplitl [H2]; · iexact H2
    isplitl [H3]; · iexact H3
    isplitl [HA]; · iexact HA
    isplitl [HM]; · iexact HM
    isplitl [HL]; · iexact HL
    iintro ⟨H0, H1, H2, H3, HA, HM, HL⟩
    isplitl [HA HM HL Hr]
    · isplitl [HA HM HL]
      · isplitl [HA]; · iexact HA
        isplitl [HM]; · iexact HM
        iexact HL
      iexact Hr
    isplitl [Ho]; · iexact Ho
    isplitl [H0]; · iexact H0
    isplitl [H1]; · iexact H1
    isplitl [H2]; · iexact H2
    iexists _; iexact H3
  · have h1 : t.val % 2 = 1 := by omega
    rw [show (dat1 W c).leavesExact 3 t = owns (c : Thread nD τ) (ms1_3 t) fullShare ((dat1 W c).after 3 t) from by
      unfold Dat.leavesExact; rw [liveAt1_3 t h1], after1_3]
    unfold outQ
    rw [scr1_at_odd W c t h1, scr1_of_even W c (t.val + 1) _ (by omega)]
    iintro ⟨⟨⟨HA, HM, HL⟩, Hr⟩, Ho, ⟨%d0, H0⟩, ⟨%d1, H1⟩, ⟨%d2, H2⟩, ⟨%d3, H3⟩⟩
    iapply (runB c (grid1.coords t) (fun hc => h ((hcond1_0 t).mp hc)) ((hcond1_1 t).mpr h1) _ _ _ _ _ _ _ _ _ _ _ _ _ _
      (iblk1 W c 0 t) (iblk1 W c 1 t) (iblk1 W c 2 t)
      (accA (iblk1 W c 0 t) (iblk1 W c 1 (prev1 t)) (iblk1 W c 2 (prev1 t)))
      (mA (iblk1 W c 0 t) (iblk1 W c 1 (prev1 t))) (lA (iblk1 W c 0 t) (iblk1 W c 1 (prev1 t))) Set.univ _)
    isplitl [H0]; · iexact H0
    isplitl [H1]; · iexact H1
    isplitl [H2]; · iexact H2
    isplitl [H3]; · iexists _; iexact H3
    isplitl [HA]; · iexact HA
    isplitl [HM]; · iexact HM
    isplitl [HL]; · iexact HL
    iintro ⟨H0, H1, H2, H3, HA, HM, HL⟩
    isplitl [HA HM HL Hr]
    · isplitl [HA HM HL]
      · isplitl [HA]; · iexists _; iexact HA
        isplitl [HM]; · iexists _; iexact HM
        iexists _; iexact HL
      iexact Hr
    isplitl [Ho]; · iexact Ho
    isplitl [H0]; · iexact H0
    isplitl [H1]; · iexact H1
    isplitl [H2]; · iexact H2
    iexact H3

/-- The library's body obligation for region 1, at every point, from any entry valuation. -/
theorem body_obligation1 (W : Valuation τ sig (Elt F)) (c : Dev nD) :
    BodyObligation (dat1 (F := F) W c) (defs₀ (F := F)) Variants.none () Set.univ := by
  intro t
  rw [bigSep_W1, bigSep_W1]
  exact sound_body1 W c t

end Cert.Kernel.Hand

end
-- ==== Proof.K.Between.lean ====
/-
  The kernel program between its items: what each pipelined region leaves in the arrays it may change (what the
  library computes from the region's proof data: each written-back block overwriting its place, in point order), the
  valuations of the core's unscoped buffers after each item built from those, their agreement with the generated
  module's valuations, and the proof data of both regions as one family.
-/
import proofs.«426186_j66417374266003_3_alg».proof.Proof.K.Data
import proofs.«426186_j66417374266003_3_alg».proof.Proof.Gen.Kernel.Regions
import Idealize.ShloMosaic.Lib.Pipeline.Regions
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## What the regions leave, and the valuations between @main's items -/

/-- After region 0: the valuation before it with its three result arrays at what the library computes from the proof
    data (each flushed block overwritten in point order). -/
def Q2 (c : Dev nD) : Valuation τ sig (Elt F) :=
  Function.update (Function.update (Function.update (V1 m c) main_v5_0 ((dat0 (V1 m c) c).arrAt 3 cfg0.N))
    main_v5_1 ((dat0 (V1 m c) c).arrAt 4 cfg0.N)) main_v5_2 ((dat0 (V1 m c) c).arrAt 5 cfg0.N)

/-- After the three reshapes between the regions. -/
def W3 (c : Dev nD) : Valuation τ sig (Elt F) := StableHlo.after hostOps1 (Q2 m c)

/-- After region 1: its result array at what the library computes. -/
def Q4 (c : Dev nD) : Valuation τ sig (Elt F) :=
  Function.update (W3 m c) main_v9 ((dat1 (W3 m c) c).arrAt 3 cfg1.N)

/-- The contents the regions leave, in the generated module's form: item 2 reads the first, item 4 the second. -/
def outsH : Outs (F := F) := fun J r c => if J = 2 then Q2 m c r else Q4 m c r

theorem ne_50_51 : (Proc.devRef .tc main_v5_0 : DevRef τ sig) ≠ Proc.devRef .tc main_v5_1 := StableHlo.devRef_ne_of_ne (by decide)
theorem ne_50_52 : (Proc.devRef .tc main_v5_0 : DevRef τ sig) ≠ Proc.devRef .tc main_v5_2 := StableHlo.devRef_ne_of_ne (by decide)
theorem ne_51_52 : (Proc.devRef .tc main_v5_1 : DevRef τ sig) ≠ Proc.devRef .tc main_v5_2 := StableHlo.devRef_ne_of_ne (by decide)

theorem Q2_50 (c : Dev nD) : Q2 m c main_v5_0 = (dat0 (V1 m c) c).arrAt 3 cfg0.N := by
  unfold Q2; rw [Function.update_of_ne ne_50_52, Function.update_of_ne ne_50_51, Function.update_self]
theorem Q2_51 (c : Dev nD) : Q2 m c main_v5_1 = (dat0 (V1 m c) c).arrAt 4 cfg0.N := by
  unfold Q2; rw [Function.update_of_ne ne_51_52, Function.update_self]
theorem Q2_52 (c : Dev nD) : Q2 m c main_v5_2 = (dat0 (V1 m c) c).arrAt 5 cfg0.N := by
  unfold Q2; rw [Function.update_self]

/-- The generated valuation after item 1, at these contents, is `Q2`. -/
theorem V2_eq (c : Dev nD) : V2 m (outsH m) c = Q2 m c := by
  show Function.update (Function.update (Function.update (V1 m c) main_v5_0 (outsH m 2 main_v5_0 c)) main_v5_1 (outsH m 2 main_v5_1 c)) main_v5_2 (outsH m 2 main_v5_2 c) = _
  rw [show outsH m 2 main_v5_0 c = Q2 m c main_v5_0 from if_pos rfl, show outsH m 2 main_v5_1 c = Q2 m c main_v5_1 from if_pos rfl,
    show outsH m 2 main_v5_2 c = Q2 m c main_v5_2 from if_pos rfl, Q2_50, Q2_51, Q2_52]
  rfl
theorem V3_eq (c : Dev nD) : V3 m (outsH m) c = W3 m c := by
  show StableHlo.after hostOps1 (V2 m (outsH m) c) = _; rw [V2_eq]; rfl
theorem V4_eq (c : Dev nD) : V4 m (outsH m) c = Q4 m c := by
  show Function.update (V3 m (outsH m) c) main_v9 (outsH m 4 main_v9 c) = _
  rw [V3_eq, show outsH m 4 main_v9 c = Q4 m c main_v9 from if_neg (by decide)]
  unfold Q4; rw [Function.update_self]

/-! ## The proof data of both regions at once -/

/-- Region 0 entered at the valuation after the first host stretch, region 1 at the one after the second. -/
def pdats : (p : Fin 2) → (c : Dev nD) → Dat τ (Elt F) Unit ℕ (UR sig nD τ) ℕ (cfgs p) c
  | ⟨0, _⟩ => fun c => dat0 (V1 m c) c
  | ⟨1, _⟩ => fun c => dat1 (W3 m c) c

end Cert.Kernel.Hand

end
-- ==== Proof.K.Frame.lean ====
/-
  The kernel program's run, for any float instance: @main is host lines, the linear-layer region, three reshapes, the
  attention region. The generated conditional frame discharges the host side given, per region, a segment record. Here
  are the two records — each region entered from every unscoped buffer of the core held at the valuation before it
  (its own arrays split out for the pipeline, the others bypassing), running under its body obligation with no
  semaphore of its own and nothing owed, and left with every unscoped buffer held at the valuation updated at its
  results — and the launch: no levels, nothing owed, the pipeline library's launch element the only ghost state. The
  run's post says every unscoped buffer ends at the last valuation; the frame (arguments unchanged) and the result
  array's final contents are read off it.
-/
import proofs.«426186_j66417374266003_3_alg».proof.Proof.K.Between
import proofs.«426186_j66417374266003_3_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The launch's parameters: no levels, nothing owed, no ghost resources beyond the library's -/

/-- What rides beside the buffers between items: the core owes nothing. -/
abbrev Eo (c : Dev nD) : sProp 𝕄 := iprop(∃ W, owes (c : Thread nD τ) (0 : CellTallies nD τ sig Unit) W)
abbrev L0 : GSem nD τ sig → Finset Unit := fun _ => ∅
abbrev lv0 : GSem nD τ sig → Unit → ℕ := fun _ _ => 0

section Regions

variable (hb0 : ∀ (W : Valuation τ sig (Elt F)) (c : Dev nD), BodyObligation (dat0 (F := F) W c) (defs₀ (F := F)) Variants.none () Set.univ)

/-- The valuation after region 0 has each of region 0's arrays at its final contents: an input as it was, a result
    at what the library computes. -/
theorem Q2_arr (c : Dev nD) (w : Fin cfg0.W) : (pdats m 0 c).arrAt w cfg0.N = Q2 m c (Pipeline.arrRef spec0 w) := by
  match w with
  | ⟨0, _⟩ => exact ((pdats m 0 c).arrAt_in _ rfl _).trans (by unfold Q2; rw [Function.update_of_ne (StableHlo.devRef_ne_of_ne (show (main_v0 : Ref sig .tc) ≠ main_v5_2 by decide)), Function.update_of_ne (StableHlo.devRef_ne_of_ne (show (main_v0 : Ref sig .tc) ≠ main_v5_1 by decide)), Function.update_of_ne (StableHlo.devRef_ne_of_ne (show (main_v0 : Ref sig .tc) ≠ main_v5_0 by decide))]; rfl)
  | ⟨1, _⟩ => exact ((pdats m 0 c).arrAt_in _ rfl _).trans (by unfold Q2; rw [Function.update_of_ne (StableHlo.devRef_ne_of_ne (show (main_v2 : Ref sig .tc) ≠ main_v5_2 by decide)), Function.update_of_ne (StableHlo.devRef_ne_of_ne (show (main_v2 : Ref sig .tc) ≠ main_v5_1 by decide)), Function.update_of_ne (StableHlo.devRef_ne_of_ne (show (main_v2 : Ref sig .tc) ≠ main_v5_0 by decide))]; rfl)
  | ⟨2, _⟩ => exact ((pdats m 0 c).arrAt_in _ rfl _).trans (by unfold Q2; rw [Function.update_of_ne (StableHlo.devRef_ne_of_ne (show (main_v4 : Ref sig .tc) ≠ main_v5_2 by decide)), Function.update_of_ne (StableHlo.devRef_ne_of_ne (show (main_v4 : Ref sig .tc) ≠ main_v5_1 by decide)), Function.update_of_ne (StableHlo.devRef_ne_of_ne (show (main_v4 : Ref sig .tc) ≠ main_v5_0 by decide))]; rfl)
  | ⟨3, _⟩ => exact (Q2_50 m c).symm
  | ⟨4, _⟩ => exact (Q2_51 m c).symm
  | ⟨5, _⟩ => exact (Q2_52 m c).symm

/-- Off region 0's arrays the valuation after it is the one before it. -/
theorem Q2_rest (c : Dev nD) (b : Ref sig .tc) (hb : b ∉ Finset.univ.image (Pipeline.arrRef spec0)) : Q2 m c b = V1 m c b := by
  have h3 : b ≠ main_v5_0 := fun h => hb (Finset.mem_image.mpr ⟨3, Finset.mem_univ _, h.symm⟩)
  have h4 : b ≠ main_v5_1 := fun h => hb (Finset.mem_image.mpr ⟨4, Finset.mem_univ _, h.symm⟩)
  have h5 : b ≠ main_v5_2 := fun h => hb (Finset.mem_image.mpr ⟨5, Finset.mem_univ _, h.symm⟩)
  unfold Q2
  rw [Function.update_of_ne (StableHlo.devRef_ne_of_ne h5), Function.update_of_ne (StableHlo.devRef_ne_of_ne h4), Function.update_of_ne (StableHlo.devRef_ne_of_ne h3)]

-- applying a launch lemma stated over the pinned configuration unifies only when unification may unfold plain
-- definitions in a metavariable's type
set_option maxHeartbeats 1600000 in
set_option backward.isDefEq.respectTransparency.types false in
/-- REGION 0 as a segment: the launch's layout, no semaphore of its own, the body obligation; entered from every
    unscoped buffer held at the valuation after the first host stretch — its six arrays into the pipeline, the others
    bypassing —, left with them held at that valuation updated at its three results. -/
def reg0 : RegionSeg (pcfgs (F := F)) adm (pdats m) () defs₀ Variants.none L0 lv0 0 where
  win := launch0.win.to₀
  block_pos := launch0.block_pos
  stage_whole := launch0.stage_whole
  K := PEmpty
  osem := fun k => k.elim
  ho := Pipeline.OwnSemFacts.none _
  hbody c := (hb0 (V1 m c) c).loose
  hwaits := Pipeline.hwaits_of_owed_zero _ _ _ _ L0 lv0 0 fun _ _ => rfl
  pre c := iprop(StableHlo.held (c : Thread nD τ) (Pipeline.ucRefs τ sig) (V1 m c) ∗ Eo c)
  post c := iprop(StableHlo.held (c : Thread nD τ) (Pipeline.ucRefs τ sig) (Q2 m c) ∗ Eo c)
  X _ := BI.emp
  Y _ := BI.emp
  Z c := Pipeline.unscopedRest (Ix := Unit) (Name := ℕ) (U := UR sig nD τ) (Lvl := ℕ) spec0 c (fun b => V1 m c b)
  hentry c := by
    rw [← Pipeline.unscopedBufs_held (Ix := Unit) (Name := ℕ) (U := UR sig nD τ) (Lvl := ℕ) c (V1 m c)]
    have hsplit := Pipeline.arrays_of_unscopedBufs (pcfgs (F := F)) adm (pdats m) (p := 0) launch0.win launch0.arr_whole c
      ((pdats m 0 c).share_full fun _ => rfl) (fun b => V1 m c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held (Ix := Unit) (Name := ℕ) (U := UR sig nD τ) (Lvl := ℕ) c (Q2 m c)]
    have hjoin := Pipeline.unscopedBufs_of_arrays (pcfgs (F := F)) adm (p := 0) launch0.win launch0.arr_whole c (pdats m)
      ((pdats m 0 c).share_full fun _ => rfl) (fun b => V1 m c b) (fun b => Q2 m c b) ((pdats m 0 c).arrAt · cfg0.N)
      (Q2_arr m c) (Q2_rest m c)
    iintro ⟨Ha, HO, -, HZ⟩
    imodintro
    isplitl [Ha HZ]
    · iapply hjoin; isplitl [Ha] <;> iassumption
    · unfold Pipeline.Dat.owesAt Pipeline.owesWithin
      icases HO with ⟨%W, -, HO⟩; iexists W; iexact HO

end Regions

/-- The scoped buffers region 1 does not stage: its three scratch buffers, each owned whole at some contents, and the
    rest. -/
theorem scoped1_eq (c : Dev nD) :
    (Pipeline.scopedRest (Ix := Unit) (Name := ℕ) (U := UR sig nD τ) (Lvl := ℕ) (Val := Elt F) spec1 c : sProp 𝕄)
      = iprop(((∃ d, owns (c : Thread nD τ) scAcc fullShare d) ∗ (∃ d, owns (c : Thread nD τ) scMax fullShare d) ∗ (∃ d, owns (c : Thread nD τ) scSum fullShare d)) ∗ rest1 c) := by
  rw [Pipeline.scopedRest_split_of_list spec1 c [cc1_scratch0, cc1_scratch1, cc1_scratch2] (by decide) (by decide)]
  unfold rest1
  simp only [scAcc, scMax, scSum, owns_whole]
  rfl

section Region1

variable (hb1 : ∀ (W : Valuation τ sig (Elt F)) (c : Dev nD), BodyObligation (dat1 (F := F) W c) (defs₀ (F := F)) Variants.none () Set.univ)

/-- The valuation after region 1 has each of its arrays at its final contents. -/
theorem Q4_arr (c : Dev nD) (w : Fin cfg1.W) : (pdats m 1 c).arrAt w cfg1.N = Q4 m c (Pipeline.arrRef spec1 w) := by
  match w with
  | ⟨0, _⟩ => exact ((pdats m 1 c).arrAt_in _ rfl _).trans (by unfold Q4; rw [Function.update_of_ne (StableHlo.devRef_ne_of_ne (show (main_v6 : Ref sig .tc) ≠ main_v9 by decide))]; rfl)
  | ⟨1, _⟩ => exact ((pdats m 1 c).arrAt_in _ rfl _).trans (by unfold Q4; rw [Function.update_of_ne (StableHlo.devRef_ne_of_ne (show (main_v7 : Ref sig .tc) ≠ main_v9 by decide))]; rfl)
  | ⟨2, _⟩ => exact ((pdats m 1 c).arrAt_in _ rfl _).trans (by unfold Q4; rw [Function.update_of_ne (StableHlo.devRef_ne_of_ne (show (main_v8 : Ref sig .tc) ≠ main_v9 by decide))]; rfl)
  | ⟨3, _⟩ => exact (by unfold Q4; rw [Function.update_self]; rfl)

/-- Off region 1's arrays the valuation after it is the one before it. -/
theorem Q4_rest (c : Dev nD) (b : Ref sig .tc) (hb : b ∉ Finset.univ.image (Pipeline.arrRef spec1)) : Q4 m c b = W3 m c b := by
  have h3 : b ≠ main_v9 := fun h => hb (Finset.mem_image.mpr ⟨3, Finset.mem_univ _, h.symm⟩)
  unfold Q4
  rw [Function.update_of_ne (StableHlo.devRef_ne_of_ne h3)]

set_option maxHeartbeats 1600000 in
set_option backward.isDefEq.respectTransparency.types false in
/-- REGION 1 as a segment: entered from every unscoped buffer held at the valuation after the second host stretch,
    left with them held at that valuation updated at its result. -/
def reg1 : RegionSeg (pcfgs (F := F)) adm (pdats m) () defs₀ Variants.none L0 lv0 1 where
  win := launch1.win.to₀
  block_pos := launch1.block_pos
  stage_whole := launch1.stage_whole
  K := PEmpty
  osem := fun k => k.elim
  ho := Pipeline.OwnSemFacts.none _
  hbody c := (hb1 (W3 m c) c).loose
  hwaits := Pipeline.hwaits_of_owed_zero _ _ _ _ L0 lv0 1 fun _ _ => rfl
  pre c := iprop(StableHlo.held (c : Thread nD τ) (Pipeline.ucRefs τ sig) (W3 m c) ∗ Eo c)
  post c := iprop(StableHlo.held (c : Thread nD τ) (Pipeline.ucRefs τ sig) (Q4 m c) ∗ Eo c)
  X _ := BI.emp
  Y _ := BI.emp
  Z c := Pipeline.unscopedRest (Ix := Unit) (Name := ℕ) (U := UR sig nD τ) (Lvl := ℕ) spec1 c (fun b => W3 m c b)
  hentry c := by
    rw [← Pipeline.unscopedBufs_held (Ix := Unit) (Name := ℕ) (U := UR sig nD τ) (Lvl := ℕ) c (W3 m c)]
    have hsplit := Pipeline.arrays_of_unscopedBufs (pcfgs (F := F)) adm (pdats m) (p := 1) launch1.win launch1.arr_whole c
      ((pdats m 1 c).share_full fun _ => rfl) (fun b => W3 m c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 1 c).Φ 0 = iprop(scr1 (W3 m c) c 0 (Nat.zero_le _) ∗ rest1 c) from rfl, show (Pipeline.scopedRest (Ix := Unit) (Name := ℕ) (U := UR sig nD τ) (Lvl := ℕ) (Val := Elt F) (Pipeline.pin (pcfgs (F := F)) adm 1).spec c : sProp 𝕄) = _ from scoped1_eq (F := F) c]
    unfold scr1; rw [dif_neg (by decide)]
    iintro ⟨-, -, Hr⟩; iexact Hr
  hout c := by
    rw [Pipeline.ownSems0_none, show (pdats m 1 c).Φ (Fin.last (Pipeline.pin (pcfgs (F := F)) adm 1).N) = iprop(scr1 (W3 m c) c cfg1.N (Nat.le_refl _) ∗ rest1 c) from rfl, show (Pipeline.scopedRest (Ix := Unit) (Name := ℕ) (U := UR sig nD τ) (Lvl := ℕ) (Val := Elt F) (Pipeline.pin (pcfgs (F := F)) adm 1).spec c : sProp 𝕄) = _ from scoped1_eq (F := F) c]
    unfold scr1; rw [dif_neg (by decide)]
    iintro Hr
    isplitr; · iempintro
    isplitr; · iempintro
    iexact Hr
  hexit c := by
    rw [← Pipeline.unscopedBufs_held (Ix := Unit) (Name := ℕ) (U := UR sig nD τ) (Lvl := ℕ) c (Q4 m c)]
    have hjoin := Pipeline.unscopedBufs_of_arrays (pcfgs (F := F)) adm (p := 1) launch1.win launch1.arr_whole c (pdats m)
      ((pdats m 1 c).share_full fun _ => rfl) (fun b => W3 m c b) (fun b => Q4 m c b) ((pdats m 1 c).arrAt · cfg1.N)
      (Q4_arr m c) (Q4_rest m c)
    iintro ⟨Ha, HO, -, HZ⟩
    imodintro
    isplitl [Ha HZ]
    · iapply hjoin; isplitl [Ha] <;> iassumption
    · unfold Pipeline.Dat.owesAt Pipeline.owesWithin
      icases HO with ⟨%W, -, HO⟩; iexists W; iexact HO

end Region1

/-! ## The run of @main, given the regions' records: every unscoped buffer ends at the last valuation -/

-- the launch theorem's implicit arguments are found by unifying its conclusion with this one, which takes unfolding
-- plain definitions in a metavariable's type
set_option backward.isDefEq.respectTransparency.types false in
/-- For any contents the regions leave and any proof data: GIVEN, per region, a segment record entered from the thread
    state before it and left at the one after it, every weakly fair execution of @main from memory `m` with zero counters
    terminates, and in every final memory each unscoped buffer of each core holds what the valuation after the last item
    says: the arguments as launched, each intermediate array at its stage, the result at what region 1 leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => ∀ b ∈ Pipeline.ucRefs τ sig, s.mem ((c : Thread nD τ).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro; exact h
    · iexact HSI

/-! ## The launch -/

section Launch

set_option maxHeartbeats 1600000 in
/-- THE RUN. From any memory with zero counters every weakly fair execution of @main terminates, and every unscoped
    buffer of every core ends at the valuation after the last item, built from what the two regions' proof data leave:
    no levels, nothing owed at launch or between items, the library's launch element the only ghost state. -/
theorem run_all (hb0 : ∀ (W : Valuation τ sig (Elt F)) (c : Dev nD), BodyObligation (dat0 (F := F) W c) (defs₀ (F := F)) Variants.none () Set.univ)
    (hb1 : ∀ (W : Valuation τ sig (Elt F)) (c : Dev nD), BodyObligation (dat1 (F := F) W c) (defs₀ (F := F)) Variants.none () Set.univ)
    (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V4 m (outsH m) c b) :=
  run_cond (F := F) m (Ix := Unit) (U := UR sig nD τ) (Lvl := ℕ) emb₁ () Variants.none L0 lv0 (fun _ _ => rfl) ρ (outsH m) (pdats m)
    (fun _ => 0) (fun _ => BI.emp) (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Eo c)
    (Pipeline.initEach L0 lv0 fun c => by
      iintro ⟨⟨-, HO, -, -, -⟩, -⟩
      imodintro
      iexists ∅; iexact HO)
    (fun c => .rfl)
    (reg0 m hb0) (fun c => .rfl) (fun c => by rw [V2_eq]; exact .rfl)
    (reg1 m hb1) (fun c => by rw [V3_eq]; exact .rfl) (fun c => by rw [V4_eq]; exact .rfl)

/-- The frame: every argument array ends as launched (no host line writes one, no region may change one). -/
theorem frameH (hb0 : ∀ (W : Valuation τ sig (Elt F)) (c : Dev nD), BodyObligation (dat0 (F := F) W c) (defs₀ (F := F)) Variants.none () Set.univ)
    (hb1 : ∀ (W : Valuation τ sig (Elt F)) (c : Dev nD), BodyObligation (dat1 (F := F) W c) (defs₀ (F := F)) Variants.none () Set.univ)
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (V4_main_arg0 m (outsH m) c),
     (h c (Proc.devRef .tc main_arg1) (Finset.mem_filter.mpr ⟨StableHlo.devRef_mem_tcRefs main_arg1, by decide⟩)).trans (V4_main_arg1 m (outsH m) c),
     (h c (Proc.devRef .tc main_arg2) (Finset.mem_filter.mpr ⟨StableHlo.devRef_mem_tcRefs main_arg2, by decide⟩)).trans (V4_main_arg2 m (outsH m) c),
     (h c (Proc.devRef .tc main_arg3) (Finset.mem_filter.mpr ⟨StableHlo.devRef_mem_tcRefs main_arg3, by decide⟩)).trans (V4_main_arg3 m (outsH m) c),
     (h c (Proc.devRef .tc main_arg4) (Finset.mem_filter.mpr ⟨StableHlo.devRef_mem_tcRefs main_arg4, by decide⟩)).trans (V4_main_arg4 m (outsH m) c),
     (h c (Proc.devRef .tc main_arg5) (Finset.mem_filter.mpr ⟨StableHlo.devRef_mem_tcRefs main_arg5, by decide⟩)).trans (V4_main_arg5 m (outsH m) c),
     (h c (Proc.devRef .tc main_arg6) (Finset.mem_filter.mpr ⟨StableHlo.devRef_mem_tcRefs main_arg6, by decide⟩)).trans (V4_main_arg6 m (outsH m) c)⟩) (run_all m hb0 hb1 ρ)

/-- The value: the result array ends at what region 1's proof data leave in it, beside the frame. -/
theorem valueH (hb0 : ∀ (W : Valuation τ sig (Elt F)) (c : Dev nD), BodyObligation (dat0 (F := F) W c) (defs₀ (F := F)) Variants.none () Set.univ)
    (hb1 : ∀ (W : Valuation τ sig (Elt F)) (c : Dev nD), BodyObligation (dat1 (F := F) W c) (defs₀ (F := F)) Variants.none () Set.univ)
    (ρ : Dev nD → PrngReg) :
    θ_run defs (onTc (τ := τ) (main (F := F))) ⟨m, fun _ => 0, ρ⟩ (fun r => ∀ c : Dev nD,
      r.2.mem ((c.tc : Thread nD τ).loc main_v9) = Q4 m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_v9) (Finset.mem_filter.mpr ⟨StableHlo.devRef_mem_tcRefs main_v9, by decide⟩)).trans (by rw [V4_eq]),
     (h c (Proc.devRef .tc main_arg0) (Finset.mem_filter.mpr ⟨StableHlo.devRef_mem_tcRefs main_arg0, by decide⟩)).trans (V4_main_arg0 m (outsH m) c),
     (h c (Proc.devRef .tc main_arg1) (Finset.mem_filter.mpr ⟨StableHlo.devRef_mem_tcRefs main_arg1, by decide⟩)).trans (V4_main_arg1 m (outsH m) c),
     (h c (Proc.devRef .tc main_arg2) (Finset.mem_filter.mpr ⟨StableHlo.devRef_mem_tcRefs main_arg2, by decide⟩)).trans (V4_main_arg2 m (outsH m) c),
     (h c (Proc.devRef .tc main_arg3) (Finset.mem_filter.mpr ⟨StableHlo.devRef_mem_tcRefs main_arg3, by decide⟩)).trans (V4_main_arg3 m (outsH m) c),
     (h c (Proc.devRef .tc main_arg4) (Finset.mem_filter.mpr ⟨StableHlo.devRef_mem_tcRefs main_arg4, by decide⟩)).trans (V4_main_arg4 m (outsH m) c),
     (h c (Proc.devRef .tc main_arg5) (Finset.mem_filter.mpr ⟨StableHlo.devRef_mem_tcRefs main_arg5, by decide⟩)).trans (V4_main_arg5 m (outsH m) c),
     (h c (Proc.devRef .tc main_arg6) (Finset.mem_filter.mpr ⟨StableHlo.devRef_mem_tcRefs main_arg6, by decide⟩)).trans (V4_main_arg6 m (outsH m) c)⟩) (run_all m hb0 hb1 ρ)

end Launch

end Cert.Kernel.Hand

end
-- ==== Proof.KI.Data.lean ====
/-
  The proof data of the two pipelined regions, for any float instance.

  Region 0 (the fused linear layers) visits 16 row blocks of 512 rows; at each it loads the block of `x`, the whole
  concatenated weight and bias, and stores three column slices of `x · Wcat + bcat` into its three output blocks. Nothing
  is carried between points: what it leaves in each output's staging buffer is a function of the point's input blocks.

  Region 1 (attention) visits the 16 points (batch b, query block qi, key block kv) with kv innermost, so a point `t` has
  kv = t mod 2. At kv = 0 the body first resets its three scratch buffers (accumulator 0, running maximum -inf, running
  sum 0) and then performs one online-softmax update with key block 0; at kv = 1 it performs the update with key block 1
  on what the point before left, and stores accumulator / sum into the output block, which the pipeline writes back only
  there. So between points the scratch buffers hold: before an even point anything (the body overwrites them before
  reading), before an odd point `t` the values one update from the reset leaves on the blocks of point `t - 1`.

  Both are stated over an arbitrary valuation `W` of the core's unscoped buffers at the region's entry.
-/
import proofs.«426186_j66417374266003_3_alg».proof.Proof.Gen.KernelIdeal.Launch
import proofs.«426186_j66417374266003_3_alg».proof.Proof.Gen.KernelIdeal.Skeleton
import proofs.«426186_j66417374266003_3_alg».proof.Proof.Gen.KernelIdeal.Points
import Idealize.ShloMosaic.Lib.Pipeline.FrameBody
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Blocks -/

/-- Window `w` of region 0 at point `t`: the block of its array, the array read off the entry valuation. -/
def iblk0 (W : Valuation τ sig (Elt F)) (c : Dev nD) (w : Fin cfg0.W) (t : Fin cfg0.N) :
    ((cfg0.win w).xblock (cfg0.grid.coords t)).Idx → Elt F (cfg0.win w).elt :=
  ((cfg0.win w).blk t).view.read (Elt F) (W (Pipeline.arrRef spec0 w))

/-- Window `w` of region 1 at point `t`. -/
def iblk1 (W : Valuation τ sig (Elt F)) (c : Dev nD) (w : Fin cfg1.W) (t : Fin cfg1.N) :
    ((cfg1.win w).xblock (cfg1.grid.coords t)).Idx → Elt F (cfg1.win w).elt :=
  ((cfg1.win w).blk t).view.read (Elt F) (W (Pipeline.arrRef spec1 w))

/-- The point before `t` (the point itself at the first one, where nothing reads it). -/
def prev1 (t : Fin cfg1.N) : Fin cfg1.N := ⟨t.val - 1, Nat.lt_of_le_of_lt (Nat.sub_le _ _) t.isLt⟩

/-! ## The attention body's two branch conditions, in closed form over the grid -/

/-- "This is key block 0": the condition of the reset. -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "This is the last key block": the condition of the final division and store. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## What one online-softmax update leaves, over the generated payload names -/

/-- After the update from the reset on blocks `q k`: the running maximum, -/
def mA (q k : Vec F S1x1024x1024 .bf16) : Vec F S1x1024x1 .f32 := k1_pay2 (k1_pay9 q k k1_pay5)
/-- the running sum, -/
def lA (q k : Vec F S1x1024x1024 .bf16) : Vec F S1x1024x1 .f32 := k1_pay12 q k k1_pay5 k1_pay6
/-- and the accumulator. -/
def accA (q k v : Vec F S1x1024x1024 .bf16) : Vec F S1x1024x1024 .f32 :=
  k1_pay1 (k1_pay7 v) (k1_pay10 q k k1_pay5) (k1_pay11 q k k1_pay5) k1_pay4

/-- After the update on blocks `q k` from a running maximum `m0`: the new maximum, -/
def mB (q k : Vec F S1x1024x1024 .bf16) (m0 : Vec F S1x1024x1 .f32) : Vec F S1x1024x1 .f32 :=
  k1_pay2 (k1_pay9 q k m0)
/-- the new sum from `l0`, -/
def lB (q k : Vec F S1x1024x1024 .bf16) (m0 l0 : Vec F S1x1024x1 .f32) : Vec F S1x1024x1 .f32 :=
  k1_pay12 q k m0 l0
/-- the new accumulator from `a0`, -/
def accB (q k v : Vec F S1x1024x1024 .bf16) (m0 : Vec F S1x1024x1 .f32) (a0 : Vec F S1x1024x1024 .f32) :
    Vec F S1x1024x1024 .f32 :=
  k1_pay1 (k1_pay7 v) (k1_pay10 q k m0) (k1_pay11 q k m0) a0
/-- and the output block: the new accumulator divided by the new sum. -/
def outB (q k v : Vec F S1x1024x1024 .bf16) (m0 l0 : Vec F S1x1024x1 .f32) (a0 : Vec F S1x1024x1024 .f32) :
    Vec F S1x1024x1024 .f32 :=
  k1_pay3 (accB q k v m0 a0) (lB q k m0 l0)

/-- The output block of an odd point from the five blocks it depends on: query block, then keys and values of key
    block 0 (the point before) and of key block 1 (this point). -/
def outQ (q k0 v0 k1 v1 : Vec F S1x1024x1024 .bf16) : Vec F S1x1024x1024 .f32 :=
  outB q k1 v1 (mA q k0) (lA q k0) (accA q k0 v0)

/-! ## The scratch buffers between points -/

abbrev scAcc : Memref sig .tc .vmem S1x1024x1024 .f32 := Memref.whole cc1_scratch0
abbrev scMax : Memref sig .tc .vmem S1x1024x1 .f32 := Memref.whole cc1_scratch1
abbrev scSum : Memref sig .tc .vmem S1x1024x1 .f32 := Memref.whole cc1_scratch2

/-- The scoped buffers region 1 does not stage, other than its three scratch buffers: region 0's staging buffers, each
    at some contents. -/
def rest1 (c : Dev nD) : sProp 𝕄 :=
  Pipeline.scopedRestBut (Ix := Unit) (Name := ℕ) (U := UR sig nD τ) (Lvl := ℕ) (Val := Elt F) spec1 c [cc1_scratch0, cc1_scratch1, cc1_scratch2]

/-! ## The proof data -/

/-- Region 0 on core `c`, entered at the valuation `W`: its arrays as `W` has them; after the body each input's buffer
    at its block, each output's at its column slice of `x · Wcat + bcat` on the point's blocks; the scoped buffers it
    does not stage ride along at some contents; nothing owed; full shares. -/
def dat0 (W : Valuation τ sig (Elt F)) (c : Dev nD) : Dat τ (Elt F) Unit ℕ (UR sig nD τ) ℕ cfg0 c where
  A w := W (Pipeline.arrRef spec0 w)
  after w t := match w with
    | ⟨0, _⟩ => iblk0 W c 0 t
    | ⟨1, _⟩ => iblk0 W c 1 t
    | ⟨2, _⟩ => iblk0 W c 2 t
    | ⟨3, _⟩ => k0_pay2 (iblk0 W c 0 t) (iblk0 W c 1 t) (iblk0 W c 2 t)
    | ⟨4, _⟩ => k0_pay3 (iblk0 W c 0 t) (iblk0 W c 1 t) (iblk0 W c 2 t)
    | ⟨5, _⟩ => k0_pay4 (iblk0 W c 0 t) (iblk0 W c 1 t) (iblk0 W c 2 t)
  Φ _ := Pipeline.scopedRest (Ix := Unit) (Name := ℕ) (U := UR sig nD τ) (Lvl := ℕ) (Val := Elt F) spec0 c
  q _ := fullShare
  owed _ := 0

/-- The three scratch buffers before position `n` of region 1: before an odd position at what the update from the
    reset leaves on the blocks of the point before; before an even one at anything. -/
def scr1 (W : Valuation τ sig (Elt F)) (c : Dev nD) (n : ℕ) (hn : n ≤ cfg1.N) : sProp 𝕄 :=
  if h : n % 2 = 1 then
    iprop(owns (c : Thread nD τ) scAcc fullShare (accA (iblk1 W c 0 ⟨n - 1, by omega⟩) (iblk1 W c 1 ⟨n - 1, by omega⟩) (iblk1 W c 2 ⟨n - 1, by omega⟩))
      ∗ owns (c : Thread nD τ) scMax fullShare (mA (iblk1 W c 0 ⟨n - 1, by omega⟩) (iblk1 W c 1 ⟨n - 1, by omega⟩))
      ∗ owns (c : Thread nD τ) scSum fullShare (lA (iblk1 W c 0 ⟨n - 1, by omega⟩) (iblk1 W c 1 ⟨n - 1, by omega⟩)))
  else
    iprop((∃ d, owns (c : Thread nD τ) scAcc fullShare d) ∗ (∃ d, owns (c : Thread nD τ) scMax fullShare d) ∗ (∃ d, owns (c : Thread nD τ) scSum fullShare d))

/-- Region 1 on core `c`, entered at the valuation `W`: after the body each input's buffer at its block, the output's
    (consulted at odd points only: at even ones the window is idle and not written back) at the quotient on the point's
    query block and both key blocks' keys and values; the invariant the scratch buffers as above beside region 0's
    staging buffers at some contents. -/
def dat1 (W : Valuation τ sig (Elt F)) (c : Dev nD) : Dat τ (Elt F) Unit ℕ (UR sig nD τ) ℕ cfg1 c where
  A w := W (Pipeline.arrRef spec1 w)
  after w t := match w with
    | ⟨0, _⟩ => iblk1 W c 0 t
    | ⟨1, _⟩ => iblk1 W c 1 t
    | ⟨2, _⟩ => iblk1 W c 2 t
    | ⟨3, _⟩ => outQ (iblk1 W c 0 t) (iblk1 W c 1 (prev1 t)) (iblk1 W c 2 (prev1 t)) (iblk1 W c 1 t) (iblk1 W c 2 t)
  Φ t := iprop(scr1 W c t.val (Nat.le_of_lt_succ t.isLt) ∗ rest1 c)
  q _ := fullShare
  owed _ := 0

end Cert.KernelIdeal.Hand

end
-- ==== Proof.KI.Run0.lean ====
/-
  The fused linear-layer kernel's body, run on any whole staging buffers: what it leaves in its three output buffers.
-/
import proofs.«426186_j66417374266003_3_alg».proof.Proof.KI.Data
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two rectangle, however they are spelt. -/
private theorem zero2 : (![0, 0] : Fin 2 → Nat) = fun _ => 0 := by
  funext a; fin_cases a <;> rfl

/-- One store through the whole-shape rectangle at zero offsets, read back through the view, is the stored payload:
    the rectangle holds every index, so the earlier contents are gone. -/
private theorem read_store_whole {κ : Kind} {sp : Space} {S : Shape} {e : EltTy} (v : View sig κ sp S e)
    (f : v.ty.Contents (Elt F)) {off : Fin S.rank → Nat} (h : off = fun _ => 0)
    (inb : ∀ a, off a + S.size a ≤ S.size a) (p : S.Idx → Elt F e) :
    v.read (Elt F) (v.writes (Elt F) f [(⟨Rect.unit off S.size inb, p⟩ : View.Piece (Elt F) S e)]) = p := by
  rw [View.read_writes_eq_canon _ _ _ (fun y => ⟨_, List.mem_singleton_self _, View.mem_set_unit_zero h inb y⟩),
    View.canon_unit_zero h]

/-- A load through the whole-shape rectangle at zero offsets of a whole memref whose contents read `X` reads `X`. -/
private theorem readAt_whole {S : Shape} {e : EltTy} {m : Memref sig .tc .vmem S e} (hm : m.IsWhole)
    {off : Fin S.rank → Nat} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

set_option maxHeartbeats 1000000 in
/-- The linear-layer body on any whole staging memrefs: from the three inputs at `x`, `w`, `b` and the three outputs at
    anything it runs to the inputs as they were and each output at its column slice of `x · w + b`. -/
theorem run0 (c : Dev nD) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x1024 .bf16) (harg4 : arg4.IsWhole)
    (arg5 : Memref sig .tc .vmem S512x1024 .bf16) (harg5 : arg5.IsWhole) (arg6 : Memref sig .tc .vmem S512x1024 .bf16) (harg6 : arg6.IsWhole)
    (x : Vec F S512x1024 .f32) (w : Vec F S1024x3072 .bf16) (b : Vec F S1x3072 .f32) (E : Set ℕ) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x ∗ owns (c : Thread nD τ) arg2 fullShare w ∗ owns (c : Thread nD τ) arg3 fullShare b
            ∗ owns (c : Thread nD τ) arg4 fullShare (k0_pay2 x w b) ∗ owns (c : Thread nD τ) arg5 fullShare (k0_pay3 x w b)
            ∗ owns (c : Thread nD τ) arg6 fullShare (k0_pay4 x w b)) -∗ K ⟨⟩))
      ⊢ wp frame (wpE (defs₀ (F := F)) Variants.none c none) E
          (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, %hf3, H3⟩, ⟨%d4, %f4, %hf4, H4⟩, ⟨%d5, %f5, %hf5, H5⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_store_whole _ _ zero2, readAt_whole harg1 zero2, readAt_whole harg2 zero2, readAt_whole harg3 zero2]
  isplitl [H4]
  · iexists _; isplitr
    swap; · iexact H4
    ipureintro
    rw [read_store_whole _ _ zero2, readAt_whole harg1 zero2, readAt_whole harg2 zero2, readAt_whole harg3 zero2]
  iexists _; isplitr
  swap; · iexact H5
  ipureintro
  rw [read_store_whole _ _ zero2, readAt_whole harg1 zero2, readAt_whole harg2 zero2, readAt_whole harg3 zero2]

end Cert.KernelIdeal.Hand

end
-- ==== Proof.KI.Body0.lean ====
/-
  Region 0's body obligation: at every grid point the linear-layer body, handed its input blocks and its output
  buffers, leaves what the proof data names.
-/
import proofs.«426186_j66417374266003_3_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The proof data projected -/

/-- The proof data's arrays are the entry valuation's. -/
theorem A0_eq (W : Valuation τ sig (Elt F)) (c : Dev nD) (w : Fin cfg0.W) :
    (dat0 W c).A w = W (Pipeline.arrRef spec0 w) := by
  dsimp only [dat0]

/-- What the body leaves, window by window: each input's buffer at its block, each output's at its slice. -/
theorem after0_0 (W : Valuation τ sig (Elt F)) (c : Dev nD) (t : Fin cfg0.N) :
    (dat0 W c).after 0 t = iblk0 W c 0 t := by dsimp only [dat0]
theorem after0_1 (W : Valuation τ sig (Elt F)) (c : Dev nD) (t : Fin cfg0.N) :
    (dat0 W c).after 1 t = iblk0 W c 1 t := by dsimp only [dat0]
theorem after0_2 (W : Valuation τ sig (Elt F)) (c : Dev nD) (t : Fin cfg0.N) :
    (dat0 W c).after 2 t = iblk0 W c 2 t := by dsimp only [dat0]
theorem after0_3 (W : Valuation τ sig (Elt F)) (c : Dev nD) (t : Fin cfg0.N) :
    (dat0 W c).after 3 t = k0_pay2 (iblk0 W c 0 t) (iblk0 W c 1 t) (iblk0 W c 2 t) := by dsimp only [dat0]
theorem after0_4 (W : Valuation τ sig (Elt F)) (c : Dev nD) (t : Fin cfg0.N) :
    (dat0 W c).after 4 t = k0_pay3 (iblk0 W c 0 t) (iblk0 W c 1 t) (iblk0 W c 2 t) := by dsimp only [dat0]
theorem after0_5 (W : Valuation τ sig (Elt F)) (c : Dev nD) (t : Fin cfg0.N) :
    (dat0 W c).after 5 t = k0_pay4 (iblk0 W c 0 t) (iblk0 W c 1 t) (iblk0 W c 2 t) := by dsimp only [dat0]

/-- Each input's current staging buffer holds its block at every point, fetched there or not: the body leaves an input
    block in place, and where the pipeline does not fetch, the block index has not moved. -/
theorem before0_0 (W : Valuation τ sig (Elt F)) (c : Dev nD) (t : Fin cfg0.N) (d) :
    (dat0 W c).before 0 t d = iblk0 W c 0 t :=
  ((dat0 W c).before_in_eq_fetched 0 rfl (fun _ => rfl) (fun _ _ _ => rfl)
    (fun t => by rw [after0_0]; unfold Dat.blockOf iblk0; rw [A0_eq]; try rfl) t d).trans
    (by unfold Dat.fetched Dat.blockOf iblk0; rw [A0_eq]; try rfl)
theorem before0_1 (W : Valuation τ sig (Elt F)) (c : Dev nD) (t : Fin cfg0.N) (d) :
    (dat0 W c).before 1 t d = iblk0 W c 1 t :=
  ((dat0 W c).before_in_eq_fetched 1 rfl (fun _ => rfl) (fun _ _ _ => rfl)
    (fun t => by rw [after0_1]; unfold Dat.blockOf iblk0; rw [A0_eq]; try rfl) t d).trans
    (by unfold Dat.fetched Dat.blockOf iblk0; rw [A0_eq]; try rfl)
theorem before0_2 (W : Valuation τ sig (Elt F)) (c : Dev nD) (t : Fin cfg0.N) (d) :
    (dat0 W c).before 2 t d = iblk0 W c 2 t :=
  ((dat0 W c).before_in_eq_fetched 2 rfl (fun _ => rfl) (fun _ _ _ => rfl)
    (fun t => by rw [after0_2]; unfold Dat.blockOf iblk0; rw [A0_eq]; try rfl) t d).trans
    (by unfold Dat.fetched Dat.blockOf iblk0; rw [A0_eq]; try rfl)

/-! ## The body obligation, at a generic point -/

/-- What the body is called with at point `t`: the invariant, what the core owes, and the six current staging buffers, -/
def bodyPre0 (W : Valuation τ sig (Elt F)) (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d)))

/-- and what it returns. -/
def bodyPost0 (W : Valuation τ sig (Elt F)) (c : Dev nD) (t : Fin cfg0.N) : sProp 𝕄 :=
  iprop((dat0 W c).Φ t.succ ∗ (dat0 W c).owesAt () t.succ
    ∗ owns (c : Thread nD τ) (st0_0 t) fullShare ((dat0 W c).after 0 t)
    ∗ owns (c : Thread nD τ) (st0_1 t) fullShare ((dat0 W c).after 1 t)
    ∗ owns (c : Thread nD τ) (st0_2 t) fullShare ((dat0 W c).after 2 t)
    ∗ owns (c : Thread nD τ) (st0_3 t) fullShare ((dat0 W c).after 3 t)
    ∗ owns (c : Thread nD τ) (st0_4 t) fullShare ((dat0 W c).after 4 t)
    ∗ owns (c : Thread nD τ) (st0_5 t) fullShare ((dat0 W c).after 5 t))

/-- The body at any point: the inputs' buffers hold their blocks, so the run of the body applies at them, each output's
    buffer handed over at whatever it holds; the invariant and what the core owes pass through unread. -/
theorem sound_body0 (W : Valuation τ sig (Elt F)) (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).Φ t.succ = (dat0 W c).Φ t.castSucc from rfl,
    show (dat0 W c).owesAt () t.succ = (dat0 W c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (run0 c (grid0.coords t) _ _ _ _ _ _ _ _ _ _ _ _ (iblk0 W c 0 t) (iblk0 W c 1 t) (iblk0 W c 2 t) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation for region 0, at every point, from any entry valuation. -/
theorem body_obligation0 (W : Valuation τ sig (Elt F)) (c : Dev nD) :
    BodyObligation (dat0 (F := F) W c) (defs₀ (F := F)) Variants.none () Set.univ := by
  intro t
  rw [bigSep_W0, bigSep_W0]
  exact sound_body0 W c t

end Cert.KernelIdeal.Hand

end
-- ==== Proof.KI.Run1A.lean ====
/-
  The attention kernel's body at a point of key block 0: the scratch buffers reset, then one online-softmax update.
-/
import proofs.«426186_j66417374266003_3_alg».proof.Proof.KI.Data
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-3 rectangle are the constant function zero. -/
private theorem hz3 : (![0, 0, 0] : Fin 3 → Nat) = fun _ => 0 := funext fun a => by fin_cases a <;> rfl

/-- A buffer whose LAST store went through the whole-shape rectangle at zero offsets reads back that store's payload,
    whatever was stored before it and whatever the buffer held at first: the last piece covers every index, so the
    contents read as the canonical contents of the pieces, which under the last piece are its payload. -/
private theorem read_writes_cons_unit {sg : RefSig} {κ : Kind} {sp : Space} {S : Shape} {e : EltTy} (vw : View sg κ sp S e) (f : vw.ty.Contents (Elt F))
    {off : Fin S.rank → ℕ} (h : off = fun _ => 0) (inb : ∀ a, off a + S.size a ≤ S.size a)
    (w : S.Idx → Elt F e) (L : List (View.Piece (Elt F) S e)) :
    vw.read (Elt F) (vw.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- The attention body at a point of key block 0 (the reset taken, the final store not): from the three input blocks
    at `q`, `k`, `v`, the output buffer at `o` and the three scratch buffers at anything, it runs to the inputs and the
    output buffer as they were and the scratch buffers at what one update from the reset leaves. -/
theorem runA (c : Dev nD) (i : grid1.Coords) (hc0 : cond1_0 i) (hc1 : ¬cond1_1 i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1x1024x1024 .f32) (harg7 : arg7.IsWhole) (arg8 : Memref sig .tc .vmem S1x1024x1 .f32) (harg8 : arg8.IsWhole)
    (arg9 : Memref sig .tc .vmem S1x1024x1 .f32) (harg9 : arg9.IsWhole)
    (q k v : Vec F S1x1024x1024 .bf16) (o : Vec F S1x1024x1024 .f32) (E : Set ℕ) (K : PUnit → sProp 𝕄) :
    iprop(owns (c : Thread nD τ) arg3 fullShare q ∗ owns (c : Thread nD τ) arg4 fullShare k ∗ owns (c : Thread nD τ) arg5 fullShare v ∗ owns (c : Thread nD τ) arg6 fullShare o
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare q ∗ owns (c : Thread nD τ) arg4 fullShare k ∗ owns (c : Thread nD τ) arg5 fullShare v ∗ owns (c : Thread nD τ) arg6 fullShare o
            ∗ owns (c : Thread nD τ) arg7 fullShare (accA q k v) ∗ owns (c : Thread nD τ) arg8 fullShare (mA q k) ∗ owns (c : Thread nD τ) arg9 fullShare (lA q k)) -∗ K ⟨⟩))
      ⊢ wp frame (wpE (defs₀ (F := F)) Variants.none c none) E (cc1_kernel i arg3 harg3 arg4 harg4 arg5 harg5 arg6 harg6 arg7 harg7 arg8 harg8 arg9 harg9) K := by
  -- the body is its sequence of loads and stores over the named payloads; both conditionals are decided by the case
  simp only [cc1_kernel_eq_skeleton]; unfold cc1_kernel_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5; obtain rfl := harg6.eq_unread hf6
  sl_exec (disch := first | exact hc0 | exact hc1)
  sl_step
  -- the inputs and the output buffer were only loaded: they hold what they held
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  -- each scratch buffer was stored whole twice (the reset, then the update): it reads the update's payload, in which
  -- every load of a scratch buffer after the reset reads the reset's payload and every load of an input its block
  isplitl [H7]
  · iexists _; isplitr
    swap; · iexact H7
    ipureintro
    refine (read_writes_cons_unit (S := S1x1024x1024) _ _ hz3 _ _ _).trans ?_
    sl_unfold_words
    rw [View.readCov_unit_zero (S := S1x1024x1) _ hz3, View.readCov_unit_zero (S := S1x1024x1024) _ hz3]
    unfold accA
    simp only [View.readAt_eq_ld, harg3.read_unread, harg4.read_unread, harg5.read_unread, View.ld_unit_zero (S := S1x1024x1024) hz3]
  isplitl [H8]
  · iexists _; isplitr
    swap; · iexact H8
    ipureintro
    refine (read_writes_cons_unit (S := S1x1024x1) _ _ hz3 _ _ _).trans ?_
    sl_unfold_words
    rw [View.readCov_unit_zero (S := S1x1024x1) _ hz3]
    unfold mA
    simp only [View.readAt_eq_ld, harg3.read_unread, harg4.read_unread, harg5.read_unread, View.ld_unit_zero (S := S1x1024x1024) hz3]
  · iexists _; isplitr
    swap; · iexact H9
    ipureintro
    refine (read_writes_cons_unit (S := S1x1024x1) _ _ hz3 _ _ _).trans ?_
    sl_unfold_words
    rw [View.readCov_unit_zero (S := S1x1024x1) _ hz3, View.readCov_unit_zero (S := S1x1024x1) _ hz3]
    unfold lA
    simp only [View.readAt_eq_ld, harg3.read_unread, harg4.read_unread, harg5.read_unread, View.ld_unit_zero (S := S1x1024x1024) hz3]

end Cert.KernelIdeal.Hand

end
-- ==== Proof.KI.Run1B.lean ====
/-
  The attention kernel's body at a point of key block 1: one online-softmax update on what the point before left, then
  the accumulator divided by the sum stored into the output block.
-/
import proofs.«426186_j66417374266003_3_alg».proof.Proof.KI.Data
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One store through the whole-shape rectangle at zero offsets, read back, is its payload, whatever the buffer held:
    the one piece covers every index, so the contents read as the pieces' canonical contents, which is the payload. -/
private theorem read_writes_unit_zero {sg : RefSig} {κ : Kind} {sp : Space} {S : Shape} {e : EltTy}
    (vw : View sg κ sp S e) (f : vw.ty.Contents (Elt F)) {off : Fin S.rank → ℕ} (h : off = fun _ => 0)
    (inb : ∀ a, off a + S.size a ≤ S.size a) (w : S.Idx → Elt F e) :
    vw.read (Elt F) (vw.writes (Elt F) f [(⟨Rect.unit off S.size inb, w⟩ : View.Piece (Elt F) S e)]) = w := by
  rw [View.read_writes_eq_canon vw f _ (fun y => ⟨_, List.mem_singleton_self _, View.mem_set_unit_zero h inb y⟩),
    View.canon_unit_zero h]

/-- The attention body at a point of key block 1 (the reset not taken, the final store taken): from the three input
    blocks, the output buffer at anything and the scratch buffers at accumulator `a0`, maximum `m0`, sum `l0`, it runs
    to the inputs as they were, the scratch buffers one update further, and the output buffer at the new accumulator
    divided by the new sum. -/
theorem runB (c : Dev nD) (i : grid1.Coords) (hc0 : ¬cond1_0 i) (hc1 : cond1_1 i)
    (arg3 : Memref sig .tc .vmem S1x1024x1024 .bf16) (harg3 : arg3.IsWhole) (arg4 : Memref sig .tc .vmem S1x1024x1024 .bf16) (harg4 : arg4.IsWhole)
    (arg5 : Memref sig .tc .vmem S1x1024x1024 .bf16) (harg5 : arg5.IsWhole) (arg6 : Memref sig .tc .vmem S1x1024x1024 .f32) (harg6 : arg6.IsWhole)
    (arg7 : Memref sig .tc .vmem S1x1024x1024 .f32) (harg7 : arg7.IsWhole) (arg8 : Memref sig .tc .vmem S1x1024x1 .f32) (harg8 : arg8.IsWhole)
    (arg9 : Memref sig .tc .vmem S1x1024x1 .f32) (harg9 : arg9.IsWhole)
    (q k v : Vec F S1x1024x1024 .bf16) (a0 : Vec F S1x1024x1024 .f32) (m0 l0 : Vec F S1x1024x1 .f32) (E : Set ℕ) (K : PUnit → sProp 𝕄) :
    iprop(owns (c : Thread nD τ) arg3 fullShare q ∗ owns (c : Thread nD τ) arg4 fullShare k ∗ owns (c : Thread nD τ) arg5 fullShare v ∗ (∃ d, owns (c : Thread nD τ) arg6 fullShare d)
        ∗ owns (c : Thread nD τ) arg7 fullShare a0 ∗ owns (c : Thread nD τ) arg8 fullShare m0 ∗ owns (c : Thread nD τ) arg9 fullShare l0
        ∗ (iprop(owns (c : Thread nD τ) arg3 fullShare q ∗ owns (c : Thread nD τ) arg4 fullShare k ∗ owns (c : Thread nD τ) arg5 fullShare v ∗ owns (c : Thread nD τ) arg6 fullShare (outB q k v m0 l0 a0)
            ∗ owns (c : Thread nD τ) arg7 fullShare (accB q k v m0 a0) ∗ owns (c : Thread nD τ) arg8 fullShare (mB q k m0) ∗ owns (c : Thread nD τ) arg9 fullShare (lB q k m0 l0)) -∗ K ⟨⟩))
      ⊢ wp frame (wpE (defs₀ (F := F)) Variants.none c none) E (cc1_kernel i arg3 harg3 arg4 harg4 arg5 harg5 arg6 harg6 arg7 harg7 arg8 harg8 arg9 harg9) K := by
  have hz : (![0, 0, 0] : Fin 3 → ℕ) = fun _ => 0 := by
    funext a; match a with | ⟨0, _⟩ => rfl | ⟨1, _⟩ => rfl | ⟨2, _⟩ => rfl
  -- the body is its sequence of loads and stores over the named payloads; every buffer is held whole
  simp only [cc1_kernel_eq_skeleton]; unfold cc1_kernel_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hc0 | exact hc1)
  sl_step
  -- the three inputs are as they were
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  -- the output: its one whole-buffer store read back is the payload, the quotient of what the accumulator and the
  -- sum hold after their own stores (each read back as that store's payload), over the inputs' contents
  isplitl [H6]
  · iexists _; isplitr
    swap; · iexact H6
    ipureintro
    sl_unfold_run_names
    rw [read_writes_unit_zero (S := S1x1024x1024) _ _ hz, View.readCov_unit_zero (S := S1x1024x1024) _ hz, View.readCov_unit_zero (S := S1x1024x1) _ hz]
    simp only [View.readAt_eq_ld, harg3.read_unread, harg4.read_unread, harg5.read_unread, harg7.read_unread,
      harg8.read_unread, harg9.read_unread, View.ld_unit_zero (S := S1x1024x1024) hz, View.ld_unit_zero (S := S1x1024x1) hz]
    rfl
  -- the accumulator: its one whole-buffer store read back, over the contents the loads read
  isplitl [H7]
  · iexists _; isplitr
    swap; · iexact H7
    ipureintro
    sl_unfold_run_names
    rw [read_writes_unit_zero (S := S1x1024x1024) _ _ hz]
    simp only [View.readAt_eq_ld, harg3.read_unread, harg4.read_unread, harg5.read_unread, harg7.read_unread,
      harg8.read_unread, View.ld_unit_zero (S := S1x1024x1024) hz, View.ld_unit_zero (S := S1x1024x1) hz]
    rfl
  -- the running maximum likewise
  isplitl [H8]
  · iexists _; isplitr
    swap; · iexact H8
    ipureintro
    sl_unfold_run_names
    rw [read_writes_unit_zero (S := S1x1024x1) _ _ hz]
    simp only [View.readAt_eq_ld, harg3.read_unread, harg4.read_unread, harg8.read_unread,
      View.ld_unit_zero (S := S1x1024x1024) hz, View.ld_unit_zero (S := S1x1024x1) hz]
    rfl
  -- and the running sum
  iexists _; isplitr
  swap; · iexact H9
  ipureintro
  sl_unfold_run_names
  rw [read_writes_unit_zero (S := S1x1024x1) _ _ hz]
  simp only [View.readAt_eq_ld, harg3.read_unread, harg4.read_unread, harg8.read_unread, harg9.read_unread,
    View.ld_unit_zero (S := S1x1024x1024) hz, View.ld_unit_zero (S := S1x1024x1) hz]
  rfl

end Cert.KernelIdeal.Hand

end
-- ==== Proof.KI.Body1.lean ====
/-
  Region 1's body obligation: at every grid point the attention body, handed its input blocks, its output buffer and
  the scratch buffers as the point before left them, leaves what the proof data names.
-/
import proofs.«426186_j66417374266003_3_alg».proof.Proof.KI.Run1A
import proofs.«426186_j66417374266003_3_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Where the windows are idle, and where the output is written back -/

/-- The three inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- The output is idle at the points of key block 0, -/
theorem idleAt1_3 : ∀ t : Fin cfg1.N, t.val % 2 = 0 → cfg1.idle 3 (grid1.coords t) = true :=
  (by decide +kernel : ∀ t : Fin grid1.N, t.val % 2 = 0 → idle1 3 (grid1.coords t) = true)
/-- and live at those of key block 1. -/
theorem liveAt1_3 : ∀ t : Fin cfg1.N, t.val % 2 = 1 → cfg1.idle 3 (grid1.coords t) = false :=
  (by decide +kernel : ∀ t : Fin grid1.N, t.val % 2 = 1 → idle1 3 (grid1.coords t) = false)
/-- At a point of key block 0 the output's block is not written back. -/
theorem noFlush1_3 (t : Fin cfg1.N) (h : t.val % 2 = 0) : (cfg1.win 3).flush t = false :=
  Bool.eq_false_iff.mpr fun hf => by have := (flush1_3 t).mp hf; omega

/-- The query window's block index does not depend on the key block: at a point of key block 1 it is the index of
    the point before. -/
theorem index1_0_prev : ∀ t : Fin cfg1.N, t.val % 2 = 1 → (cfg1.win 0).index (prev1 t) = (cfg1.win 0).index t :=
  (by decide +kernel : ∀ t : Fin grid1.N, t.val % 2 = 1 → win1_0.index (prev1 t) = win1_0.index t)

/-! ## What the body finds in the inputs' buffers -/

theorem after1_0 (W : Valuation τ sig (Elt F)) (c : Dev nD) (t : Fin cfg1.N) : (dat1 W c).after 0 t = iblk1 W c 0 t := by dsimp only [dat1]
theorem after1_1 (W : Valuation τ sig (Elt F)) (c : Dev nD) (t : Fin cfg1.N) : (dat1 W c).after 1 t = iblk1 W c 1 t := by dsimp only [dat1]
theorem after1_2 (W : Valuation τ sig (Elt F)) (c : Dev nD) (t : Fin cfg1.N) : (dat1 W c).after 2 t = iblk1 W c 2 t := by dsimp only [dat1]
theorem after1_3 (W : Valuation τ sig (Elt F)) (c : Dev nD) (t : Fin cfg1.N) :
    (dat1 W c).after 3 t = outQ (iblk1 W c 0 t) (iblk1 W c 1 (prev1 t)) (iblk1 W c 2 (prev1 t)) (iblk1 W c 1 t) (iblk1 W c 2 t) := by
  dsimp only [dat1]

/-- A fetch of an input's (uncut) block fills the buffer with the block. -/
theorem fetched1_0 (W : Valuation τ sig (Elt F)) (c : Dev nD) (t : Fin cfg1.N) (d) : (dat1 W c).fetched 0 t d = iblk1 W c 0 t := by
  unfold Dat.fetched Dat.blockOf iblk1; rfl
theorem fetched1_1 (W : Valuation τ sig (Elt F)) (c : Dev nD) (t : Fin cfg1.N) (d) : (dat1 W c).fetched 1 t d = iblk1 W c 1 t := by
  unfold Dat.fetched Dat.blockOf iblk1; rfl
theorem fetched1_2 (W : Valuation τ sig (Elt F)) (c : Dev nD) (t : Fin cfg1.N) (d) : (dat1 W c).fetched 2 t d = iblk1 W c 2 t := by
  unfold Dat.fetched Dat.blockOf iblk1; rfl

/-- Each input's current buffer holds its block at every point, fetched there or not. -/
theorem before1_0 (W : Valuation τ sig (Elt F)) (c : Dev nD) (t : Fin cfg1.N) (d) : (dat1 W c).before 0 t d = iblk1 W c 0 t :=
  ((dat1 W c).before_in_eq_fetched 0 rfl (fun _ => rfl) (fun _ _ _ => rfl)
    (fun t => by rw [after1_0]; unfold Dat.blockOf iblk1; rfl) t d).trans (fetched1_0 W c t d)
theorem before1_1 (W : Valuation τ sig (Elt F)) (c : Dev nD) (t : Fin cfg1.N) (d) : (dat1 W c).before 1 t d = iblk1 W c 1 t :=
  ((dat1 W c).before_in_eq_fetched 1 rfl (fun _ => rfl) (fun _ _ _ => rfl)
    (fun t => by rw [after1_1]; unfold Dat.blockOf iblk1; rfl) t d).trans (fetched1_1 W c t d)
theorem before1_2 (W : Valuation τ sig (Elt F)) (c : Dev nD) (t : Fin cfg1.N) (d) : (dat1 W c).before 2 t d = iblk1 W c 2 t :=
  ((dat1 W c).before_in_eq_fetched 2 rfl (fun _ => rfl) (fun _ _ _ => rfl)
    (fun t => by rw [after1_2]; unfold Dat.blockOf iblk1; rfl) t d).trans (fetched1_2 W c t d)

/-- The query block of a point of key block 1 is the query block of the point before: fetches at two points with
    one block index read the same elements of the array. -/
theorem iblk1_0_prev (W : Valuation τ sig (Elt F)) (c : Dev nD) (t : Fin cfg1.N) (h : t.val % 2 = 1) :
    (iblk1 W c 0 (prev1 t) : Vec F S1x1024x1024 .bf16) = iblk1 W c 0 t :=
  ((fetched1_0 W c (prev1 t) (iblk1 W c 0 t)).symm.trans
    ((dat1 W c).fetched_congr 0 (index1_0_prev t h) rfl (iblk1 W c 0 t))).trans (fetched1_0 W c t (iblk1 W c 0 t))

/-! ## The invariant, at a point's start and end -/

theorem Phi1_castSucc (W : Valuation τ sig (Elt F)) (c : Dev nD) (t : Fin cfg1.N) :
    (dat1 W c).Φ t.castSucc = iprop(scr1 W c t.val (Nat.le_of_lt t.isLt) ∗ rest1 c) := rfl
theorem Phi1_succ (W : Valuation τ sig (Elt F)) (c : Dev nD) (t : Fin cfg1.N) :
    (dat1 W c).Φ t.succ = iprop(scr1 W c (t.val + 1) t.isLt ∗ rest1 c) := rfl

/-- Before an even position the scratch buffers hold anything; -/
theorem scr1_of_even (W : Valuation τ sig (Elt F)) (c : Dev nD) (n : ℕ) (hn : n ≤ cfg1.N) (h : ¬n % 2 = 1) :
    scr1 W c n hn = iprop((∃ d, owns (c : Thread nD τ) scAcc fullShare d) ∗ (∃ d, owns (c : Thread nD τ) scMax fullShare d) ∗ (∃ d, owns (c : Thread nD τ) scSum fullShare d)) := by
  unfold scr1; rw [dif_neg h]
/-- before an odd one what the update from the reset leaves on the blocks of the point before. -/
theorem scr1_of_odd (W : Valuation τ sig (Elt F)) (c : Dev nD) (n : ℕ) (hn : n ≤ cfg1.N) (h : n % 2 = 1) :
    scr1 W c n hn = iprop(owns (c : Thread nD τ) scAcc fullShare (accA (iblk1 W c 0 ⟨n - 1, by omega⟩) (iblk1 W c 1 ⟨n - 1, by omega⟩) (iblk1 W c 2 ⟨n - 1, by omega⟩))
      ∗ owns (c : Thread nD τ) scMax fullShare (mA (iblk1 W c 0 ⟨n - 1, by omega⟩) (iblk1 W c 1 ⟨n - 1, by omega⟩))
      ∗ owns (c : Thread nD τ) scSum fullShare (lA (iblk1 W c 0 ⟨n - 1, by omega⟩) (iblk1 W c 1 ⟨n - 1, by omega⟩))) := by
  unfold scr1; rw [dif_pos h]

/-- After a point of key block 0: the update from the reset on that point's blocks. -/
theorem scr1_succ_even (W : Valuation τ sig (Elt F)) (c : Dev nD) (t : Fin cfg1.N) (h : t.val % 2 = 0) :
    scr1 W c (t.val + 1) t.isLt = iprop(owns (c : Thread nD τ) scAcc fullShare (accA (iblk1 W c 0 t) (iblk1 W c 1 t) (iblk1 W c 2 t))
      ∗ owns (c : Thread nD τ) scMax fullShare (mA (iblk1 W c 0 t) (iblk1 W c 1 t))
      ∗ owns (c : Thread nD τ) scSum fullShare (lA (iblk1 W c 0 t) (iblk1 W c 1 t))) := by
  rw [scr1_of_odd W c _ _ (by omega)]; rfl

/-- Before a point of key block 1: the update from the reset on the point's own query block (it is the query block of
    the point before) and the keys and values of the point before. -/
theorem scr1_at_odd (W : Valuation τ sig (Elt F)) (c : Dev nD) (t : Fin cfg1.N) (h : t.val % 2 = 1) :
    scr1 W c t.val (Nat.le_of_lt t.isLt) = iprop(owns (c : Thread nD τ) scAcc fullShare (accA (iblk1 W c 0 t) (iblk1 W c 1 (prev1 t)) (iblk1 W c 2 (prev1 t)))
      ∗ owns (c : Thread nD τ) scMax fullShare (mA (iblk1 W c 0 t) (iblk1 W c 1 (prev1 t)))
      ∗ owns (c : Thread nD τ) scSum fullShare (lA (iblk1 W c 0 t) (iblk1 W c 1 (prev1 t)))) := by
  rw [scr1_of_odd W c _ _ h, ← iblk1_0_prev W c t h]; rfl

/-! ## The body obligation, at a generic point -/

/-- Each window's current staging memref at point `t`, as the pipeline passes it to the body. -/
abbrev ms1_0 (t : Fin cfg1.N) : Memref sig .tc .vmem S1x1024x1024 .bf16 := win1_0.stage (cfg1.slots t 0)
abbrev ms1_1 (t : Fin cfg1.N) : Memref sig .tc .vmem S1x1024x1024 .bf16 := win1_1.stage (cfg1.slots t 1)
abbrev ms1_2 (t : Fin cfg1.N) : Memref sig .tc .vmem S1x1024x1024 .bf16 := win1_2.stage (cfg1.slots t 2)
abbrev ms1_3 (t : Fin cfg1.N) : Memref sig .tc .vmem S1x1024x1024 .f32 := win1_3.stage (cfg1.slots t 3)

/-- What the body is called with at point `t` (the obligation's precondition, the windows one by one), -/
def bodyPre1 (W : Valuation τ sig (Elt F)) (c : Dev nD) (t : Fin cfg1.N) : sProp 𝕄 :=
  iprop((dat1 W c).Φ t.castSucc ∗ (dat1 W c).owesAt () t.castSucc
    ∗ (∃ d, owns (c : Thread nD τ) (ms1_0 t) fullShare ((dat1 W c).before 0 t d))
    ∗ (∃ d, owns (c : Thread nD τ) (ms1_1 t) fullShare ((dat1 W c).before 1 t d))
    ∗ (∃ d, owns (c : Thread nD τ) (ms1_2 t) fullShare ((dat1 W c).before 2 t d))
    ∗ (∃ d, owns (c : Thread nD τ) (ms1_3 t) fullShare ((dat1 W c).before 3 t d)))

/-- and what it returns. -/
def bodyPost1 (W : Valuation τ sig (Elt F)) (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t)

set_option maxHeartbeats 4800000 in
/-- The body at any point. The inputs' buffers hold their blocks. At a point of key block 0 the reset is taken and the
    final store is not: the run from any scratch contents applies, the output's buffer (idle there, not written back) is
    handed back as found, and the scratch buffers are left at the update from the reset on this point's blocks, which is
    the invariant before the next (odd) position. At a point of key block 1 the run from the carried scratch contents
    applies; the scratch buffers go back at anything and the output's buffer holds the quotient, which is the stated
    block because the point's query block is that of the point before. The core owes nothing throughout. -/
theorem sound_body1 (W : Valuation τ sig (Elt F)) (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2]
  rw [show (dat1 W c).owesAt () t.succ = (dat1 W c).owesAt () t.castSucc from rfl]
  rw [show (dat1 W c).leavesExact 0 t = owns (c : Thread nD τ) (ms1_0 t) fullShare ((dat1 W c).after 0 t) from by
    unfold Dat.leavesExact; rw [liveAt1_0 t], after1_0]
  rw [show (dat1 W c).leavesExact 1 t = owns (c : Thread nD τ) (ms1_1 t) fullShare ((dat1 W c).after 1 t) from by
    unfold Dat.leavesExact; rw [liveAt1_1 t], after1_1]
  rw [show (dat1 W c).leavesExact 2 t = owns (c : Thread nD τ) (ms1_2 t) fullShare ((dat1 W c).after 2 t) from by
    unfold Dat.leavesExact; rw [liveAt1_2 t], after1_2]
  rw [Phi1_castSucc, Phi1_succ]
  by_cases h : t.val % 2 = 0
  · have h' : ¬t.val % 2 = 1 := by omega
    rw [Dat.leavesExact_idle (dat1 W c) 3 t (idleAt1_3 t h) (noFlush1_3 t h)]
    rw [scr1_of_even W c t.val _ h', scr1_succ_even W c t h]
    iintro ⟨⟨⟨HA, HM, HL⟩, Hr⟩, Ho, ⟨%d0, H0⟩, ⟨%d1, H1⟩, ⟨%d2, H2⟩, ⟨%d3, H3⟩⟩
    iapply (runA c (grid1.coords t) ((hcond1_0 t).mpr h) (fun hc => h' ((hcond1_1 t).mp hc)) _ _ _ _ _ _ _ _ _ _ _ _ _ _
      (iblk1 W c 0 t) (iblk1 W c 1 t) (iblk1 W c 2 t) ((dat1 W c).before 3 t d3) Set.univ _)
    isplitl [H0]; · iexact H0
    isplitl [H1]; · iexact H1
    isplitl [H2]; · iexact H2
    isplitl [H3]; · iexact H3
    isplitl [HA]; · iexact HA
    isplitl [HM]; · iexact HM
    isplitl [HL]; · iexact HL
    iintro ⟨H0, H1, H2, H3, HA, HM, HL⟩
    isplitl [HA HM HL Hr]
    · isplitl [HA HM HL]
      · isplitl [HA]; · iexact HA
        isplitl [HM]; · iexact HM
        iexact HL
      iexact Hr
    isplitl [Ho]; · iexact Ho
    isplitl [H0]; · iexact H0
    isplitl [H1]; · iexact H1
    isplitl [H2]; · iexact H2
    iexists _; iexact H3
  · have h1 : t.val % 2 = 1 := by omega
    rw [show (dat1 W c).leavesExact 3 t = owns (c : Thread nD τ) (ms1_3 t) fullShare ((dat1 W c).after 3 t) from by
      unfold Dat.leavesExact; rw [liveAt1_3 t h1], after1_3]
    unfold outQ
    rw [scr1_at_odd W c t h1, scr1_of_even W c (t.val + 1) _ (by omega)]
    iintro ⟨⟨⟨HA, HM, HL⟩, Hr⟩, Ho, ⟨%d0, H0⟩, ⟨%d1, H1⟩, ⟨%d2, H2⟩, ⟨%d3, H3⟩⟩
    iapply (runB c (grid1.coords t) (fun hc => h ((hcond1_0 t).mp hc)) ((hcond1_1 t).mpr h1) _ _ _ _ _ _ _ _ _ _ _ _ _ _
      (iblk1 W c 0 t) (iblk1 W c 1 t) (iblk1 W c 2 t)
      (accA (iblk1 W c 0 t) (iblk1 W c 1 (prev1 t)) (iblk1 W c 2 (prev1 t)))
      (mA (iblk1 W c 0 t) (iblk1 W c 1 (prev1 t))) (lA (iblk1 W c 0 t) (iblk1 W c 1 (prev1 t))) Set.univ _)
    isplitl [H0]; · iexact H0
    isplitl [H1]; · iexact H1
    isplitl [H2]; · iexact H2
    isplitl [H3]; · iexists _; iexact H3
    isplitl [HA]; · iexact HA
    isplitl [HM]; · iexact HM
    isplitl [HL]; · iexact HL
    iintro ⟨H0, H1, H2, H3, HA, HM, HL⟩
    isplitl [HA HM HL Hr]
    · isplitl [HA HM HL]
      · isplitl [HA]; · iexists _; iexact HA
        isplitl [HM]; · iexists _; iexact HM
        iexists _; iexact HL
      iexact Hr
    isplitl [Ho]; · iexact Ho
    isplitl [H0]; · iexact H0
    isplitl [H1]; · iexact H1
    isplitl [H2]; · iexact H2
    iexact H3

/-- The library's body obligation for region 1, at every point, from any entry valuation. -/
theorem body_obligation1 (W : Valuation τ sig (Elt F)) (c : Dev nD) :
    BodyObligation (dat1 (F := F) W c) (defs₀ (F := F)) Variants.none () Set.univ := by
  intro t
  rw [bigSep_W1, bigSep_W1]
  exact sound_body1 W c t

end Cert.KernelIdeal.Hand

end
-- ==== Proof.KI.Between.lean ====
/-
  The kernel program between its items: what each pipelined region leaves in the arrays it may change (what the
  library computes from the region's proof data: each written-back block overwriting its place, in point order), the
  valuations of the core's unscoped buffers after each item built from those, their agreement with the generated
  module's valuations, and the proof data of both regions as one family.
-/
import proofs.«426186_j66417374266003_3_alg».proof.Proof.KI.Data
import proofs.«426186_j66417374266003_3_alg».proof.Proof.Gen.KernelIdeal.Regions
import Idealize.ShloMosaic.Lib.Pipeline.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## What the regions leave, and the valuations between @main's items -/

/-- After region 0: the valuation before it with its three result arrays at what the library computes from the proof
    data (each flushed block overwritten in point order). -/
def Q2 (c : Dev nD) : Valuation τ sig (Elt F) :=
  Function.update (Function.update (Function.update (V1 m c) main_v5_0 ((dat0 (V1 m c) c).arrAt 3 cfg0.N))
    main_v5_1 ((dat0 (V1 m c) c).arrAt 4 cfg0.N)) main_v5_2 ((dat0 (V1 m c) c).arrAt 5 cfg0.N)

/-- After the three reshapes between the regions. -/
def W3 (c : Dev nD) : Valuation τ sig (Elt F) := StableHlo.after hostOps1 (Q2 m c)

/-- After region 1: its result array at what the library computes. -/
def Q4 (c : Dev nD) : Valuation τ sig (Elt F) :=
  Function.update (W3 m c) main_v9 ((dat1 (W3 m c) c).arrAt 3 cfg1.N)

/-- The contents the regions leave, in the generated module's form: item 2 reads the first, item 4 the second. -/
def outsH : Outs (F := F) := fun J r c => if J = 2 then Q2 m c r else Q4 m c r

theorem ne_50_51 : (Proc.devRef .tc main_v5_0 : DevRef τ sig) ≠ Proc.devRef .tc main_v5_1 := StableHlo.devRef_ne_of_ne (by decide)
theorem ne_50_52 : (Proc.devRef .tc main_v5_0 : DevRef τ sig) ≠ Proc.devRef .tc main_v5_2 := StableHlo.devRef_ne_of_ne (by decide)
theorem ne_51_52 : (Proc.devRef .tc main_v5_1 : DevRef τ sig) ≠ Proc.devRef .tc main_v5_2 := StableHlo.devRef_ne_of_ne (by decide)

theorem Q2_50 (c : Dev nD) : Q2 m c main_v5_0 = (dat0 (V1 m c) c).arrAt 3 cfg0.N := by
  unfold Q2; rw [Function.update_of_ne ne_50_52, Function.update_of_ne ne_50_51, Function.update_self]
theorem Q2_51 (c : Dev nD) : Q2 m c main_v5_1 = (dat0 (V1 m c) c).arrAt 4 cfg0.N := by
  unfold Q2; rw [Function.update_of_ne ne_51_52, Function.update_self]
theorem Q2_52 (c : Dev nD) : Q2 m c main_v5_2 = (dat0 (V1 m c) c).arrAt 5 cfg0.N := by
  unfold Q2; rw [Function.update_self]

/-- The generated valuation after item 1, at these contents, is `Q2`. -/
theorem V2_eq (c : Dev nD) : V2 m (outsH m) c = Q2 m c := by
  show Function.update (Function.update (Function.update (V1 m c) main_v5_0 (outsH m 2 main_v5_0 c)) main_v5_1 (outsH m 2 main_v5_1 c)) main_v5_2 (outsH m 2 main_v5_2 c) = _
  rw [show outsH m 2 main_v5_0 c = Q2 m c main_v5_0 from if_pos rfl, show outsH m 2 main_v5_1 c = Q2 m c main_v5_1 from if_pos rfl,
    show outsH m 2 main_v5_2 c = Q2 m c main_v5_2 from if_pos rfl, Q2_50, Q2_51, Q2_52]
  rfl
theorem V3_eq (c : Dev nD) : V3 m (outsH m) c = W3 m c := by
  show StableHlo.after hostOps1 (V2 m (outsH m) c) = _; rw [V2_eq]; rfl
theorem V4_eq (c : Dev nD) : V4 m (outsH m) c = Q4 m c := by
  show Function.update (V3 m (outsH m) c) main_v9 (outsH m 4 main_v9 c) = _
  rw [V3_eq, show outsH m 4 main_v9 c = Q4 m c main_v9 from if_neg (by decide)]
  unfold Q4; rw [Function.update_self]

/-! ## The proof data of both regions at once -/

/-- Region 0 entered at the valuation after the first host stretch, region 1 at the one after the second. -/
def pdats : (p : Fin 2) → (c : Dev nD) → Dat τ (Elt F) Unit ℕ (UR sig nD τ) ℕ (cfgs p) c
  | ⟨0, _⟩ => fun c => dat0 (V1 m c) c
  | ⟨1, _⟩ => fun c => dat1 (W3 m c) c

end Cert.KernelIdeal.Hand

end
-- ==== Proof.KI.Frame.lean ====
/-
  The kernel program's run, for any float instance: @main is host lines, the linear-layer region, three reshapes, the
  attention region. The generated conditional frame discharges the host side given, per region, a segment record. Here
  are the two records — each region entered from every unscoped buffer of the core held at the valuation before it
  (its own arrays split out for the pipeline, the others bypassing), running under its body obligation with no
  semaphore of its own and nothing owed, and left with every unscoped buffer held at the valuation updated at its
  results — and the launch: no levels, nothing owed, the pipeline library's launch element the only ghost state. The
  run's post says every unscoped buffer ends at the last valuation; the frame (arguments unchanged) and the result
  array's final contents are read off it.
-/
import proofs.«426186_j66417374266003_3_alg».proof.Proof.KI.Between
import proofs.«426186_j66417374266003_3_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

/-! ## The launch's parameters: no levels, nothing owed, no ghost resources beyond the library's -/

/-- What rides beside the buffers between items: the core owes nothing. -/
abbrev Eo (c : Dev nD) : sProp 𝕄 := iprop(∃ W, owes (c : Thread nD τ) (0 : CellTallies nD τ sig Unit) W)
abbrev L0 : GSem nD τ sig → Finset Unit := fun _ => ∅
abbrev lv0 : GSem nD τ sig → Unit → ℕ := fun _ _ => 0

section Regions

variable (hb0 : ∀ (W : Valuation τ sig (Elt F)) (c : Dev nD), BodyObligation (dat0 (F := F) W c) (defs₀ (F := F)) Variants.none () Set.univ)

/-- The valuation after region 0 has each of region 0's arrays at its final contents: an input as it was, a result
    at what the library computes. -/
theorem Q2_arr (c : Dev nD) (w : Fin cfg0.W) : (pdats m 0 c).arrAt w cfg0.N = Q2 m c (Pipeline.arrRef spec0 w) := by
  match w with
  | ⟨0, _⟩ => exact ((pdats m 0 c).arrAt_in _ rfl _).trans (by unfold Q2; rw [Function.update_of_ne (StableHlo.devRef_ne_of_ne (show (main_v0 : Ref sig .tc) ≠ main_v5_2 by decide)), Function.update_of_ne (StableHlo.devRef_ne_of_ne (show (main_v0 : Ref sig .tc) ≠ main_v5_1 by decide)), Function.update_of_ne (StableHlo.devRef_ne_of_ne (show (main_v0 : Ref sig .tc) ≠ main_v5_0 by decide))]; rfl)
  | ⟨1, _⟩ => exact ((pdats m 0 c).arrAt_in _ rfl _).trans (by unfold Q2; rw [Function.update_of_ne (StableHlo.devRef_ne_of_ne (show (main_v2 : Ref sig .tc) ≠ main_v5_2 by decide)), Function.update_of_ne (StableHlo.devRef_ne_of_ne (show (main_v2 : Ref sig .tc) ≠ main_v5_1 by decide)), Function.update_of_ne (StableHlo.devRef_ne_of_ne (show (main_v2 : Ref sig .tc) ≠ main_v5_0 by decide))]; rfl)
  | ⟨2, _⟩ => exact ((pdats m 0 c).arrAt_in _ rfl _).trans (by unfold Q2; rw [Function.update_of_ne (StableHlo.devRef_ne_of_ne (show (main_v4 : Ref sig .tc) ≠ main_v5_2 by decide)), Function.update_of_ne (StableHlo.devRef_ne_of_ne (show (main_v4 : Ref sig .tc) ≠ main_v5_1 by decide)), Function.update_of_ne (StableHlo.devRef_ne_of_ne (show (main_v4 : Ref sig .tc) ≠ main_v5_0 by decide))]; rfl)
  | ⟨3, _⟩ => exact (Q2_50 m c).symm
  | ⟨4, _⟩ => exact (Q2_51 m c).symm
  | ⟨5, _⟩ => exact (Q2_52 m c).symm

/-- Off region 0's arrays the valuation after it is the one before it. -/
theorem Q2_rest (c : Dev nD) (b : Ref sig .tc) (hb : b ∉ Finset.univ.image (Pipeline.arrRef spec0)) : Q2 m c b = V1 m c b := by
  have h3 : b ≠ main_v5_0 := fun h => hb (Finset.mem_image.mpr ⟨3, Finset.mem_univ _, h.symm⟩)
  have h4 : b ≠ main_v5_1 := fun h => hb (Finset.mem_image.mpr ⟨4, Finset.mem_univ _, h.symm⟩)
  have h5 : b ≠ main_v5_2 := fun h => hb (Finset.mem_image.mpr ⟨5, Finset.mem_univ _, h.symm⟩)
  unfold Q2
  rw [Function.update_of_ne (StableHlo.devRef_ne_of_ne h5), Function.update_of_ne (StableHlo.devRef_ne_of_ne h4), Function.update_of_ne (StableHlo.devRef_ne_of_ne h3)]

-- applying a launch lemma stated over the pinned configuration unifies only when unification may unfold plain
-- definitions in a metavariable's type
set_option maxHeartbeats 1600000 in
set_option backward.isDefEq.respectTransparency.types false in
/-- REGION 0 as a segment: the launch's layout, no semaphore of its own, the body obligation; entered from every
    unscoped buffer held at the valuation after the first host stretch — its six arrays into the pipeline, the others
    bypassing —, left with them held at that valuation updated at its three results. -/
def reg0 : RegionSeg (pcfgs (F := F)) adm (pdats m) () defs₀ Variants.none L0 lv0 0 where
  win := launch0.win.to₀
  block_pos := launch0.block_pos
  stage_whole := launch0.stage_whole
  K := PEmpty
  osem := fun k => k.elim
  ho := Pipeline.OwnSemFacts.none _
  hbody c := (hb0 (V1 m c) c).loose
  hwaits := Pipeline.hwaits_of_owed_zero _ _ _ _ L0 lv0 0 fun _ _ => rfl
  pre c := iprop(StableHlo.held (c : Thread nD τ) (Pipeline.ucRefs τ sig) (V1 m c) ∗ Eo c)
  post c := iprop(StableHlo.held (c : Thread nD τ) (Pipeline.ucRefs τ sig) (Q2 m c) ∗ Eo c)
  X _ := BI.emp
  Y _ := BI.emp
  Z c := Pipeline.unscopedRest (Ix := Unit) (Name := ℕ) (U := UR sig nD τ) (Lvl := ℕ) spec0 c (fun b => V1 m c b)
  hentry c := by
    rw [← Pipeline.unscopedBufs_held (Ix := Unit) (Name := ℕ) (U := UR sig nD τ) (Lvl := ℕ) c (V1 m c)]
    have hsplit := Pipeline.arrays_of_unscopedBufs (pcfgs (F := F)) adm (pdats m) (p := 0) launch0.win launch0.arr_whole c
      ((pdats m 0 c).share_full fun _ => rfl) (fun b => V1 m c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none, show (pdats m 0 c).Φ (Fin.last (Pipeline.pin (pcfgs (F := F)) adm 0).N) = Pipeline.scopedRest (Ix := Unit) (Name := ℕ) (U := UR sig nD τ) (Lvl := ℕ) (Val := Elt F) spec0 c from rfl]
    iintro Hr
    isplitr; · iempintro
    isplitr; · iempintro
    iexact Hr
  hexit c := by
    rw [← Pipeline.unscopedBufs_held (Ix := Unit) (Name := ℕ) (U := UR sig nD τ) (Lvl := ℕ) c (Q2 m c)]
    have hjoin := Pipeline.unscopedBufs_of_arrays (pcfgs (F := F)) adm (p := 0) launch0.win launch0.arr_whole c (pdats m)
      ((pdats m 0 c).share_full fun _ => rfl) (fun b => V1 m c b) (fun b => Q2 m c b) ((pdats m 0 c).arrAt · cfg0.N)
      (Q2_arr m c) (Q2_rest m c)
    iintro ⟨Ha, HO, -, HZ⟩
    imodintro
    isplitl [Ha HZ]
    · iapply hjoin; isplitl [Ha] <;> iassumption
    · unfold Pipeline.Dat.owesAt Pipeline.owesWithin
      icases HO with ⟨%W, -, HO⟩; iexists W; iexact HO

end Regions

/-- The scoped buffers region 1 does not stage: its three scratch buffers, each owned whole at some contents, and the
    rest. -/
theorem scoped1_eq (c : Dev nD) :
    (Pipeline.scopedRest (Ix := Unit) (Name := ℕ) (U := UR sig nD τ) (Lvl := ℕ) (Val := Elt F) spec1 c : sProp 𝕄)
      = iprop(((∃ d, owns (c : Thread nD τ) scAcc fullShare d) ∗ (∃ d, owns (c : Thread nD τ) scMax fullShare d) ∗ (∃ d, owns (c : Thread nD τ) scSum fullShare d)) ∗ rest1 c) := by
  rw [Pipeline.scopedRest_split_of_list spec1 c [cc1_scratch0, cc1_scratch1, cc1_scratch2] (by decide) (by decide)]
  unfold rest1
  simp only [scAcc, scMax, scSum, owns_whole]
  rfl

section Region1

variable (hb1 : ∀ (W : Valuation τ sig (Elt F)) (c : Dev nD), BodyObligation (dat1 (F := F) W c) (defs₀ (F := F)) Variants.none () Set.univ)

/-- The valuation after region 1 has each of its arrays at its final contents. -/
theorem Q4_arr (c : Dev nD) (w : Fin cfg1.W) : (pdats m 1 c).arrAt w cfg1.N = Q4 m c (Pipeline.arrRef spec1 w) := by
  match w with
  | ⟨0, _⟩ => exact ((pdats m 1 c).arrAt_in _ rfl _).trans (by unfold Q4; rw [Function.update_of_ne (StableHlo.devRef_ne_of_ne (show (main_v6 : Ref sig .tc) ≠ main_v9 by decide))]; rfl)
  | ⟨1, _⟩ => exact ((pdats m 1 c).arrAt_in _ rfl _).trans (by unfold Q4; rw [Function.update_of_ne (StableHlo.devRef_ne_of_ne (show (main_v7 : Ref sig .tc) ≠ main_v9 by decide))]; rfl)
  | ⟨2, _⟩ => exact ((pdats m 1 c).arrAt_in _ rfl _).trans (by unfold Q4; rw [Function.update_of_ne (StableHlo.devRef_ne_of_ne (show (main_v8 : Ref sig .tc) ≠ main_v9 by decide))]; rfl)
  | ⟨3, _⟩ => exact (by unfold Q4; rw [Function.update_self]; rfl)

/-- Off region 1's arrays the valuation after it is the one before it. -/
theorem Q4_rest (c : Dev nD) (b : Ref sig .tc) (hb : b ∉ Finset.univ.image (Pipeline.arrRef spec1)) : Q4 m c b = W3 m c b := by
  have h3 : b ≠ main_v9 := fun h => hb (Finset.mem_image.mpr ⟨3, Finset.mem_univ _, h.symm⟩)
  unfold Q4
  rw [Function.update_of_ne (StableHlo.devRef_ne_of_ne h3)]

set_option maxHeartbeats 1600000 in
set_option backward.isDefEq.respectTransparency.types false in
/-- REGION 1 as a segment: entered from every unscoped buffer held at the valuation after the second host stretch,
    left with them held at that valuation updated at its result. -/
def reg1 : RegionSeg (pcfgs (F := F)) adm (pdats m) () defs₀ Variants.none L0 lv0 1 where
  win := launch1.win.to₀
  block_pos := launch1.block_pos
  stage_whole := launch1.stage_whole
  K := PEmpty
  osem := fun k => k.elim
  ho := Pipeline.OwnSemFacts.none _
  hbody c := (hb1 (W3 m c) c).loose
  hwaits := Pipeline.hwaits_of_owed_zero _ _ _ _ L0 lv0 1 fun _ _ => rfl
  pre c := iprop(StableHlo.held (c : Thread nD τ) (Pipeline.ucRefs τ sig) (W3 m c) ∗ Eo c)
  post c := iprop(StableHlo.held (c : Thread nD τ) (Pipeline.ucRefs τ sig) (Q4 m c) ∗ Eo c)
  X _ := BI.emp
  Y _ := BI.emp
  Z c := Pipeline.unscopedRest (Ix := Unit) (Name := ℕ) (U := UR sig nD τ) (Lvl := ℕ) spec1 c (fun b => W3 m c b)
  hentry c := by
    rw [← Pipeline.unscopedBufs_held (Ix := Unit) (Name := ℕ) (U := UR sig nD τ) (Lvl := ℕ) c (W3 m c)]
    have hsplit := Pipeline.arrays_of_unscopedBufs (pcfgs (F := F)) adm (pdats m) (p := 1) launch1.win launch1.arr_whole c
      ((pdats m 1 c).share_full fun _ => rfl) (fun b => W3 m c b) fun _ => rfl
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (pdats m 1 c).Φ 0 = iprop(scr1 (W3 m c) c 0 (Nat.zero_le _) ∗ rest1 c) from rfl, show (Pipeline.scopedRest (Ix := Unit) (Name := ℕ) (U := UR sig nD τ) (Lvl := ℕ) (Val := Elt F) (Pipeline.pin (pcfgs (F := F)) adm 1).spec c : sProp 𝕄) = _ from scoped1_eq (F := F) c]
    unfold scr1; rw [dif_neg (by decide)]
    iintro ⟨-, -, Hr⟩; iexact Hr
  hout c := by
    rw [Pipeline.ownSems0_none, show (pdats m 1 c).Φ (Fin.last (Pipeline.pin (pcfgs (F := F)) adm 1).N) = iprop(scr1 (W3 m c) c cfg1.N (Nat.le_refl _) ∗ rest1 c) from rfl, show (Pipeline.scopedRest (Ix := Unit) (Name := ℕ) (U := UR sig nD τ) (Lvl := ℕ) (Val := Elt F) (Pipeline.pin (pcfgs (F := F)) adm 1).spec c : sProp 𝕄) = _ from scoped1_eq (F := F) c]
    unfold scr1; rw [dif_neg (by decide)]
    iintro Hr
    isplitr; · iempintro
    isplitr; · iempintro
    iexact Hr
  hexit c := by
    rw [← Pipeline.unscopedBufs_held (Ix := Unit) (Name := ℕ) (U := UR sig nD τ) (Lvl := ℕ) c (Q4 m c)]
    have hjoin := Pipeline.unscopedBufs_of_arrays (pcfgs (F := F)) adm (p := 1) launch1.win launch1.arr_whole c (pdats m)
      ((pdats m 1 c).share_full fun _ => rfl) (fun b => W3 m c b) (fun b => Q4 m c b) ((pdats m 1 c).arrAt · cfg1.N)
      (Q4_arr m c) (Q4_rest m c)
    iintro ⟨Ha, HO, -, HZ⟩
    imodintro
    isplitl [Ha HZ]
    · iapply hjoin; isplitl [Ha] <;> iassumption
    · unfold Pipeline.Dat.owesAt Pipeline.owesWithin
      icases HO with ⟨%W, -, HO⟩; iexists W; iexact HO

end Region1

/-! ## The run of @main, given the regions' records: every unscoped buffer ends at the last valuation -/

-- the launch theorem's implicit arguments are found by unifying its conclusion with this one, which takes unfolding
-- plain definitions in a metavariable's type
set_option backward.isDefEq.respectTransparency.types false in
/-- For any contents the regions leave and any proof data: GIVEN, per region, a segment record entered from the thread
    state before it and left at the one after it, every weakly fair execution of @main from memory `m` with zero counters
    terminates, and in every final memory each unscoped buffer of each core holds what the valuation after the last item
    says: the arguments as launched, each intermediate array at its stage, the result at what region 1 leaves. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      ∀ b ∈ Pipeline.ucRefs τ sig, r.2.mem ((c : Thread nD τ).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, hpost0 c, hpre1 c, (hpost1 c).trans (sep_mono .rfl (hE2 c))⟩)
    (hinit := ?_) (QY := fun c s => ∀ b ∈ Pipeline.ucRefs τ sig, s.mem ((c : Thread nD τ).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro; exact h
    · iexact HSI

/-! ## The launch -/

section Launch

set_option maxHeartbeats 1600000 in
/-- THE RUN. From any memory with zero counters every weakly fair execution of @main terminates, and every unscoped
    buffer of every core ends at the valuation after the last item, built from what the two regions' proof data leave:
    no levels, nothing owed at launch or between items, the library's launch element the only ghost state. -/
theorem run_all (hb0 : ∀ (W : Valuation τ sig (Elt F)) (c : Dev nD), BodyObligation (dat0 (F := F) W c) (defs₀ (F := F)) Variants.none () Set.univ)
    (hb1 : ∀ (W : Valuation τ sig (Elt F)) (c : Dev nD), BodyObligation (dat1 (F := F) W c) (defs₀ (F := F)) Variants.none () Set.univ)
    (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V4 m (outsH m) c b) :=
  run_cond (F := F) m (Ix := Unit) (U := UR sig nD τ) (Lvl := ℕ) emb₁ () Variants.none L0 lv0 (fun _ _ => rfl) ρ (outsH m) (pdats m)
    (fun _ => 0) (fun _ => BI.emp) (initOf (Pipeline.cells cfgs cellOf_inj) (Pipeline.launchToks cfgs cellOf_inj))
    (by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (fun _ c => Eo c)
    (Pipeline.initEach L0 lv0 fun c => by
      iintro ⟨⟨-, HO, -, -, -⟩, -⟩
      imodintro
      iexists ∅; iexact HO)
    (fun c => .rfl)
    (reg0 m hb0) (fun c => .rfl) (fun c => by rw [V2_eq]; exact .rfl)
    (reg1 m hb1) (fun c => by rw [V3_eq]; exact .rfl) (fun c => by rw [V4_eq]; exact .rfl)

/-- The frame: every argument array ends as launched (no host line writes one, no region may change one). -/
theorem frameH (hb0 : ∀ (W : Valuation τ sig (Elt F)) (c : Dev nD), BodyObligation (dat0 (F := F) W c) (defs₀ (F := F)) Variants.none () Set.univ)
    (hb1 : ∀ (W : Valuation τ sig (Elt F)) (c : Dev nD), BodyObligation (dat1 (F := F) W c) (defs₀ (F := F)) Variants.none () Set.univ)
    (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (V4_main_arg0 m (outsH m) c),
     (h c (Proc.devRef .tc main_arg1) (Finset.mem_filter.mpr ⟨StableHlo.devRef_mem_tcRefs main_arg1, by decide⟩)).trans (V4_main_arg1 m (outsH m) c),
     (h c (Proc.devRef .tc main_arg2) (Finset.mem_filter.mpr ⟨StableHlo.devRef_mem_tcRefs main_arg2, by decide⟩)).trans (V4_main_arg2 m (outsH m) c),
     (h c (Proc.devRef .tc main_arg3) (Finset.mem_filter.mpr ⟨StableHlo.devRef_mem_tcRefs main_arg3, by decide⟩)).trans (V4_main_arg3 m (outsH m) c),
     (h c (Proc.devRef .tc main_arg4) (Finset.mem_filter.mpr ⟨StableHlo.devRef_mem_tcRefs main_arg4, by decide⟩)).trans (V4_main_arg4 m (outsH m) c),
     (h c (Proc.devRef .tc main_arg5) (Finset.mem_filter.mpr ⟨StableHlo.devRef_mem_tcRefs main_arg5, by decide⟩)).trans (V4_main_arg5 m (outsH m) c),
     (h c (Proc.devRef .tc main_arg6) (Finset.mem_filter.mpr ⟨StableHlo.devRef_mem_tcRefs main_arg6, by decide⟩)).trans (V4_main_arg6 m (outsH m) c)⟩) (run_all m hb0 hb1 ρ)

/-- The value: the result array ends at what region 1's proof data leave in it, beside the frame. -/
theorem valueH (hb0 : ∀ (W : Valuation τ sig (Elt F)) (c : Dev nD), BodyObligation (dat0 (F := F) W c) (defs₀ (F := F)) Variants.none () Set.univ)
    (hb1 : ∀ (W : Valuation τ sig (Elt F)) (c : Dev nD), BodyObligation (dat1 (F := F) W c) (defs₀ (F := F)) Variants.none () Set.univ)
    (ρ : Dev nD → PrngReg) :
    θ_run defs (onTc (τ := τ) (main (F := F))) ⟨m, fun _ => 0, ρ⟩ (fun r => ∀ c : Dev nD,
      r.2.mem ((c.tc : Thread nD τ).loc main_v9) = Q4 m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_v9) (Finset.mem_filter.mpr ⟨StableHlo.devRef_mem_tcRefs main_v9, by decide⟩)).trans (by rw [V4_eq]),
     (h c (Proc.devRef .tc main_arg0) (Finset.mem_filter.mpr ⟨StableHlo.devRef_mem_tcRefs main_arg0, by decide⟩)).trans (V4_main_arg0 m (outsH m) c),
     (h c (Proc.devRef .tc main_arg1) (Finset.mem_filter.mpr ⟨StableHlo.devRef_mem_tcRefs main_arg1, by decide⟩)).trans (V4_main_arg1 m (outsH m) c),
     (h c (Proc.devRef .tc main_arg2) (Finset.mem_filter.mpr ⟨StableHlo.devRef_mem_tcRefs main_arg2, by decide⟩)).trans (V4_main_arg2 m (outsH m) c),
     (h c (Proc.devRef .tc main_arg3) (Finset.mem_filter.mpr ⟨StableHlo.devRef_mem_tcRefs main_arg3, by decide⟩)).trans (V4_main_arg3 m (outsH m) c),
     (h c (Proc.devRef .tc main_arg4) (Finset.mem_filter.mpr ⟨StableHlo.devRef_mem_tcRefs main_arg4, by decide⟩)).trans (V4_main_arg4 m (outsH m) c),
     (h c (Proc.devRef .tc main_arg5) (Finset.mem_filter.mpr ⟨StableHlo.devRef_mem_tcRefs main_arg5, by decide⟩)).trans (V4_main_arg5 m (outsH m) c),
     (h c (Proc.devRef .tc main_arg6) (Finset.mem_filter.mpr ⟨StableHlo.devRef_mem_tcRefs main_arg6, by decide⟩)).trans (V4_main_arg6 m (outsH m) c)⟩) (run_all m hb0 hb1 ρ)

end Launch

end Cert.KernelIdeal.Hand

end
-- ==== Proof.KI.Arrays.lean ====
/-
  The arrays the value statements speak of, each named as a function from its literal index type to the extended
  reals: the arguments as launched, and the intermediate arrays of a valuation of the core's buffers (the reshaped
  activations, the concatenated weight and bias, the three projections in their two layouts, the result).
-/
import proofs.«426186_j66417374266003_3_alg».proof.KernelIdeal
import Idealize.ShloMosaic.PureOps.Ideal

noncomputable section

namespace Cert.KernelIdeal.Hand

open Cert.KernelIdeal
open Idealize.ShloMosaic Idealize.ShloMosaic.TcCoe Idealize.SL.Sem

/-- The launch memory's argument arrays on core `c`: the activations, then key, query and value weights and biases in
    the program's argument order. -/
abbrev argX (m : (ℓ : Loc nD τ sig) → Buf (Elt Ideal) ℓ) (c : Dev nD) : S4x2048x1024.Idx → EReal := m ((c.tc : Thread nD τ).loc main_arg0)
abbrev argWk (m : (ℓ : Loc nD τ sig) → Buf (Elt Ideal) ℓ) (c : Dev nD) : S1024x1024.Idx → EReal := m ((c.tc : Thread nD τ).loc main_arg1)
abbrev argBk (m : (ℓ : Loc nD τ sig) → Buf (Elt Ideal) ℓ) (c : Dev nD) : S1024.Idx → EReal := m ((c.tc : Thread nD τ).loc main_arg2)
abbrev argWq (m : (ℓ : Loc nD τ sig) → Buf (Elt Ideal) ℓ) (c : Dev nD) : S1024x1024.Idx → EReal := m ((c.tc : Thread nD τ).loc main_arg3)
abbrev argBq (m : (ℓ : Loc nD τ sig) → Buf (Elt Ideal) ℓ) (c : Dev nD) : S1024.Idx → EReal := m ((c.tc : Thread nD τ).loc main_arg4)
abbrev argWv (m : (ℓ : Loc nD τ sig) → Buf (Elt Ideal) ℓ) (c : Dev nD) : S1024x1024.Idx → EReal := m ((c.tc : Thread nD τ).loc main_arg5)
abbrev argBv (m : (ℓ : Loc nD τ sig) → Buf (Elt Ideal) ℓ) (c : Dev nD) : S1024.Idx → EReal := m ((c.tc : Thread nD τ).loc main_arg6)

/-- A valuation's intermediate arrays. -/
abbrev xRows (W : Valuation τ sig (Elt Ideal)) : S8192x1024.Idx → EReal := W main_v0
abbrev wCat (W : Valuation τ sig (Elt Ideal)) : S1024x3072.Idx → EReal := W main_v2
abbrev bCat (W : Valuation τ sig (Elt Ideal)) : S1x3072.Idx → EReal := W main_v4
abbrev qRows (W : Valuation τ sig (Elt Ideal)) : S8192x1024.Idx → EReal := W main_v5_0
abbrev kRows (W : Valuation τ sig (Elt Ideal)) : S8192x1024.Idx → EReal := W main_v5_1
abbrev vRows (W : Valuation τ sig (Elt Ideal)) : S8192x1024.Idx → EReal := W main_v5_2
abbrev qArr (W : Valuation τ sig (Elt Ideal)) : S4x2048x1024.Idx → EReal := W main_v6
abbrev kArr (W : Valuation τ sig (Elt Ideal)) : S4x2048x1024.Idx → EReal := W main_v7
abbrev vArr (W : Valuation τ sig (Elt Ideal)) : S4x2048x1024.Idx → EReal := W main_v8
abbrev outArr (W : Valuation τ sig (Elt Ideal)) : S4x2048x1024.Idx → EReal := W main_v9

/-- The attention region's blocks as functions of the block index, cut out of its three entry arrays: the query block
    of batch `b`, query block `qi`, and the key / value block of batch `b`, key block `kv` (each 1 × 1024 × 1024). -/
def qBlk (W : Valuation τ sig (Elt Ideal)) (b : Fin 4) (qi : Fin 2) : S1x1024x1024.Idx → EReal :=
  fun y => qArr W (fun a => match a with | ⟨0, _⟩ => b | ⟨1, _⟩ => (⟨1024 * qi.val + (y 1).val, by have h1 : (y 1).val < 1024 := (y 1).isLt; have h2 := qi.isLt; omega⟩ : Fin 2048) | ⟨2, _⟩ => y 2)
def kBlk (W : Valuation τ sig (Elt Ideal)) (b : Fin 4) (kv : Fin 2) : S1x1024x1024.Idx → EReal :=
  fun y => kArr W (fun a => match a with | ⟨0, _⟩ => b | ⟨1, _⟩ => (⟨1024 * kv.val + (y 1).val, by have h1 : (y 1).val < 1024 := (y 1).isLt; have h2 := kv.isLt; omega⟩ : Fin 2048) | ⟨2, _⟩ => y 2)
def vBlk (W : Valuation τ sig (Elt Ideal)) (b : Fin 4) (kv : Fin 2) : S1x1024x1024.Idx → EReal :=
  fun y => vArr W (fun a => match a with | ⟨0, _⟩ => b | ⟨1, _⟩ => (⟨1024 * kv.val + (y 1).val, by have h1 : (y 1).val < 1024 := (y 1).isLt; have h2 := kv.isLt; omega⟩ : Fin 2048) | ⟨2, _⟩ => y 2)

end Cert.KernelIdeal.Hand

end
-- ==== Proof.Spec.lean ====
/-
  What the program computes, as one function of its seven argument arrays over the extended reals: single-head
  scaled dot-product attention. Three linear layers give queries, keys and values,

      q[b, r, e] = Σ_d x[b, r, d] · Wq[d, e] + bq[e]      (and likewise k with Wk, bk and v with Wv, bv);

  a query row is scored against every key row of its batch, s[b, r, j] = (Σ_d q[b, r, d] · k[b, j, d]) · 1/32
  (the feature width is 1024 = 32²); and the output is the average of the value rows weighted by the
  exponentials of the scores,

      out[b, r, e] = (Σ_j exp(s[b, r, j]) · v[b, j, e]) / (Σ_j exp(s[b, r, j])).

  This is the softmax-weighted average written WITHOUT the subtraction of a row maximum: over the reals a common
  shift of a row's scores cancels between numerator and denominator, so every way of shifting (by the row's
  maximum, or by running maxima block after block) gives this same quotient.
-/
import Idealize.ShloMosaic.PureOps.Ideal
import Idealize.ShloMosaic.Lib.ValueIdx

noncomputable section

open scoped BigOperators

namespace Cert.Spec

open Idealize.ShloMosaic Idealize.ShloMosaic.ValueIdx

/-- The shape of the activations: batch 4, 2048 rows, 1024 features. -/
abbrev SX : Shape := ⟨3, ![4, 2048, 1024]⟩
/-- The shape of a weight matrix, input feature by output feature. -/
abbrev SW : Shape := ⟨2, ![1024, 1024]⟩
/-- The shape of a bias. -/
abbrev SB : Shape := ⟨1, ![1024]⟩

/-- One linear layer at batch `b`, row `r`, output feature `e`: the row's inner product with the weight's column
    (onto a zero accumulator), plus the bias. -/
def proj (x : SX.Idx → EReal) (W : SW.Idx → EReal) (b : SB.Idx → EReal) (bi : Fin 4) (r : Fin 2048) (e : Fin 1024) : EReal :=
  (0 + ∑ d : Fin 1024, x (ix3 bi r d) * W (ix2 d e)) + b (ix1 e)

/-- The scaled score of query row `r` against key row `j` of batch `b`: their inner product times 1/32. -/
def score (q k : Fin 4 → Fin 2048 → Fin 1024 → EReal) (bi : Fin 4) (r j : Fin 2048) : EReal :=
  (0 + ∑ d : Fin 1024, q bi r d * k bi j d) * ((1 / 32 : ℝ) : EReal)

/-- Attention at one output element from given queries, keys and values: the values of the batch averaged with
    weights the exponentials of the row's scores. -/
def attend (q k v : Fin 4 → Fin 2048 → Fin 1024 → EReal) (bi : Fin 4) (r : Fin 2048) (e : Fin 1024) : EReal :=
  Ideal.div (∑ j : Fin 2048, Ideal.exp (score q k bi r j) * v bi j e) (∑ j : Fin 2048, Ideal.exp (score q k bi r j))

/-- The whole program: project, then attend. The arguments in the order the programs take them. -/
def attn (x : SX.Idx → EReal) (Wk : SW.Idx → EReal) (bk : SB.Idx → EReal) (Wq : SW.Idx → EReal) (bq : SB.Idx → EReal)
    (Wv : SW.Idx → EReal) (bv : SB.Idx → EReal) (i : SX.Idx) : EReal :=
  attend (proj x Wq bq) (proj x Wk bk) (proj x Wv bv) (i 0) (i 1) (i 2)

end Cert.Spec

end
-- ==== Proof.KI.Value0.lean ====
/-
  What the linear-layer region's three result arrays hold after its last point, at the ideal instance, read at an
  index: the 16 row blocks of 512 rows tile the 8192 rows, each written once with its slice of x · Wcat + bcat.
-/
import proofs.«426186_j66417374266003_3_alg».proof.Proof.KI.Data
import proofs.«426186_j66417374266003_3_alg».proof.Proof.Spec
import Idealize.ShloMosaic.Lib.ValueIdx
import Idealize.ShloMosaic.Lib.Pipeline.Value
import Idealize.ShloMosaic.PureOps.Ideal.Laws
import proofs.«426186_j66417374266003_3_alg».proof.Proof.KI.Arrays

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Row `r` of the reshaped activations against column `col` of the concatenated weight (onto a zero accumulator),
    plus the concatenated bias at `col`. -/
def lin (W : Valuation τ sig (Elt Ideal)) (r : Fin 8192) (col : Fin 3072) : EReal :=
  (0 + ∑ d : Fin 1024, xRows W (ix2 r d) * wCat W (ix2 d col)) + bCat W (ix2 (0 : Fin 1) col)

/-! The steps: the point's product at an index, each input block as its array read under the output's rows, what a
    point writes back, and the cover of the rows by the 16 row blocks. -/
namespace Value0

/-! ## The point's product at an index -/

/-- The left operand's row coordinate under the kernel's dimension numbers is the result's row. -/
theorem mm_lhs_0 (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- Its column coordinate is the contracted coordinate. -/
theorem mm_lhs_1 (i : S512x3072.Idx) (q : dot_S512x1024_S1024x3072_S512x3072_1_0_0_1_n_n.contr.Idx) :
    (dot_S512x1024_S1024x3072_S512x3072_1_0_0_1_n_n.lhsIdx i q 1).val = (q ⟨0, by decide⟩).val :=
  dot_S512x1024_S1024x3072_S512x3072_1_0_0_1_n_n.lhsIdx_val_of_single rfl i q
/-- The right operand's row coordinate is the contracted coordinate. -/
theorem mm_rhs_0 (i : S512x3072.Idx) (q : dot_S512x1024_S1024x3072_S512x3072_1_0_0_1_n_n.contr.Idx) :
    (dot_S512x1024_S1024x3072_S512x3072_1_0_0_1_n_n.rhsIdx i q 0).val = (q ⟨0, by decide⟩).val :=
  dot_S512x1024_S1024x3072_S512x3072_1_0_0_1_n_n.rhsIdx_val_of_single rfl i q
/-- Its column coordinate is the result's column. -/
theorem mm_rhs_1 (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The 512×1024 by 1024×3072 product onto the zero accumulator, at (p, q): the sum over the 1024 contracted
    coordinates of row p of the left operand against column q of the right. -/
theorem mm_apply (a : FVec Ideal S512x1024 .bf16) (w : FVec Ideal S1024x3072 .bf16) (p : Fin 512) (q : Fin 3072) :
    matmul dot_S512x1024_S1024x3072_S512x3072_1_0_0_1_n_n none a w (constant S512x3072 .f32 0x00000000#32) (ix2 p q)
      = ∑ d : Fin 1024, a (ix2 p d) * w (ix2 d q) := by
  refine (Ideal.matmul_constant_zero_apply dot_S512x1024_S1024x3072_S512x3072_1_0_0_1_n_n none a w (ix2 p q)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-- The whole 512×3072 block a point computes, at (p, q): row p of the activations' block against column q of the
    weight, onto zero, plus the bias at q (the bias row is broadcast down the rows; the format changes are the identity). -/
theorem pay1_apply (x0 : Vec Ideal S512x1024 .f32) (w0 : Vec Ideal S1024x3072 .bf16) (b0 : Vec Ideal S1x3072 .f32)
    (p : Fin 512) (q : Fin 3072) :
    k0_pay1 (F := Ideal) x0 w0 b0 (ix2 p q) = (0 + ∑ d : Fin 1024, x0 (ix2 p d) * w0 (ix2 d q)) + b0 (ix2 (0 : Fin 1) q) := by
  unfold k0_pay1
  simp only [shapeCast_self]
  refine congrArg₂ (· + ·) ?_ ?_
  · refine ((mm_apply _ _ p q).trans ?_).trans (zero_add _).symm
    rfl
  · refine broadcastTo_apply b0 broadcasts_S1x3072_S512x3072 (ix2 p q) (ix2 (0 : Fin 1) q) fun a => ?_
    match a with
    | ⟨0, _⟩ => rfl
    | ⟨1, _⟩ => rfl

/-- The three stored blocks at (p, e): columns e, 1024 + e, 2048 + e of that block (a slice reads its operand moved
    by the offset; the narrowing is the identity). -/
theorem pay2_apply (x0 : Vec Ideal S512x1024 .f32) (w0 : Vec Ideal S1024x3072 .bf16) (b0 : Vec Ideal S1x3072 .f32)
    (p : Fin 512) (e : Fin 1024) :
    k0_pay2 (F := Ideal) x0 w0 b0 (ix2 p e)
      = (0 + ∑ d : Fin 1024, x0 (ix2 p d) * w0 (ix2 d (⟨e.val, by omega⟩ : Fin 3072))) + b0 (ix2 (0 : Fin 1) (⟨e.val, by omega⟩ : Fin 3072)) := by
  refine Eq.trans ?_ (pay1_apply x0 w0 b0 p _)
  unfold k0_pay2
  simp only [truncf_apply]
  refine extractStridedSlice_apply (s := S512x3072) ![0, 0] _ slices_S512x3072_o0_0_S512x1024 (ix2 p e) _ fun a => ?_
  match a with
  | ⟨0, _⟩ => show p.val = 0 + p.val; omega
  | ⟨1, _⟩ => show e.val = 0 + e.val; omega
theorem pay3_apply (x0 : Vec Ideal S512x1024 .f32) (w0 : Vec Ideal S1024x3072 .bf16) (b0 : Vec Ideal S1x3072 .f32)
    (p : Fin 512) (e : Fin 1024) :
    k0_pay3 (F := Ideal) x0 w0 b0 (ix2 p e)
      = (0 + ∑ d : Fin 1024, x0 (ix2 p d) * w0 (ix2 d (⟨1024 + e.val, by omega⟩ : Fin 3072))) + b0 (ix2 (0 : Fin 1) (⟨1024 + e.val, by omega⟩ : Fin 3072)) := by
  refine Eq.trans ?_ (pay1_apply x0 w0 b0 p _)
  unfold k0_pay3
  simp only [truncf_apply]
  refine extractStridedSlice_apply (s := S512x3072) ![0, 1024] _ slices_S512x3072_o0_1024_S512x1024 (ix2 p e) _ fun a => ?_
  match a with
  | ⟨0, _⟩ => show p.val = 0 + p.val; omega
  | ⟨1, _⟩ => show 1024 + e.val = 1024 + e.val; omega
theorem pay4_apply (x0 : Vec Ideal S512x1024 .f32) (w0 : Vec Ideal S1024x3072 .bf16) (b0 : Vec Ideal S1x3072 .f32)
    (p : Fin 512) (e : Fin 1024) :
    k0_pay4 (F := Ideal) x0 w0 b0 (ix2 p e)
      = (0 + ∑ d : Fin 1024, x0 (ix2 p d) * w0 (ix2 d (⟨2048 + e.val, by omega⟩ : Fin 3072))) + b0 (ix2 (0 : Fin 1) (⟨2048 + e.val, by omega⟩ : Fin 3072)) := by
  refine Eq.trans ?_ (pay1_apply x0 w0 b0 p _)
  unfold k0_pay4
  simp only [truncf_apply]
  refine extractStridedSlice_apply (s := S512x3072) ![0, 2048] _ slices_S512x3072_o0_2048_S512x1024 (ix2 p e) _ fun a => ?_
  match a with
  | ⟨0, _⟩ => show p.val = 0 + p.val; omega
  | ⟨1, _⟩ => show 2048 + e.val = 2048 + e.val; omega

/-! ## The index maps over the grid, and each input block as its array read under the output's rows -/

/-- The grid has 16 points. -/
theorem hN0 : cfg0.N = 16 := rfl

/-- The printed index maps, decided over the 16 points: the activations' window and the three result windows sit at
    row block `t`, column block 0; the weight's and the bias's windows are the whole arrays at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `512 t + p` of the array. -/
abbrev rowOf (t : Fin cfg0.N) (p : Fin 512) : Fin 8192 := ⟨512 * t.val + p.val, by have h : t.val < 16 := t.isLt; omega⟩

/-- The activations' block at point `t`, at (p, d), is the activations at (512 t + p, d). -/
theorem xblk_apply (W : Valuation τ sig (Elt Ideal)) (c : Dev nD) (t : Fin cfg0.N) (p : Fin 512) (d : Fin 1024) :
    (iblk0 (F := Ideal) W c 0 t : Vec Ideal S512x1024 .f32) (ix2 p d) = xRows W (ix2 (rowOf t p) d) := by
  obtain ⟨e0, e1, -⟩ := idx_facts0 t
  unfold iblk0
  rw [View.read_apply]
  show xRows W _ = xRows W _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * d.val = d.val; rw [e1]; omega

/-- The weight's block at every point is the whole concatenated weight. -/
theorem wblk_apply (W : Valuation τ sig (Elt Ideal)) (c : Dev nD) (t : Fin cfg0.N) (d : Fin 1024) (q : Fin 3072) :
    (iblk0 (F := Ideal) W c 1 t : Vec Ideal S1024x3072 .bf16) (ix2 d q) = wCat W (ix2 d q) := by
  obtain ⟨-, -, e2, e3, -⟩ := idx_facts0 t
  unfold iblk0
  rw [View.read_apply]
  show wCat W _ = wCat W _
  congr 1
  funext a
  apply Fin.ext
  match a with
  | ⟨0, _⟩ => show win0_1.index t (0 : Fin 2) * 1024 + 1 * d.val = d.val; rw [e2]; omega
  | ⟨1, _⟩ => show win0_1.index t (1 : Fin 2) * 3072 + 1 * q.val = q.val; rw [e3]; omega

/-- The bias's block at every point is the whole concatenated bias. -/
theorem bblk_apply (W : Valuation τ sig (Elt Ideal)) (c : Dev nD) (t : Fin cfg0.N) (z : Fin 1) (q : Fin 3072) :
    (iblk0 (F := Ideal) W c 2 t : Vec Ideal S1x3072 .f32) (ix2 z q) = bCat W (ix2 z q) := by
  obtain ⟨-, -, -, -, e4, e5, -⟩ := idx_facts0 t
  unfold iblk0
  rw [View.read_apply]
  show bCat W _ = bCat W _
  congr 1
  funext a
  apply Fin.ext
  match a with
  | ⟨0, _⟩ => show win0_2.index t (0 : Fin 2) * 1 + 1 * z.val = z.val; rw [e4]; omega
  | ⟨1, _⟩ => show win0_2.index t (1 : Fin 2) * 3072 + 1 * q.val = q.val; rw [e5]; omega

/-- Two functions on a rank-2 index set agree when they agree at every pair of coordinates. -/
theorem funext_ix2 {n0 n1 : Nat} {α : Type} {f g : (⟨2, ![n0, n1]⟩ : Shape).Idx → α} (h : ∀ a b, f (ix2 a b) = g (ix2 a b)) : f = g :=
  funext fun j => by rw [eq_ix2 j]; exact h _ _

/-! ## What a point writes back, and the arrays after the last point -/

/-- The three result arrays' final contents: `lin` at the row, and at the column moved into the array's slot of the
    3072 concatenated columns (0, 1024, 2048). -/
def G3 (W : Valuation τ sig (Elt Ideal)) : S8192x1024.Idx → EReal :=
  fun i => lin W (i 0) ⟨(i 1).val, by have := idx2_lt1 i; omega⟩
def G4 (W : Valuation τ sig (Elt Ideal)) : S8192x1024.Idx → EReal :=
  fun i => lin W (i 0) ⟨1024 + (i 1).val, by have := idx2_lt1 i; omega⟩
def G5 (W : Valuation τ sig (Elt Ideal)) : S8192x1024.Idx → EReal :=
  fun i => lin W (i 0) ⟨2048 + (i 1).val, by have := idx2_lt1 i; omega⟩

/-- What point `t` writes back to the first result array is block `t` of `G3`: the stored block at (p, e) is row p of
    the activations' block against column e of the weight plus the bias there, and the blocks read their arrays at
    row 512 t + p, at the whole weight and at the whole bias. -/
theorem flushed3_eq (W : Valuation τ sig (Elt Ideal)) (c : Dev nD) (t : Fin cfg0.N) :
    (dat0 (F := Ideal) W c).flushed 3 t = ((cfg0.win 3).blk t).view.read (Elt Ideal) (G3 W) := by
  show (cfg0.win 3).cut (grid0.coords t) ((dat0 (F := Ideal) W c).after 3 t) = _
  dsimp only [dat0]
  obtain ⟨-, -, -, -, -, -, e6, e7, -⟩ := idx_facts0 t
  refine funext_ix2 (n0 := 512) (n1 := 1024) fun p e => ?_
  rw [View.read_apply]
  have hemb : ((cfg0.win 3).blk t).view.emb (ix2 p e) = (ix2 (rowOf t p) e : S8192x1024.Idx) := by
    funext a
    apply Fin.ext
    match a with
    | ⟨0, _⟩ => show win0_3.index t (0 : Fin 2) * 512 + 1 * p.val = 512 * t.val + p.val; rw [e6]; omega
    | ⟨1, _⟩ => show win0_3.index t (1 : Fin 2) * 1024 + 1 * e.val = e.val; rw [e7]; omega
  show k0_pay2 (F := Ideal) (iblk0 W c 0 t) (iblk0 W c 1 t) (iblk0 W c 2 t) (ix2 p e) = G3 W (((cfg0.win 3).blk t).view.emb (ix2 p e))
  rw [hemb]
  refine (pay2_apply _ _ _ p e).trans ?_
  show _ = lin W (rowOf t p) ⟨e.val, _⟩
  unfold lin
  refine congrArg₂ (· + ·) (congrArg (0 + ·) (Finset.sum_congr rfl fun d _ => congrArg₂ (· * ·) (xblk_apply W c t p d) (wblk_apply W c t d _))) (bblk_apply W c t 0 _)

/-- An index of the first result array is in point `t`'s block iff each coordinate is in the block's range on its axis. -/
theorem mem_blk3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl

/-- Every index of the first result array is in the block of the point its row falls in, point (row / 512): the 16
    row blocks of 512 rows tile the 8192 rows, and a block spans all 1024 columns. -/
theorem cover3 (i : S8192x1024.Idx) : ∃ t : Fin cfg0.N, (cfg0.win 3).flush t = true ∧ i ∈ ((cfg0.win 3).blk t).view.set := by
  have h0 : (i 0).val < 8192 := idx2_lt0 i
  have h1 : (i 1).val < 1024 := idx2_lt1 i
  have ht : (i 0).val / 512 < cfg0.N := by rw [hN0]; omega
  obtain ⟨-, -, -, -, -, -, e6, e7, -⟩ := idx_facts0 ⟨(i 0).val / 512, ht⟩
  refine ⟨⟨(i 0).val / 512, ht⟩, flush0_3 _, ?_⟩
  rw [mem_blk3]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 1024 ≤ (i 1).val ∧ (i 1).val < win0_3.index ⟨(i 0).val / 512, ht⟩ (1 : Fin 2) * 1024 + 1024
    rw [e7]; omega

/-- So the first result array ends holding `G3`: each point writes its block of it, and the blocks cover the array. -/
theorem final3 (W : Valuation τ sig (Elt Ideal)) (c : Dev nD) : (dat0 (F := Ideal) W c).arrAt 3 cfg0.N = G3 W :=
  (dat0 (F := Ideal) W c).arrAt_eq_of_cover 3 (G3 W) (fun t _ => flushed3_eq W c t) cover3

/-- What point `t` writes back to the second result array is block `t` of `G4`: the stored block at (p, e) is row p of
    the activations' block against column 1024 + e of the weight plus the bias there, and the blocks read their arrays at
    row 512 t + p, at the whole weight and at the whole bias. -/
theorem flushed4_eq (W : Valuation τ sig (Elt Ideal)) (c : Dev nD) (t : Fin cfg0.N) :
    (dat0 (F := Ideal) W c).flushed 4 t = ((cfg0.win 4).blk t).view.read (Elt Ideal) (G4 W) := by
  show (cfg0.win 4).cut (grid0.coords t) ((dat0 (F := Ideal) W c).after 4 t) = _
  dsimp only [dat0]
  obtain ⟨-, -, -, -, -, -, -, -, e8, e9, -⟩ := idx_facts0 t
  refine funext_ix2 (n0 := 512) (n1 := 1024) fun p e => ?_
  rw [View.read_apply]
  have hemb : ((cfg0.win 4).blk t).view.emb (ix2 p e) = (ix2 (rowOf t p) e : S8192x1024.Idx) := by
    funext a
    apply Fin.ext
    match a with
    | ⟨0, _⟩ => show win0_4.index t (0 : Fin 2) * 512 + 1 * p.val = 512 * t.val + p.val; rw [e8]; omega
    | ⟨1, _⟩ => show win0_4.index t (1 : Fin 2) * 1024 + 1 * e.val = e.val; rw [e9]; omega
  show k0_pay3 (F := Ideal) (iblk0 W c 0 t) (iblk0 W c 1 t) (iblk0 W c 2 t) (ix2 p e) = G4 W (((cfg0.win 4).blk t).view.emb (ix2 p e))
  rw [hemb]
  refine (pay3_apply _ _ _ p e).trans ?_
  show _ = lin W (rowOf t p) ⟨1024 + e.val, _⟩
  unfold lin
  refine congrArg₂ (· + ·) (congrArg (0 + ·) (Finset.sum_congr rfl fun d _ => congrArg₂ (· * ·) (xblk_apply W c t p d) (wblk_apply W c t d _))) (bblk_apply W c t 0 _)

/-- An index of the second result array is in point `t`'s block iff each coordinate is in the block's range on its axis. -/
theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- Every index of the second result array is in the block of the point its row falls in, point (row / 512): the 16
    row blocks of 512 rows tile the 8192 rows, and a block spans all 1024 columns. -/
theorem cover4 (i : S8192x1024.Idx) : ∃ t : Fin cfg0.N, (cfg0.win 4).flush t = true ∧ i ∈ ((cfg0.win 4).blk t).view.set := by
  have h0 : (i 0).val < 8192 := idx2_lt0 i
  have h1 : (i 1).val < 1024 := idx2_lt1 i
  have ht : (i 0).val / 512 < cfg0.N := by rw [hN0]; omega
  obtain ⟨-, -, -, -, -, -, -, -, e8, e9, -⟩ := idx_facts0 ⟨(i 0).val / 512, ht⟩
  refine ⟨⟨(i 0).val / 512, ht⟩, flush0_4 _, ?_⟩
  rw [mem_blk4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e8]; show (i 0).val / 512 * 512 ≤ (i 0).val ∧ (i 0).val < (i 0).val / 512 * 512 + 512; omega
  | ⟨1, _⟩ =>
    show win0_4.index ⟨(i 0).val / 512, ht⟩ (1 : Fin 2) * 1024 ≤ (i 1).val ∧ (i 1).val < win0_4.index ⟨(i 0).val / 512, ht⟩ (1 : Fin 2) * 1024 + 1024
    rw [e9]; omega

/-- So the second result array ends holding `G4`: each point writes its block of it, and the blocks cover the array. -/
theorem final4 (W : Valuation τ sig (Elt Ideal)) (c : Dev nD) : (dat0 (F := Ideal) W c).arrAt 4 cfg0.N = G4 W :=
  (dat0 (F := Ideal) W c).arrAt_eq_of_cover 4 (G4 W) (fun t _ => flushed4_eq W c t) cover4

/-- What point `t` writes back to the third result array is block `t` of `G5`: the stored block at (p, e) is row p of
    the activations' block against column 2048 + e of the weight plus the bias there, and the blocks read their arrays at
    row 512 t + p, at the whole weight and at the whole bias. -/
theorem flushed5_eq (W : Valuation τ sig (Elt Ideal)) (c : Dev nD) (t : Fin cfg0.N) :
    (dat0 (F := Ideal) W c).flushed 5 t = ((cfg0.win 5).blk t).view.read (Elt Ideal) (G5 W) := by
  show (cfg0.win 5).cut (grid0.coords t) ((dat0 (F := Ideal) W c).after 5 t) = _
  dsimp only [dat0]
  obtain ⟨-, -, -, -, -, -, -, -, -, -, e10, e11⟩ := idx_facts0 t
  refine funext_ix2 (n0 := 512) (n1 := 1024) fun p e => ?_
  rw [View.read_apply]
  have hemb : ((cfg0.win 5).blk t).view.emb (ix2 p e) = (ix2 (rowOf t p) e : S8192x1024.Idx) := by
    funext a
    apply Fin.ext
    match a with
    | ⟨0, _⟩ => show win0_5.index t (0 : Fin 2) * 512 + 1 * p.val = 512 * t.val + p.val; rw [e10]; omega
    | ⟨1, _⟩ => show win0_5.index t (1 : Fin 2) * 1024 + 1 * e.val = e.val; rw [e11]; omega
  show k0_pay4 (F := Ideal) (iblk0 W c 0 t) (iblk0 W c 1 t) (iblk0 W c 2 t) (ix2 p e) = G5 W (((cfg0.win 5).blk t).view.emb (ix2 p e))
  rw [hemb]
  refine (pay4_apply _ _ _ p e).trans ?_
  show _ = lin W (rowOf t p) ⟨2048 + e.val, _⟩
  unfold lin
  refine congrArg₂ (· + ·) (congrArg (0 + ·) (Finset.sum_congr rfl fun d _ => congrArg₂ (· * ·) (xblk_apply W c t p d) (wblk_apply W c t d _))) (bblk_apply W c t 0 _)

/-- An index of the third result array is in point `t`'s block iff each coordinate is in the block's range on its axis. -/
theorem mem_blk5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_2).slice (win0_5.rect t)).set ↔ _
  rw [View.set_slice_whole, Rect.mem_set_unit]
  exact Iff.rfl

/-- Every index of the third result array is in the block of the point its row falls in, point (row / 512): the 16
    row blocks of 512 rows tile the 8192 rows, and a block spans all 1024 columns. -/
theorem cover5 (i : S8192x1024.Idx) : ∃ t : Fin cfg0.N, (cfg0.win 5).flush t = true ∧ i ∈ ((cfg0.win 5).blk t).view.set := by
  have h0 : (i 0).val < 8192 := idx2_lt0 i
  have h1 : (i 1).val < 1024 := idx2_lt1 i
  have ht : (i 0).val / 512 < cfg0.N := by rw [hN0]; omega
  obtain ⟨-, -, -, -, -, -, -, -, -, -, e10, e11⟩ := idx_facts0 ⟨(i 0).val / 512, ht⟩
  refine ⟨⟨(i 0).val / 512, ht⟩, flush0_5 _, ?_⟩
  rw [mem_blk5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e10]; show (i 0).val / 512 * 512 ≤ (i 0).val ∧ (i 0).val < (i 0).val / 512 * 512 + 512; omega
  | ⟨1, _⟩ =>
    show win0_5.index ⟨(i 0).val / 512, ht⟩ (1 : Fin 2) * 1024 ≤ (i 1).val ∧ (i 1).val < win0_5.index ⟨(i 0).val / 512, ht⟩ (1 : Fin 2) * 1024 + 1024
    rw [e11]; omega

/-- So the third result array ends holding `G5`: each point writes its block of it, and the blocks cover the array. -/
theorem final5 (W : Valuation τ sig (Elt Ideal)) (c : Dev nD) : (dat0 (F := Ideal) W c).arrAt 5 cfg0.N = G5 W :=
  (dat0 (F := Ideal) W c).arrAt_eq_of_cover 5 (G5 W) (fun t _ => flushed5_eq W c t) cover5

end Value0

/-- The first result array (the queries' slot): columns 0 … 1023. -/
theorem arr0_3 (W : Valuation τ sig (Elt Ideal)) (c : Dev nD) (r : Fin 8192) (e : Fin 1024) :
    ((dat0 (F := Ideal) W c).arrAt 3 cfg0.N : S8192x1024.Idx → EReal) (ix2 r e) = lin W r ⟨e.val, by omega⟩ := by
  exact congrFun (Value0.final3 W c) (ix2 r e)
/-- The second (the keys' slot): columns 1024 … 2047. -/
theorem arr0_4 (W : Valuation τ sig (Elt Ideal)) (c : Dev nD) (r : Fin 8192) (e : Fin 1024) :
    ((dat0 (F := Ideal) W c).arrAt 4 cfg0.N : S8192x1024.Idx → EReal) (ix2 r e) = lin W r ⟨1024 + e.val, by omega⟩ := by
  exact congrFun (Value0.final4 W c) (ix2 r e)
/-- The third (the values' slot): columns 2048 … 3071. -/
theorem arr0_5 (W : Valuation τ sig (Elt Ideal)) (c : Dev nD) (r : Fin 8192) (e : Fin 1024) :
    ((dat0 (F := Ideal) W c).arrAt 5 cfg0.N : S8192x1024.Idx → EReal) (ix2 r e) = lin W r ⟨2048 + e.val, by omega⟩ := by
  exact congrFun (Value0.final5 W c) (ix2 r e)

end Cert.KernelIdeal.Hand

end
-- ==== Proof.Softmax.lean ====
/-
  The algebra of a softmax-weighted average over the extended reals, for values that are real numbers.

  A row of scores s_j and values v_j gives the quotient (Σ_j exp(s_j) · v_j) / (Σ_j exp(s_j)). Over the reals a
  common shift of the scores cancels between numerator and denominator: exp(s_j - M) = exp(s_j) / exp(M) and
  exp(M) ≠ 0. So the quotient can be computed after subtracting ANY real M from every score (the row's maximum,
  say), and it can be computed block after block with a running shift, rescaling what was accumulated so far by
  exp(m_old - m_new) each time the shift changes: every such way gives the unshifted quotient. This file states
  these facts for real witnesses coerced into the extended reals, in the shapes the operations produce (a sum
  onto a zero accumulator is 0 + Σ, a maximum starts from ⊥, a running sum and a running accumulator start from 0).

  Nothing here needs to know WHICH real a maximum is; only that a maximum of finitely many (and at least one)
  reals, started from ⊥, is a real.
-/
import Idealize.ShloMosaic.PureOps.Ideal
import Idealize.ShloMosaic.PureOps.Ideal.Laws
import Mathlib.Data.EReal.Basic
import Mathlib.Data.EReal.Operations
import Mathlib.Data.EReal.Inv
import Mathlib.Data.Finset.Fold
import Mathlib.Algebra.BigOperators.Fin
import Mathlib.Algebra.BigOperators.Field
import Mathlib.Algebra.Order.BigOperators.Group.Finset
import Mathlib.Analysis.Complex.Exponential
import Mathlib.Analysis.SpecialFunctions.Pow.Real
import Mathlib.Tactic.NormNum
import Mathlib.Tactic.FieldSimp
import Mathlib.Tactic.Ring

noncomputable section

open scoped BigOperators

namespace Cert.Softmax

open Idealize.ShloMosaic

/-! ## Coercions of reals into the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of a real. -/
theorem exp_coe (r : ℝ) : Ideal.exp (r : EReal) = ((Real.exp r : ℝ) : EReal) := rfl

/-- The exponential of a difference of two reals. -/
theorem exp_coe_sub (a b : ℝ) : Ideal.exp ((a : EReal) - (b : EReal)) = ((Real.exp (a - b) : ℝ) : EReal) := by
  rw [← EReal.coe_sub, exp_coe]

/-- The quotient of two reals, the denominator not zero, is the real quotient. -/
theorem div_coe_coe (x y : ℝ) (hy : y ≠ 0) : Ideal.div (x : EReal) (y : EReal) = ((x / y : ℝ) : EReal) := by
  rw [Ideal.div_coe hy, ← EReal.coe_mul, mul_one_div]

/-- The maximum of two reals is the real maximum. -/
theorem max_coe_coe (a b : ℝ) : max (a : EReal) (b : EReal) = ((max a b : ℝ) : EReal) :=
  (EReal.coe_strictMono.monotone.map_max).symm

/-- A maximum started from -∞: the other operand. -/
theorem max_bot_coe (r : ℝ) : max (⊥ : EReal) (r : EReal) = (r : EReal) := max_eq_right bot_le

/-- -∞ minus a real is -∞. -/
theorem bot_sub_coe (r : ℝ) : (⊥ : EReal) - (r : EReal) = ⊥ := EReal.bot_sub _

/-- So its exponential is zero: what a running quantity is rescaled by when the running maximum leaves -∞. -/
theorem exp_bot_sub_coe (r : ℝ) : Ideal.exp ((⊥ : EReal) - (r : EReal)) = 0 := by
  rw [bot_sub_coe, Ideal.exp_bot]

/-- An inner product of reals onto a zero accumulator is the real inner product. -/
theorem dot_coe {n : ℕ} (a b : Fin n → ℝ) :
    (0 : EReal) + ∑ d, (a d : EReal) * (b d : EReal) = ((∑ d, a d * b d : ℝ) : EReal) := by
  rw [zero_add, coe_sum]
  exact Finset.sum_congr rfl fun d _ => (EReal.coe_mul _ _).symm

/-- The same plus a real bias (a linear layer at one output feature). -/
theorem dot_coe_add_coe {n : ℕ} (a b : Fin n → ℝ) (c : ℝ) :
    ((0 : EReal) + ∑ d, (a d : EReal) * (b d : EReal)) + (c : EReal) = ((∑ d, a d * b d + c : ℝ) : EReal) := by
  rw [dot_coe, ← EReal.coe_add]

/-- The same times a real factor (a scaled score). -/
theorem dot_coe_mul_coe {n : ℕ} (a b : Fin n → ℝ) (c : ℝ) :
    ((0 : EReal) + ∑ d, (a d : EReal) * (b d : EReal)) * (c : EReal) = (((∑ d, a d * b d) * c : ℝ) : EReal) := by
  rw [dot_coe, ← EReal.coe_mul]

/-! ## A maximum of finitely many reals, started from -∞, is a real -/

/-- Over a nonempty finite set, the maximum from -∞ of extended reals each of which is a real is a real: it is
    above one of them, so it is not -∞, and each of them is below +∞, so it is not +∞. -/
theorem fold_max_bot_isReal {ι : Type*} (s : Finset ι) (hs : s.Nonempty) (g : ι → EReal)
    (hg : ∀ i ∈ s, ∃ r : ℝ, g i = (r : EReal)) : ∃ r : ℝ, s.fold max (⊥ : EReal) g = (r : EReal) := by
  have hbot : s.fold max (⊥ : EReal) g ≠ ⊥ := by
    obtain ⟨i, hi⟩ := hs
    obtain ⟨r, hr⟩ := hg i hi
    have hle : (r : EReal) ≤ s.fold max (⊥ : EReal) g :=
      (Finset.le_fold_max _).2 (Or.inr ⟨i, hi, hr.ge⟩)
    intro h
    rw [h] at hle
    exact EReal.coe_ne_bot r (le_bot_iff.1 hle)
  have htop : s.fold max (⊥ : EReal) g ≠ ⊤ := by
    refine ne_of_lt ((Finset.fold_max_lt _).2 ⟨bot_lt_top, fun i hi => ?_⟩)
    obtain ⟨r, hr⟩ := hg i hi
    rw [hr]
    exact EReal.coe_lt_top r
  exact ⟨(s.fold max (⊥ : EReal) g).toReal, (EReal.coe_toReal htop hbot).symm⟩

/-- Over the coordinates of an axis of positive length: the fold of the maximum from -∞ of extended reals each of
    which is a real is a real. -/
theorem fold_max_univ_isReal {n : ℕ} (hn : 0 < n) (g : Fin n → EReal) (hg : ∀ k, ∃ r : ℝ, g k = (r : EReal)) :
    ∃ r : ℝ, (Finset.univ : Finset (Fin n)).fold max (⊥ : EReal) g = (r : EReal) :=
  fold_max_bot_isReal _ ⟨⟨0, hn⟩, Finset.mem_univ _⟩ g fun k _ => hg k

/-- The same over coerced reals. -/
theorem fold_max_univ_coe_isReal {n : ℕ} (hn : 0 < n) (f : Fin n → ℝ) :
    ∃ r : ℝ, (Finset.univ : Finset (Fin n)).fold max (⊥ : EReal) (fun k => (f k : EReal)) = (r : EReal) :=
  fold_max_univ_isReal hn _ fun k => ⟨f k, rfl⟩

/-- The same fold written with the float maximum of the extended-real instance as its operation, which is the
    maximum of the extended reals. -/
theorem fold_maximumf_univ_isReal {φ : FTy} {n : ℕ} (hn : 0 < n) (g : Fin n → Ideal φ)
    (hg : ∀ k, ∃ r : ℝ, g k = (r : EReal)) :
    ∃ r : ℝ, (Finset.univ : Finset (Fin n)).fold (FloatOps.maximumf (F := Ideal) (φ := φ)) (⊥ : EReal) g = (r : EReal) :=
  fold_max_univ_isReal hn g hg

/-- The same over coerced reals. -/
theorem fold_maximumf_univ_coe_isReal {φ : FTy} {n : ℕ} (hn : 0 < n) (f : Fin n → ℝ) :
    ∃ r : ℝ, (Finset.univ : Finset (Fin n)).fold (FloatOps.maximumf (F := Ideal) (φ := φ)) (⊥ : EReal)
        (fun k => ((f k : EReal) : Ideal φ)) = (r : EReal) :=
  fold_maximumf_univ_isReal hn _ fun k => ⟨f k, rfl⟩

/-- The bit pattern of -∞ at f32 denotes -∞: the value a maximum reduction starts from. -/
theorem ofBits_neg_inf_f32 : Ideal.ofBits .f32 0xFF800000#32 = ⊥ := by simp [Ideal.ofBits, Ideal.ieee]

/-! ## Sums of exponentials of real scores are real sums -/

/-- A sum of exponentials over a nonempty index set is positive. -/
theorem sum_exp_pos {n : ℕ} (hn : 0 < n) (s : Fin n → ℝ) : 0 < ∑ k, Real.exp (s k) :=
  Finset.sum_pos (fun k _ => Real.exp_pos _) ⟨⟨0, hn⟩, Finset.mem_univ _⟩

/-- The sum of the exponentials of real scores. -/
theorem sum_exp_coe {n : ℕ} (s : Fin n → ℝ) :
    ∑ k, Ideal.exp (s k : EReal) = ((∑ k, Real.exp (s k) : ℝ) : EReal) := by
  rw [coe_sum]
  exact Finset.sum_congr rfl fun k _ => exp_coe _

/-- The sum of the exponentials of real scores, each times a real value. -/
theorem sum_exp_coe_mul {n : ℕ} (s v : Fin n → ℝ) :
    ∑ j, Ideal.exp (s j : EReal) * (v j : EReal) = ((∑ j, Real.exp (s j) * v j : ℝ) : EReal) := by
  rw [coe_sum]
  exact Finset.sum_congr rfl fun j _ => by rw [exp_coe, EReal.coe_mul]

/-- The sum of the exponentials of real scores shifted by a real. -/
theorem sum_exp_coe_sub {n : ℕ} (s : Fin n → ℝ) (M : ℝ) :
    ∑ k, Ideal.exp ((s k : EReal) - (M : EReal)) = ((∑ k, Real.exp (s k - M) : ℝ) : EReal) := by
  rw [coe_sum]
  exact Finset.sum_congr rfl fun k _ => exp_coe_sub _ _

/-- The sum of the exponentials of shifted real scores, each times a real value. -/
theorem sum_exp_coe_sub_mul {n : ℕ} (s v : Fin n → ℝ) (M : ℝ) :
    ∑ j, Ideal.exp ((s j : EReal) - (M : EReal)) * (v j : EReal) = ((∑ j, Real.exp (s j - M) * v j : ℝ) : EReal) := by
  rw [coe_sum]
  exact Finset.sum_congr rfl fun j _ => by rw [exp_coe_sub, EReal.coe_mul]

/-- The unshifted quotient of real scores and values is a real quotient (its denominator is positive). -/
theorem quotient_coe {n : ℕ} (hn : 0 < n) (s v : Fin n → ℝ) :
    Ideal.div (∑ j, Ideal.exp (s j : EReal) * (v j : EReal)) (∑ j, Ideal.exp (s j : EReal))
      = (((∑ j, Real.exp (s j) * v j) / (∑ j, Real.exp (s j)) : ℝ) : EReal) := by
  rw [sum_exp_coe_mul, sum_exp_coe, div_coe_coe _ _ (sum_exp_pos hn s).ne']

/-! ## The shift cancels: weights normalised after subtracting any real -/

/-- Over the reals: the values averaged with weights exp(s_j - M) / Σ_k exp(s_k - M) give the unshifted quotient,
    since exp(s_j - M) = exp(s_j) / exp(M) and the factor 1 / exp(M) leaves the weights' quotient. -/
theorem softmax_shift_real {n : ℕ} (hn : 0 < n) (s v : Fin n → ℝ) (M : ℝ) :
    ∑ j, Real.exp (s j - M) / (∑ k, Real.exp (s k - M)) * v j
      = (∑ j, Real.exp (s j) * v j) / (∑ j, Real.exp (s j)) := by
  have hS : (∑ k, Real.exp (s k)) ≠ 0 := (sum_exp_pos hn s).ne'
  have hM : Real.exp M ≠ 0 := (Real.exp_pos M).ne'
  have hden : ∑ k, Real.exp (s k - M) = (∑ k, Real.exp (s k)) / Real.exp M := by
    rw [Finset.sum_div]
    exact Finset.sum_congr rfl fun k _ => Real.exp_sub _ _
  have hR : (∑ j, Real.exp (s j) * v j) / (∑ j, Real.exp (s j))
      = ∑ j, Real.exp (s j) * v j / (∑ j, Real.exp (s j)) := Finset.sum_div _ _ _
  rw [hden, hR]
  refine Finset.sum_congr rfl fun j _ => ?_
  rw [Real.exp_sub]
  field_simp

/-- The same over the extended reals, in the shape a plain softmax followed by a weighted sum of the value rows
    has at one output element: each weight is the exponential of the shifted score divided by the sum (onto a zero
    initial value) of all of them. -/
theorem softmax_row {n : ℕ} (hn : 0 < n) (s v : Fin n → ℝ) (M : ℝ) :
    ∑ j, Ideal.div (Ideal.exp ((s j : EReal) - (M : EReal)))
          ((0 : EReal) + ∑ k, Ideal.exp ((s k : EReal) - (M : EReal))) * (v j : EReal)
      = Ideal.div (∑ j, Ideal.exp (s j : EReal) * (v j : EReal)) (∑ j, Ideal.exp (s j : EReal)) := by
  have hpos : (∑ k, Real.exp (s k - M)) ≠ 0 := (sum_exp_pos hn fun k => s k - M).ne'
  have hL : ∀ j, Ideal.div (Ideal.exp ((s j : EReal) - (M : EReal)))
        ((0 : EReal) + ∑ k, Ideal.exp ((s k : EReal) - (M : EReal))) * (v j : EReal)
      = ((Real.exp (s j - M) / (∑ k, Real.exp (s k - M)) * v j : ℝ) : EReal) := by
    intro j
    rw [zero_add, sum_exp_coe_sub, exp_coe_sub, div_coe_coe _ _ hpos, ← EReal.coe_mul]
  refine (Finset.sum_congr rfl fun j _ => hL j).trans ?_
  rw [← coe_sum, softmax_shift_real hn, quotient_coe hn]

/-- The same onto a zero accumulator (the weighted sum as a matrix product). -/
theorem softmax_row_zero_add {n : ℕ} (hn : 0 < n) (s v : Fin n → ℝ) (M : ℝ) :
    (0 : EReal) + ∑ j, Ideal.div (Ideal.exp ((s j : EReal) - (M : EReal)))
          ((0 : EReal) + ∑ k, Ideal.exp ((s k : EReal) - (M : EReal))) * (v j : EReal)
      = Ideal.div (∑ j, Ideal.exp (s j : EReal) * (v j : EReal)) (∑ j, Ideal.exp (s j : EReal)) := by
  rw [zero_add, softmax_row hn]

/-! ## The running shift: two blocks of keys with a running maximum, sum and accumulator -/

/-- Over the reals: what was accumulated under the shift m₁ over the first block, rescaled by exp(m₁ - m₂), plus
    what the second block adds under the shift m₂, is everything under the shift m₂, that is everything unshifted
    divided by exp(m₂); this holds of the numerator and of the denominator, and exp(m₂) ≠ 0 leaves their quotient. -/
theorem online_two_block_real {n : ℕ} (s0 v0 s1 v1 : Fin n → ℝ) (m1 m2 : ℝ) :
    (Real.exp (m1 - m2) * (∑ j, Real.exp (s0 j - m1) * v0 j) + ∑ j, Real.exp (s1 j - m2) * v1 j)
        / (Real.exp (m1 - m2) * (∑ j, Real.exp (s0 j - m1)) + ∑ j, Real.exp (s1 j - m2))
      = ((∑ j, Real.exp (s0 j) * v0 j) + ∑ j, Real.exp (s1 j) * v1 j)
        / ((∑ j, Real.exp (s0 j)) + ∑ j, Real.exp (s1 j)) := by
  have hM : Real.exp m2 ≠ 0 := (Real.exp_pos m2).ne'
  have e0 : ∀ x : ℝ, Real.exp (m1 - m2) * Real.exp (x - m1) = Real.exp x / Real.exp m2 := by
    intro x
    rw [← Real.exp_add, ← Real.exp_sub]
    congr 1
    ring
  have hN : Real.exp (m1 - m2) * (∑ j, Real.exp (s0 j - m1) * v0 j) + ∑ j, Real.exp (s1 j - m2) * v1 j
      = ((∑ j, Real.exp (s0 j) * v0 j) + ∑ j, Real.exp (s1 j) * v1 j) / Real.exp m2 := by
    rw [Finset.mul_sum, add_div, Finset.sum_div, Finset.sum_div]
    congr 1
    · exact Finset.sum_congr rfl fun j _ => by rw [← mul_assoc, e0]; ring
    · exact Finset.sum_congr rfl fun j _ => by rw [Real.exp_sub]; ring
  have hD : Real.exp (m1 - m2) * (∑ j, Real.exp (s0 j - m1)) + ∑ j, Real.exp (s1 j - m2)
      = ((∑ j, Real.exp (s0 j)) + ∑ j, Real.exp (s1 j)) / Real.exp m2 := by
    rw [Finset.mul_sum, add_div, Finset.sum_div, Finset.sum_div]
    congr 1
    · exact Finset.sum_congr rfl fun j _ => e0 _
    · exact Finset.sum_congr rfl fun j _ => Real.exp_sub _ _
  rw [hN, hD, div_div_div_cancel_right₀ hM]

/-- The running sum after the first block: the running maximum leaves -∞, so the rescaling factor is exp(-∞) = 0
    and multiplies the initial sum 0; what remains is the block's sum under its shift. -/
theorem first_block_sum {n : ℕ} (s : Fin n → ℝ) (m : ℝ) :
    Ideal.exp ((⊥ : EReal) - (m : EReal)) * 0 + ∑ j, Ideal.exp ((s j : EReal) - (m : EReal))
      = ((∑ j, Real.exp (s j - m) : ℝ) : EReal) := by
  rw [mul_zero, zero_add, sum_exp_coe_sub]

/-- The running accumulator after the first block, likewise (the block's weighted sum is onto a zero accumulator). -/
theorem first_block_acc {n : ℕ} (s v : Fin n → ℝ) (m : ℝ) :
    Ideal.exp ((⊥ : EReal) - (m : EReal)) * 0
        + ((0 : EReal) + ∑ j, Ideal.exp ((s j : EReal) - (m : EReal)) * (v j : EReal))
      = ((∑ j, Real.exp (s j - m) * v j : ℝ) : EReal) := by
  rw [mul_zero, zero_add, zero_add, sum_exp_coe_sub_mul]

/-- The running sum after a later block, from a real running sum L under the old shift m: L rescaled by
    exp(m - m') plus the block's sum under the new shift m'. -/
theorem next_block_sum {n : ℕ} (s : Fin n → ℝ) (m m' L : ℝ) :
    Ideal.exp ((m : EReal) - (m' : EReal)) * (L : EReal) + ∑ j, Ideal.exp ((s j : EReal) - (m' : EReal))
      = ((Real.exp (m - m') * L + ∑ j, Real.exp (s j - m') : ℝ) : EReal) := by
  rw [exp_coe_sub, sum_exp_coe_sub, ← EReal.coe_mul, ← EReal.coe_add]

/-- The running accumulator after a later block, from a real running accumulator A, likewise. -/
theorem next_block_acc {n : ℕ} (s v : Fin n → ℝ) (m m' A : ℝ) :
    Ideal.exp ((m : EReal) - (m' : EReal)) * (A : EReal)
        + ((0 : EReal) + ∑ j, Ideal.exp ((s j : EReal) - (m' : EReal)) * (v j : EReal))
      = ((Real.exp (m - m') * A + ∑ j, Real.exp (s j - m') * v j : ℝ) : EReal) := by
  rw [zero_add, exp_coe_sub, sum_exp_coe_sub_mul, ← EReal.coe_mul, ← EReal.coe_add]

/-- Two blocks of keys with running maxima m₁ then m₂ (any reals), the running sum and accumulator started from 0
    and the running maximum from -∞: the accumulator divided by the sum after the second block is the unshifted
    quotient over both blocks. -/
theorem online_two_block {n : ℕ} (hn : 0 < n) (s0 v0 s1 v1 : Fin n → ℝ) (m1 m2 : ℝ) :
    Ideal.div
        (Ideal.exp ((m1 : EReal) - (m2 : EReal))
            * (Ideal.exp ((⊥ : EReal) - (m1 : EReal)) * 0
                + ((0 : EReal) + ∑ j, Ideal.exp ((s0 j : EReal) - (m1 : EReal)) * (v0 j : EReal)))
          + ((0 : EReal) + ∑ j, Ideal.exp ((s1 j : EReal) - (m2 : EReal)) * (v1 j : EReal)))
        (Ideal.exp ((m1 : EReal) - (m2 : EReal))
            * (Ideal.exp ((⊥ : EReal) - (m1 : EReal)) * 0 + ∑ j, Ideal.exp ((s0 j : EReal) - (m1 : EReal)))
          + ∑ j, Ideal.exp ((s1 j : EReal) - (m2 : EReal)))
      = Ideal.div ((∑ j, Ideal.exp (s0 j : EReal) * (v0 j : EReal)) + ∑ j, Ideal.exp (s1 j : EReal) * (v1 j : EReal))
          ((∑ j, Ideal.exp (s0 j : EReal)) + ∑ j, Ideal.exp (s1 j : EReal)) := by
  have hl2 : Real.exp (m1 - m2) * (∑ j, Real.exp (s0 j - m1)) + ∑ j, Real.exp (s1 j - m2) ≠ 0 :=
    (add_pos_of_pos_of_nonneg (mul_pos (Real.exp_pos _) (sum_exp_pos hn fun j => s0 j - m1))
      (Finset.sum_nonneg fun j _ => (Real.exp_pos _).le)).ne'
  have hD : (∑ j, Real.exp (s0 j)) + ∑ j, Real.exp (s1 j) ≠ 0 :=
    (add_pos (sum_exp_pos hn s0) (sum_exp_pos hn s1)).ne'
  rw [first_block_acc, first_block_sum, next_block_acc, next_block_sum, div_coe_coe _ _ hl2,
    online_two_block_real, sum_exp_coe_mul, sum_exp_coe_mul, sum_exp_coe, sum_exp_coe, ← EReal.coe_add,
    ← EReal.coe_add, div_coe_coe _ _ hD]

/-! ## 2048 keys as two blocks of 1024 -/

/-- A sum over 2048 keys is the sum over the first 1024 plus the sum over the last 1024. -/
theorem sum_two_blocks (f : Fin 2048 → EReal) :
    ∑ j : Fin 2048, f j
      = (∑ j : Fin 1024, f (Fin.castAdd 1024 j)) + ∑ j : Fin 1024, f (Fin.natAdd 1024 j) :=
  Fin.sum_univ_add (a := 1024) (b := 1024) f

/-- The positions of the two blocks' keys among the 2048: key j of block 0 is key j, key j of block 1 is key 1024 + j. -/
theorem castAdd_val (j : Fin 1024) : (Fin.castAdd 1024 j : Fin 2048).val = j.val := rfl
theorem natAdd_val (j : Fin 1024) : (Fin.natAdd 1024 j : Fin 2048).val = 1024 + j.val := rfl

/-- The two-block quotient for 2048 keys in blocks of 1024, against the one unshifted quotient over all 2048. -/
theorem online_two_block_2048 (s v : Fin 2048 → ℝ) (m1 m2 : ℝ) :
    Ideal.div
        (Ideal.exp ((m1 : EReal) - (m2 : EReal))
            * (Ideal.exp ((⊥ : EReal) - (m1 : EReal)) * 0
                + ((0 : EReal) + ∑ j : Fin 1024, Ideal.exp ((s (Fin.castAdd 1024 j) : EReal) - (m1 : EReal))
                    * (v (Fin.castAdd 1024 j) : EReal)))
          + ((0 : EReal) + ∑ j : Fin 1024, Ideal.exp ((s (Fin.natAdd 1024 j) : EReal) - (m2 : EReal))
              * (v (Fin.natAdd 1024 j) : EReal)))
        (Ideal.exp ((m1 : EReal) - (m2 : EReal))
            * (Ideal.exp ((⊥ : EReal) - (m1 : EReal)) * 0
                + ∑ j : Fin 1024, Ideal.exp ((s (Fin.castAdd 1024 j) : EReal) - (m1 : EReal)))
          + ∑ j : Fin 1024, Ideal.exp ((s (Fin.natAdd 1024 j) : EReal) - (m2 : EReal)))
      = Ideal.div (∑ j : Fin 2048, Ideal.exp (s j : EReal) * (v j : EReal)) (∑ j : Fin 2048, Ideal.exp (s j : EReal)) := by
  rw [sum_two_blocks (fun j => Ideal.exp (s j : EReal) * (v j : EReal)), sum_two_blocks (fun j => Ideal.exp (s j : EReal))]
  exact online_two_block (by norm_num) (fun j => s (Fin.castAdd 1024 j)) (fun j => v (Fin.castAdd 1024 j))
    (fun j => s (Fin.natAdd 1024 j)) (fun j => v (Fin.natAdd 1024 j)) m1 m2

/-! ## The scale of the scores: 1024 to the power one half is 32 -/

/-- The f32 bit patterns of 1024, of one half and of 1/32 denote those reals. -/
theorem ofBits_1024_f32 : Ideal.ofBits .f32 0x44800000#32 = ((1024 : ℝ) : EReal) := by
  simp [Ideal.ofBits, Ideal.ieee, -EReal.coe_mul]; norm_num
theorem ofBits_half_f32 : Ideal.ofBits .f32 0x3F000000#32 = ((1 / 2 : ℝ) : EReal) := by
  simp [Ideal.ofBits, Ideal.ieee, -EReal.coe_mul]; norm_num
theorem ofBits_inv32_f32 : Ideal.ofBits .f32 0x3D000000#32 = ((1 / 32 : ℝ) : EReal) := by
  simp [Ideal.ofBits, Ideal.ieee, -EReal.coe_mul]; norm_num

/-- 1024 = 32², so its square root, as a real power, is 32. -/
theorem rpow_1024_half : Real.rpow 1024 (1 / 2) = 32 := by
  rw [show (1024 : ℝ) = 32 ^ (2 : ℝ) by norm_num, Real.rpow_eq_pow, ← Real.rpow_mul (by norm_num)]; norm_num

/-- The same of the power of the extended reals. -/
theorem pow_1024_half : Ideal.pow ((1024 : ℝ) : EReal) ((1 / 2 : ℝ) : EReal) = ((32 : ℝ) : EReal) := by
  rw [Ideal.pow_coe_coe, rpow_1024_half]

/-- Dividing by it is multiplying by 1/32, whatever the dividend. -/
theorem div_pow_1024_half (x : EReal) :
    Ideal.div x (Ideal.pow ((1024 : ℝ) : EReal) ((1 / 2 : ℝ) : EReal)) = x * ((1 / 32 : ℝ) : EReal) := by
  rw [pow_1024_half, Ideal.div_coe (by norm_num)]

/-- An inner product of reals onto a zero accumulator, divided by it: the real inner product times 1/32. -/
theorem dot_coe_div_pow_1024_half {n : ℕ} (a b : Fin n → ℝ) :
    Ideal.div ((0 : EReal) + ∑ d, (a d : EReal) * (b d : EReal)) (Ideal.pow ((1024 : ℝ) : EReal) ((1 / 2 : ℝ) : EReal))
      = (((∑ d, a d * b d) * (1 / 32) : ℝ) : EReal) := by
  rw [div_pow_1024_half, dot_coe_mul_coe]

end Cert.Softmax

end
-- ==== Proof.Consts.lean ====
/-
  The float constants the two programs spell, as the extended reals their bit patterns denote at the ideal
  instance (PureOps/Ideal.lean, `Ideal.ofBits`): the reference's 1024.0 and its exponent 0.5, the kernel's scale
  0.03125, minus infinity, and zero; the power 1024 ^ (1/2) = 32; and the one consequence the comparison of the
  two programs needs: dividing by that power is multiplying by 1/32, at every extended real (the infinities
  included). Each pattern is unfolded once, here; the later statements restate the same facts in the spellings
  the printed programs use (the instance's `FloatOps` fields, the splat `constant`, the host's elementwise power).
-/
import Idealize.ShloMosaic.PureOps.Ideal
import Mathlib.Analysis.SpecialFunctions.Pow.Real
import Mathlib.Data.EReal.Inv

noncomputable section

namespace Cert.Consts

open Idealize.ShloMosaic

/-! ### The patterns -/

/-- `0x44800000`: sign 0, exponent field 137, fraction 0, so `2 ^ 23 * 2 ^ (137 - 127 - 23) = 2 ^ 10 = 1024`. -/
theorem ofBits_1024 : Ideal.ofBits .f32 0x44800000#32 = ((1024 : ℝ) : EReal) := by
  simp [Ideal.ofBits, Ideal.ieee, -EReal.coe_mul]; norm_num

/-- `0x3F000000`: sign 0, exponent field 126, fraction 0, so `2 ^ 23 * 2 ^ (126 - 127 - 23) = 2 ^ (-1) = 1/2`. -/
theorem ofBits_half : Ideal.ofBits .f32 0x3F000000#32 = ((1 / 2 : ℝ) : EReal) := by
  simp [Ideal.ofBits, Ideal.ieee, -EReal.coe_mul]; norm_num

/-- `0x3D000000`: sign 0, exponent field 122, fraction 0, so `2 ^ 23 * 2 ^ (122 - 127 - 23) = 2 ^ (-5) = 1/32`. -/
theorem ofBits_inv32 : Ideal.ofBits .f32 0x3D000000#32 = ((1 / 32 : ℝ) : EReal) := by
  simp [Ideal.ofBits, Ideal.ieee, -EReal.coe_mul]; norm_num

/-- `0xFF800000`: sign 1, exponent field all ones, fraction 0: minus infinity, the bottom of the extended reals. -/
theorem ofBits_neg_inf : Ideal.ofBits .f32 0xFF800000#32 = (⊥ : EReal) := by
  simp [Ideal.ofBits, Ideal.ieee]

/-- The zero word: exponent field 0 and fraction 0, the subnormal `0 * 2 ^ (-149) = 0`. -/
theorem ofBits_zero : Ideal.ofBits .f32 0x00000000#32 = (0 : EReal) := by
  simp [Ideal.ofBits, Ideal.ieee]

/-! ### The power and the quotient -/

/-- `1024 ^ (1/2) = 32` over the reals: `1024 = 32 ^ 2` and `(32 ^ 2) ^ (1/2) = 32 ^ (2 * (1/2)) = 32`, the base being
    nonnegative. -/
theorem rpow_1024_half : Real.rpow 1024 (1 / 2) = 32 := by
  rw [show (1024 : ℝ) = 32 ^ (2 : ℝ) by norm_num, Real.rpow_eq_pow, ← Real.rpow_mul (by norm_num)]; norm_num

/-- The ideal power of two finite arguments is the real power: `1024 ^ (1/2) = 32`. -/
theorem pow_1024_half : Ideal.pow ((1024 : ℝ) : EReal) ((1 / 2 : ℝ) : EReal) = ((32 : ℝ) : EReal) := by
  rw [Ideal.pow_coe_coe, rpow_1024_half]

/-- The reference's divisor, the power of its two constants, is 32. -/
theorem pow_consts : Ideal.pow (Ideal.ofBits .f32 0x44800000#32) (Ideal.ofBits .f32 0x3F000000#32) = ((32 : ℝ) : EReal) := by
  rw [ofBits_1024, ofBits_half, pow_1024_half]

/-- Dividing by the reference's `1024 ^ 0.5` is multiplying by the kernel's `0.03125`, at every extended real: the
    divisor is the nonzero real 32, so the ideal quotient is the product with `32⁻¹ = 1/32` (at `±∞` too: both
    sides are the product of `x` with the same positive real). -/
theorem div_pow_eq_mul (x : EReal) :
    Ideal.div x (Ideal.pow (Ideal.ofBits .f32 0x44800000#32) (Ideal.ofBits .f32 0x3F000000#32))
      = x * Ideal.ofBits .f32 0x3D000000#32 := by
  rw [pow_consts, ofBits_inv32, Ideal.div_coe (by norm_num : (32 : ℝ) ≠ 0)]

/-- The same with the constants already read: `x / 32 = x * (1/32)` in the ideal division. -/
theorem div_32 (x : EReal) : Ideal.div x ((32 : ℝ) : EReal) = x * ((1 / 32 : ℝ) : EReal) :=
  Ideal.div_coe (by norm_num) x

/-! ### The same facts in the programs' spellings

The instance's field `FloatOps.ofBits` (which the scalar constant of the kernel is, by name) is `Ideal.ofBits`; a splat
`constant` reads it at every index; the host's elementwise power and quotient are `Ideal.pow` and `Ideal.div` at
every index. All are true by unfolding, then the facts above. -/

theorem floatOps_ofBits_1024 : FloatOps.ofBits (F := Ideal) .f32 0x44800000#32 = ((1024 : ℝ) : EReal) := ofBits_1024
theorem floatOps_ofBits_half : FloatOps.ofBits (F := Ideal) .f32 0x3F000000#32 = ((1 / 2 : ℝ) : EReal) := ofBits_half
theorem floatOps_ofBits_inv32 : FloatOps.ofBits (F := Ideal) .f32 0x3D000000#32 = ((1 / 32 : ℝ) : EReal) := ofBits_inv32
theorem floatOps_ofBits_neg_inf : FloatOps.ofBits (F := Ideal) .f32 0xFF800000#32 = (⊥ : EReal) := ofBits_neg_inf
theorem floatOps_ofBits_zero : FloatOps.ofBits (F := Ideal) .f32 0x00000000#32 = (0 : EReal) := ofBits_zero

/-- The kernel's scalar constants, in the scalar namespace's name for the same field. -/
theorem scalar_ofBits_inv32 : Scalar.ofBits (F := Ideal) .f32 0x3D000000#32 = ((1 / 32 : ℝ) : EReal) := ofBits_inv32
theorem scalar_ofBits_neg_inf : Scalar.ofBits (F := Ideal) .f32 0xFF800000#32 = (⊥ : EReal) := ofBits_neg_inf

/-- The kernel's scale broadcast to a vector reads 1/32 at every index. -/
theorem broadcast_inv32_apply (s : Shape) (i : s.Idx) :
    broadcast s (Scalar.ofBits (F := Ideal) .f32 0x3D000000#32) i = ((1 / 32 : ℝ) : EReal) := ofBits_inv32

/-- The kernel's minus infinity broadcast to a vector reads the bottom at every index. -/
theorem broadcast_neg_inf_apply (s : Shape) (i : s.Idx) :
    broadcast s (Scalar.ofBits (F := Ideal) .f32 0xFF800000#32) i = (⊥ : EReal) := ofBits_neg_inf

theorem constant_1024_apply (s : Shape) (i : s.Idx) :
    constant (F := Ideal) s .f32 0x44800000#32 i = ((1024 : ℝ) : EReal) := ofBits_1024
theorem constant_half_apply (s : Shape) (i : s.Idx) :
    constant (F := Ideal) s .f32 0x3F000000#32 i = ((1 / 2 : ℝ) : EReal) := ofBits_half
theorem constant_inv32_apply (s : Shape) (i : s.Idx) :
    constant (F := Ideal) s .f32 0x3D000000#32 i = ((1 / 32 : ℝ) : EReal) := ofBits_inv32
theorem constant_neg_inf_apply (s : Shape) (i : s.Idx) :
    constant (F := Ideal) s .f32 0xFF800000#32 i = (⊥ : EReal) := ofBits_neg_inf
theorem constant_zero_apply (s : Shape) (i : s.Idx) :
    constant (F := Ideal) s .f32 0x00000000#32 i = (0 : EReal) := ofBits_zero

/-- The instance's host power of the two constants, in the field's spelling. -/
theorem hostPowf_consts :
    FloatOps.hostPowf (F := Ideal) (φ := .f32) (FloatOps.ofBits .f32 0x44800000#32) (FloatOps.ofBits .f32 0x3F000000#32)
      = ((32 : ℝ) : EReal) := pow_consts

/-- The host's elementwise power of the two splat constants reads 32 at every index. -/
theorem hostPowf_constant_apply (s : Shape) (i : s.Idx) :
    Host.powf (constant (F := Ideal) s .f32 0x44800000#32) (constant s .f32 0x3F000000#32) i = ((32 : ℝ) : EReal) :=
  pow_consts

/-- The host quotient by the power of the two constants, in the fields' spelling, is the product with the
    kernel's scale. -/
theorem hostDivf_hostPowf_consts (x : Ideal .f32) :
    FloatOps.hostDivf x
        (FloatOps.hostPowf (F := Ideal) (φ := .f32) (FloatOps.ofBits .f32 0x44800000#32) (FloatOps.ofBits .f32 0x3F000000#32))
      = x * FloatOps.ofBits (F := Ideal) .f32 0x3D000000#32 := div_pow_eq_mul x

/-- The same with the product's factor already read as the real 1/32. -/
theorem hostDivf_hostPowf_consts' (x : Ideal .f32) :
    FloatOps.hostDivf x
        (FloatOps.hostPowf (F := Ideal) (φ := .f32) (FloatOps.ofBits .f32 0x44800000#32) (FloatOps.ofBits .f32 0x3F000000#32))
      = x * ((1 / 32 : ℝ) : EReal) := by
  rw [hostDivf_hostPowf_consts]; exact congrArg (x * ·) ofBits_inv32

/-- Minus infinity is the identity of the maximum: the reference's `max(-∞, m)` is `m`. -/
theorem max_neg_inf (x : EReal) : max (Ideal.ofBits .f32 0xFF800000#32) x = x := by
  rw [ofBits_neg_inf]; exact max_eq_right bot_le

end Cert.Consts

end
-- ==== Proof.KI.Value1.lean ====
/-
  What the attention region's result array holds after its last point, at the ideal instance: for each batch and
  query block the odd point writes the block once, with the two-block online softmax of the point's query rows
  against both key blocks; over real queries, keys and values that is the specification's unshifted quotient.

  The road: the two matrix products and the body's vector operations are read at an index of the block, which gives
  the output block at (p, e) as the running accumulator over the running sum after two updates from the reset; over
  real entries the running maxima are reals, so that quotient is the unshifted one over both key blocks; the blocks
  are the parts of the three arrays the output's rectangle names (key block 0 the first 1024 key rows, key block 1 the
  last 1024), so the two block sums are the halves of the specification's sums over the 2048 keys; and the odd
  points' blocks tile the result array.
-/
import proofs.«426186_j66417374266003_3_alg».proof.Proof.KI.Data
import proofs.«426186_j66417374266003_3_alg».proof.Proof.Spec
import Idealize.ShloMosaic.Lib.ValueIdx
import Idealize.ShloMosaic.Lib.Pipeline.Value
import Idealize.ShloMosaic.PureOps.Ideal.Laws
import proofs.«426186_j66417374266003_3_alg».proof.Proof.KI.Arrays
import proofs.«426186_j66417374266003_3_alg».proof.Proof.Softmax
import proofs.«426186_j66417374266003_3_alg».proof.Proof.Consts

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The two matrix products read at an index -/

/-- Queries against keys: batch axis 0 of both, the feature axis 2 of both contracted; the left operand is read at
    (batch, query row, feature), the right at (batch, key row, feature). -/
theorem qk_lhs_0 (i : S1x1024x1024.Idx) (q : dot_S1x1024x1024_S1x1024x1024_S1x1024x1024_2_2_1_1_0_0.contr.Idx) : (dot_S1x1024x1024_S1x1024x1024_S1x1024x1024_2_2_1_1_0_0.lhsIdx i q 0).val = (i 0).val := by
  unfold DotDims.lhsIdx
  rw [dif_pos (show (0 : Fin S1x1024x1024.rank) ∈ dot_S1x1024x1024_S1x1024x1024_S1x1024x1024_2_2_1_1_0_0.lhsBatch by decide)]
  rfl
theorem qk_lhs_1 (i : S1x1024x1024.Idx) (q : dot_S1x1024x1024_S1x1024x1024_S1x1024x1024_2_2_1_1_0_0.contr.Idx) : (dot_S1x1024x1024_S1x1024x1024_S1x1024x1024_2_2_1_1_0_0.lhsIdx i q 1).val = (i 1).val := by
  unfold DotDims.lhsIdx
  rw [dif_neg (show ¬(1 : Fin S1x1024x1024.rank) ∈ dot_S1x1024x1024_S1x1024x1024_S1x1024x1024_2_2_1_1_0_0.lhsBatch by decide),
    dif_pos (show (1 : Fin S1x1024x1024.rank) ∈ dot_S1x1024x1024_S1x1024x1024_S1x1024x1024_2_2_1_1_0_0.lhsNonContracting by decide)]
  rfl
theorem qk_lhs_2 (i : S1x1024x1024.Idx) (q : dot_S1x1024x1024_S1x1024x1024_S1x1024x1024_2_2_1_1_0_0.contr.Idx) : (dot_S1x1024x1024_S1x1024x1024_S1x1024x1024_2_2_1_1_0_0.lhsIdx i q 2).val = (q ⟨0, by decide⟩).val :=
  dot_S1x1024x1024_S1x1024x1024_S1x1024x1024_2_2_1_1_0_0.lhsIdx_val_of_single rfl i q
theorem qk_rhs_0 (i : S1x1024x1024.Idx) (q : dot_S1x1024x1024_S1x1024x1024_S1x1024x1024_2_2_1_1_0_0.contr.Idx) : (dot_S1x1024x1024_S1x1024x1024_S1x1024x1024_2_2_1_1_0_0.rhsIdx i q 0).val = (i 0).val := by
  unfold DotDims.rhsIdx
  rw [dif_pos (show (0 : Fin S1x1024x1024.rank) ∈ dot_S1x1024x1024_S1x1024x1024_S1x1024x1024_2_2_1_1_0_0.rhsBatch by decide)]
  rfl
theorem qk_rhs_1 (i : S1x1024x1024.Idx) (q : dot_S1x1024x1024_S1x1024x1024_S1x1024x1024_2_2_1_1_0_0.contr.Idx) : (dot_S1x1024x1024_S1x1024x1024_S1x1024x1024_2_2_1_1_0_0.rhsIdx i q 1).val = (i 2).val := by
  unfold DotDims.rhsIdx
  rw [dif_neg (show ¬(1 : Fin S1x1024x1024.rank) ∈ dot_S1x1024x1024_S1x1024x1024_S1x1024x1024_2_2_1_1_0_0.rhsBatch by decide),
    dif_pos (show (1 : Fin S1x1024x1024.rank) ∈ dot_S1x1024x1024_S1x1024x1024_S1x1024x1024_2_2_1_1_0_0.rhsNonContracting by decide)]
  rfl
theorem qk_rhs_2 (i : S1x1024x1024.Idx) (q : dot_S1x1024x1024_S1x1024x1024_S1x1024x1024_2_2_1_1_0_0.contr.Idx) : (dot_S1x1024x1024_S1x1024x1024_S1x1024x1024_2_2_1_1_0_0.rhsIdx i q 2).val = (q ⟨0, by decide⟩).val :=
  dot_S1x1024x1024_S1x1024x1024_S1x1024x1024_2_2_1_1_0_0.rhsIdx_val_of_single rfl i q

/-- The product of queries and keys onto the zero accumulator, at (0, p, j): row p of the left operand against row j
    of the right, over the 1024 features. -/
theorem qk_apply (x y : FVec Ideal S1x1024x1024 .bf16) (p j : Fin 1024) :
    matmul dot_S1x1024x1024_S1x1024x1024_S1x1024x1024_2_2_1_1_0_0 none x y (constant S1x1024x1024 .f32 0x00000000#32) (ix3 0 p j)
      = (0 : EReal) + ∑ d : Fin 1024, (x (ix3 0 p d) : EReal) * (y (ix3 0 j d) : EReal) := by
  show FloatOps.matmul dot_S1x1024x1024_S1x1024x1024_S1x1024x1024_2_2_1_1_0_0 none x y (constant S1x1024x1024 .f32 0x00000000#32) (ix3 0 p j) = _
  rw [Ideal.matmul_apply, ← Equiv.sum_comp (ValueIdx.contrEquiv1 dot_S1x1024x1024_S1x1024x1024_S1x1024x1024_2_2_1_1_0_0 1024 rfl rfl).symm]
  refine congrArg₂ (· + ·) (Cert.Consts.constant_zero_apply _ _) (Finset.sum_congr rfl fun d _ => ?_)
  have hd := ValueIdx.contrEquiv1_symm_val dot_S1x1024x1024_S1x1024x1024_S1x1024x1024_2_2_1_1_0_0 1024 rfl rfl d
  have el : dot_S1x1024x1024_S1x1024x1024_S1x1024x1024_2_2_1_1_0_0.lhsIdx (ix3 0 p j) ((ValueIdx.contrEquiv1 dot_S1x1024x1024_S1x1024x1024_S1x1024x1024_2_2_1_1_0_0 1024 rfl rfl).symm d) = ix3 0 p d :=
    funext fun a => Fin.ext (by
      match a with
      | ⟨0, _⟩ => exact qk_lhs_0 _ _
      | ⟨1, _⟩ => exact qk_lhs_1 _ _
      | ⟨2, _⟩ => exact (qk_lhs_2 _ _).trans hd)
  have er : dot_S1x1024x1024_S1x1024x1024_S1x1024x1024_2_2_1_1_0_0.rhsIdx (ix3 0 p j) ((ValueIdx.contrEquiv1 dot_S1x1024x1024_S1x1024x1024_S1x1024x1024_2_2_1_1_0_0 1024 rfl rfl).symm d) = ix3 0 j d :=
    funext fun a => Fin.ext (by
      match a with
      | ⟨0, _⟩ => exact qk_rhs_0 _ _
      | ⟨1, _⟩ => exact qk_rhs_1 _ _
      | ⟨2, _⟩ => exact (qk_rhs_2 _ _).trans hd)
  rw [el, er]

/-- Weights against values: batch axis 0 of both, the key axis contracted (axis 2 of the weights, axis 1 of the
    values); the left operand is read at (batch, query row, key), the right at (batch, key, feature). -/
theorem pv_lhs_0 (i : S1x1024x1024.Idx) (q : dot_S1x1024x1024_S1x1024x1024_S1x1024x1024_2_1_1_2_0_0.contr.Idx) : (dot_S1x1024x1024_S1x1024x1024_S1x1024x1024_2_1_1_2_0_0.lhsIdx i q 0).val = (i 0).val := by
  unfold DotDims.lhsIdx
  rw [dif_pos (show (0 : Fin S1x1024x1024.rank) ∈ dot_S1x1024x1024_S1x1024x1024_S1x1024x1024_2_1_1_2_0_0.lhsBatch by decide)]
  rfl
theorem pv_lhs_1 (i : S1x1024x1024.Idx) (q : dot_S1x1024x1024_S1x1024x1024_S1x1024x1024_2_1_1_2_0_0.contr.Idx) : (dot_S1x1024x1024_S1x1024x1024_S1x1024x1024_2_1_1_2_0_0.lhsIdx i q 1).val = (i 1).val := by
  unfold DotDims.lhsIdx
  rw [dif_neg (show ¬(1 : Fin S1x1024x1024.rank) ∈ dot_S1x1024x1024_S1x1024x1024_S1x1024x1024_2_1_1_2_0_0.lhsBatch by decide),
    dif_pos (show (1 : Fin S1x1024x1024.rank) ∈ dot_S1x1024x1024_S1x1024x1024_S1x1024x1024_2_1_1_2_0_0.lhsNonContracting by decide)]
  rfl
theorem pv_lhs_2 (i : S1x1024x1024.Idx) (q : dot_S1x1024x1024_S1x1024x1024_S1x1024x1024_2_1_1_2_0_0.contr.Idx) : (dot_S1x1024x1024_S1x1024x1024_S1x1024x1024_2_1_1_2_0_0.lhsIdx i q 2).val = (q ⟨0, by decide⟩).val :=
  dot_S1x1024x1024_S1x1024x1024_S1x1024x1024_2_1_1_2_0_0.lhsIdx_val_of_single rfl i q
theorem pv_rhs_0 (i : S1x1024x1024.Idx) (q : dot_S1x1024x1024_S1x1024x1024_S1x1024x1024_2_1_1_2_0_0.contr.Idx) : (dot_S1x1024x1024_S1x1024x1024_S1x1024x1024_2_1_1_2_0_0.rhsIdx i q 0).val = (i 0).val := by
  unfold DotDims.rhsIdx
  rw [dif_pos (show (0 : Fin S1x1024x1024.rank) ∈ dot_S1x1024x1024_S1x1024x1024_S1x1024x1024_2_1_1_2_0_0.rhsBatch by decide)]
  rfl
theorem pv_rhs_1 (i : S1x1024x1024.Idx) (q : dot_S1x1024x1024_S1x1024x1024_S1x1024x1024_2_1_1_2_0_0.contr.Idx) : (dot_S1x1024x1024_S1x1024x1024_S1x1024x1024_2_1_1_2_0_0.rhsIdx i q 1).val = (q ⟨0, by decide⟩).val :=
  dot_S1x1024x1024_S1x1024x1024_S1x1024x1024_2_1_1_2_0_0.rhsIdx_val_of_single rfl i q
theorem pv_rhs_2 (i : S1x1024x1024.Idx) (q : dot_S1x1024x1024_S1x1024x1024_S1x1024x1024_2_1_1_2_0_0.contr.Idx) : (dot_S1x1024x1024_S1x1024x1024_S1x1024x1024_2_1_1_2_0_0.rhsIdx i q 2).val = (i 2).val := by
  unfold DotDims.rhsIdx
  rw [dif_neg (show ¬(2 : Fin S1x1024x1024.rank) ∈ dot_S1x1024x1024_S1x1024x1024_S1x1024x1024_2_1_1_2_0_0.rhsBatch by decide),
    dif_pos (show (2 : Fin S1x1024x1024.rank) ∈ dot_S1x1024x1024_S1x1024x1024_S1x1024x1024_2_1_1_2_0_0.rhsNonContracting by decide)]
  rfl

/-- The product of weights and values onto the zero accumulator, at (0, p, e): row p of the weights against column e
    of the values, over the 1024 keys of the block. -/
theorem pv_apply (x y : FVec Ideal S1x1024x1024 .bf16) (p e : Fin 1024) :
    matmul dot_S1x1024x1024_S1x1024x1024_S1x1024x1024_2_1_1_2_0_0 none x y (constant S1x1024x1024 .f32 0x00000000#32) (ix3 0 p e)
      = (0 : EReal) + ∑ j : Fin 1024, (x (ix3 0 p j) : EReal) * (y (ix3 0 j e) : EReal) := by
  show FloatOps.matmul dot_S1x1024x1024_S1x1024x1024_S1x1024x1024_2_1_1_2_0_0 none x y (constant S1x1024x1024 .f32 0x00000000#32) (ix3 0 p e) = _
  rw [Ideal.matmul_apply, ← Equiv.sum_comp (ValueIdx.contrEquiv1 dot_S1x1024x1024_S1x1024x1024_S1x1024x1024_2_1_1_2_0_0 1024 rfl rfl).symm]
  refine congrArg₂ (· + ·) (Cert.Consts.constant_zero_apply _ _) (Finset.sum_congr rfl fun j _ => ?_)
  have hj := ValueIdx.contrEquiv1_symm_val dot_S1x1024x1024_S1x1024x1024_S1x1024x1024_2_1_1_2_0_0 1024 rfl rfl j
  have el : dot_S1x1024x1024_S1x1024x1024_S1x1024x1024_2_1_1_2_0_0.lhsIdx (ix3 0 p e) ((ValueIdx.contrEquiv1 dot_S1x1024x1024_S1x1024x1024_S1x1024x1024_2_1_1_2_0_0 1024 rfl rfl).symm j) = ix3 0 p j :=
    funext fun a => Fin.ext (by
      match a with
      | ⟨0, _⟩ => exact pv_lhs_0 _ _
      | ⟨1, _⟩ => exact pv_lhs_1 _ _
      | ⟨2, _⟩ => exact (pv_lhs_2 _ _).trans hj)
  have er : dot_S1x1024x1024_S1x1024x1024_S1x1024x1024_2_1_1_2_0_0.rhsIdx (ix3 0 p e) ((ValueIdx.contrEquiv1 dot_S1x1024x1024_S1x1024x1024_S1x1024x1024_2_1_1_2_0_0 1024 rfl rfl).symm j) = ix3 0 j e :=
    funext fun a => Fin.ext (by
      match a with
      | ⟨0, _⟩ => exact pv_rhs_0 _ _
      | ⟨1, _⟩ => exact (pv_rhs_1 _ _).trans hj
      | ⟨2, _⟩ => exact pv_rhs_2 _ _)
  rw [el, er]

/-! ## Layout operations of the block read at an index -/

/-- The source index over (0, p) with key coordinate k put back on the reduced axis is (0, p, k). -/
theorem lift_row (h : S1x1024x1024.Reduces [2] S1x1024) (p : Fin 1024) (k : Fin (S1x1024x1024.size 2)) :
    h.lift (ix2 0 p) k = ix3 0 p ⟨k.val, k.isLt⟩ := by
  funext c; apply Fin.ext
  fin_cases c <;> rfl

/-- A row vector [1, 1024] recast as a column [1, 1024, 1], at (0, p, 0), is the vector at (0, p). -/
theorem colCast_apply {α : Type} (x : S1x1024.Idx → α) (h : S1x1024.ShapeCasts S1x1024x1) (p : Fin 1024) :
    shapeCast S1x1024x1 x h (ix3 0 p 0) = x (ix2 0 p) :=
  shapeCast_apply x h (ix3 0 p 0) (ix2 0 p) (by
    rw [Shape.rowMajor_val_two, Shape.rowMajor_val_three]
    show (0 : ℕ) * 1024 + p.val = ((0 : ℕ) * 1024 + p.val) * 1 + 0
    omega)

/-- A column [1, 1024, 1] broadcast along the last axis, at (0, p, j), is the column at (0, p, 0). -/
theorem rowBcast_apply {α : Type} (x : S1x1024x1.Idx → α) (h : S1x1024x1.Broadcasts S1x1024x1024) (p j : Fin 1024) :
    broadcastTo S1x1024x1024 x h (ix3 0 p j) = x (ix3 0 p 0) :=
  broadcastTo_apply x h (ix3 0 p j) (ix3 0 p 0) (fun a => by
    match a with
    | ⟨0, _⟩ => show (0 : ℕ) = if (1 : ℕ) = 1 then 0 else (0 : ℕ); rw [if_pos rfl]
    | ⟨1, _⟩ => show p.val = if (1024 : ℕ) = 1 then 0 else p.val; rw [if_neg (by decide)]
    | ⟨2, _⟩ => show (0 : ℕ) = if (1 : ℕ) = 1 then 0 else j.val; rw [if_pos rfl])

/-- The maximum over the keys of a block of scores, from -∞, at query row p. -/
theorem rowMax_apply (src : FVec Ideal S1x1024x1024 .f32) (h : S1x1024x1024.Reduces [2] S1x1024) (hφ : FKind.Formats .f32)
    (hacc : (0xFF800000#32 : BitVec 32) = FKind.maximumf.neutral .f32 hφ) (p : Fin 1024) :
    multiReduction .maximumf [2] S1x1024 src 0xFF800000#32 h hφ hacc (ix2 0 p)
      = (Finset.univ : Finset (Fin 1024)).fold max (⊥ : EReal) (fun j => (src (ix3 0 p j) : EReal)) := by
  rw [Ideal.multiReduction_maximumf_single]
  have hf : (src ∘ h.lift (ix2 0 p)) = fun j : Fin 1024 => src (ix3 0 p j) :=
    funext fun j => congrArg src (lift_row h p j)
  exact congrArg₂ (fun (b : EReal) (f : Fin 1024 → EReal) => Finset.fold max b f Finset.univ)
    Cert.Consts.floatOps_ofBits_neg_inf hf

/-- The sum over the keys of a block, at query row p. -/
theorem rowSum_apply (src : FVec Ideal S1x1024x1024 .f32) (h : S1x1024x1024.Reduces [2] S1x1024) (hφ : FKind.Formats .f32)
    (hacc : (0x00000000#32 : BitVec 32) = FKind.add.neutral .f32 hφ) (p : Fin 1024) :
    multiReduction .add [2] S1x1024 src 0x00000000#32 h hφ hacc (ix2 0 p) = ∑ j : Fin 1024, (src (ix3 0 p j) : EReal) := by
  rw [Ideal.multiReduction_add_single]
  exact Finset.sum_congr rfl fun j _ => congrArg src (lift_row h p j)

/-! ## The body's values read at an index of the block -/

/-- The scaled score of query row p of a block of queries against key row j of a block of keys: their inner product
    over the 1024 features (onto a zero accumulator) times 1/32. -/
def blkScore (q k : Vec Ideal S1x1024x1024 .bf16) (p j : Fin 1024) : EReal :=
  ((0 : EReal) + ∑ d : Fin 1024, (q (ix3 0 p d) : EReal) * (k (ix3 0 j d) : EReal)) * ((1 / 32 : ℝ) : EReal)

/-- The maximum of query row p's scores against the block's keys, from -∞. -/
def blkMax (q k : Vec Ideal S1x1024x1024 .bf16) (p : Fin 1024) : EReal :=
  (Finset.univ : Finset (Fin 1024)).fold max (⊥ : EReal) (fun j => blkScore q k p j)

theorem score_apply (q k : Vec Ideal S1x1024x1024 .bf16) (p j : Fin 1024) :
    k1_pay8 (F := Ideal) q k (ix3 0 p j) = blkScore q k p j := by
  unfold k1_pay8
  rw [shapeCast_self, shapeCast_self]
  exact congrArg₂ (· * ·) (qk_apply q k p j) (Cert.Consts.broadcast_inv32_apply _ _)

/-- The new running maximum at row p: the old one against the block's maximum. -/
theorem mB_apply (q k : Vec Ideal S1x1024x1024 .bf16) (m0 : Vec Ideal S1x1024x1 .f32) (p : Fin 1024) :
    mB (F := Ideal) q k m0 (ix3 0 p 0) = max (m0 (ix3 0 p 0) : EReal) (blkMax q k p) := by
  unfold mB k1_pay2 k1_pay9
  rw [shapeCast_self]
  refine congrArg (max (m0 (ix3 0 p 0) : EReal)) ?_
  refine (colCast_apply _ _ p).trans ?_
  refine (rowMax_apply _ _ _ _ p).trans ?_
  exact congrArg (fun f : Fin 1024 → EReal => Finset.fold max (⊥ : EReal) f Finset.univ)
    (funext fun j => score_apply q k p j)

/-- The three reset values: the running maximum -∞, the running sum 0, the accumulator 0. -/
theorem resetMax_apply (p : Fin 1024) : k1_pay5 (F := Ideal) (ix3 0 p 0) = (⊥ : EReal) := by
  unfold k1_pay5
  rw [shapeCast_self]
  exact Cert.Consts.broadcast_neg_inf_apply _ _
theorem resetSum_apply (p : Fin 1024) : k1_pay6 (F := Ideal) (ix3 0 p 0) = (0 : EReal) := by
  unfold k1_pay6
  rw [shapeCast_self]
  exact Cert.Consts.ofBits_zero
theorem resetAcc_apply (p e : Fin 1024) : k1_pay4 (F := Ideal) (ix3 0 p e) = (0 : EReal) := by
  unfold k1_pay4
  rw [shapeCast_self]
  exact Cert.Consts.ofBits_zero

/-- The stored running maximum is the new running maximum (its last shape cast is the identity). -/
theorem mB_eq (q k : Vec Ideal S1x1024x1024 .bf16) (m0 : Vec Ideal S1x1024x1 .f32) :
    mB (F := Ideal) q k m0 = k1_pay9 q k m0 := by
  unfold mB k1_pay2
  exact shapeCast_self _ _

/-- The rescaling factor at row p: the exponential of the old running maximum minus the new one. -/
theorem alpha_apply (q k : Vec Ideal S1x1024x1024 .bf16) (m0 : Vec Ideal S1x1024x1 .f32) (p : Fin 1024) :
    k1_pay10 (F := Ideal) q k m0 (ix3 0 p 0)
      = Ideal.exp ((m0 (ix3 0 p 0) : EReal) - mB q k m0 (ix3 0 p 0)) := by
  rw [mB_eq]; rfl

/-- The weight of key j at row p: the exponential of the score minus the new running maximum. -/
theorem weight_apply (q k : Vec Ideal S1x1024x1024 .bf16) (m0 : Vec Ideal S1x1024x1 .f32) (p j : Fin 1024) :
    k1_pay11 (F := Ideal) q k m0 (ix3 0 p j) = Ideal.exp (blkScore q k p j - mB q k m0 (ix3 0 p 0)) := by
  rw [mB_eq]
  unfold k1_pay11
  show Ideal.exp ((k1_pay8 q k (ix3 0 p j) : EReal) - broadcastTo S1x1024x1024 (k1_pay9 q k m0) _ (ix3 0 p j)) = _
  rw [score_apply, rowBcast_apply]

/-- The new running sum at row p: the old one rescaled plus the sum of the block's weights. -/
theorem lB_apply (q k : Vec Ideal S1x1024x1024 .bf16) (m0 l0 : Vec Ideal S1x1024x1 .f32) (p : Fin 1024) :
    lB (F := Ideal) q k m0 l0 (ix3 0 p 0)
      = Ideal.exp ((m0 (ix3 0 p 0) : EReal) - mB q k m0 (ix3 0 p 0)) * (l0 (ix3 0 p 0) : EReal)
        + ∑ j : Fin 1024, Ideal.exp (blkScore q k p j - mB q k m0 (ix3 0 p 0)) := by
  unfold lB k1_pay12
  rw [shapeCast_self]
  show (k1_pay10 q k m0 (ix3 0 p 0) : EReal) * (l0 (ix3 0 p 0) : EReal)
      + shapeCast S1x1024x1 (multiReduction .add [2] S1x1024 (k1_pay11 q k m0) 0x00000000#32 _ _ _) _ (ix3 0 p 0) = _
  refine congrArg₂ (· + ·) (congrArg (· * (l0 (ix3 0 p 0) : EReal)) (alpha_apply q k m0 p)) ?_
  refine (colCast_apply _ _ p).trans ?_
  refine (rowSum_apply _ _ _ _ p).trans ?_
  exact Finset.sum_congr rfl fun j _ => weight_apply q k m0 p j

/-- The new accumulator at (p, e): the old one rescaled plus the block's weights against column e of its values (onto
    a zero accumulator). -/
theorem accB_apply (q k v : Vec Ideal S1x1024x1024 .bf16) (m0 : Vec Ideal S1x1024x1 .f32)
    (a0 : Vec Ideal S1x1024x1024 .f32) (p e : Fin 1024) :
    accB (F := Ideal) q k v m0 a0 (ix3 0 p e)
      = Ideal.exp ((m0 (ix3 0 p 0) : EReal) - mB q k m0 (ix3 0 p 0)) * (a0 (ix3 0 p e) : EReal)
        + ((0 : EReal) + ∑ j : Fin 1024, Ideal.exp (blkScore q k p j - mB q k m0 (ix3 0 p 0)) * (v (ix3 0 j e) : EReal)) := by
  unfold accB k1_pay1 k1_pay7
  rw [shapeCast_self, shapeCast_self]
  show (broadcastTo S1x1024x1024 (k1_pay10 q k m0) _ (ix3 0 p e) : EReal) * (a0 (ix3 0 p e) : EReal)
      + matmul dot_S1x1024x1024_S1x1024x1024_S1x1024x1024_2_1_1_2_0_0 none (truncf .bf16 (k1_pay11 q k m0) _) v (constant S1x1024x1024 .f32 0x00000000#32) (ix3 0 p e) = _
  rw [rowBcast_apply, alpha_apply, pv_apply]
  refine congrArg (_ + ·) (congrArg ((0 : EReal) + ·) (Finset.sum_congr rfl fun j _ => ?_))
  show (k1_pay11 q k m0 (ix3 0 p j) : EReal) * (v (ix3 0 j e) : EReal) = _
  rw [weight_apply]

/-- The output block at (p, e): the new accumulator there divided by the new running sum of row p. -/
theorem outB_apply (q k v : Vec Ideal S1x1024x1024 .bf16) (m0 l0 : Vec Ideal S1x1024x1 .f32)
    (a0 : Vec Ideal S1x1024x1024 .f32) (p e : Fin 1024) :
    outB (F := Ideal) q k v m0 l0 a0 (ix3 0 p e)
      = Ideal.div (accB q k v m0 a0 (ix3 0 p e)) (lB q k m0 l0 (ix3 0 p 0)) := by
  unfold outB k1_pay3
  show Ideal.div (accB q k v m0 a0 (ix3 0 p e)) (broadcastTo S1x1024x1024 (lB q k m0 l0) _ (ix3 0 p e)) = _
  rw [rowBcast_apply]

/-! ## Over real queries, keys and values: the two-block quotient is the unshifted one -/

/-- A score of real rows is a real: the real inner product times 1/32. -/
theorem blkScore_coe (q k : Vec Ideal S1x1024x1024 .bf16) (qr kr : S1x1024x1024.Idx → ℝ)
    (hq : ∀ i, (q i : EReal) = (qr i : EReal)) (hk : ∀ i, (k i : EReal) = (kr i : EReal)) (p j : Fin 1024) :
    blkScore q k p j = (((∑ d : Fin 1024, qr (ix3 0 p d) * kr (ix3 0 j d)) * (1 / 32) : ℝ) : EReal) := by
  refine Eq.trans ?_ (Cert.Softmax.dot_coe_mul_coe (fun d => qr (ix3 0 p d)) (fun d => kr (ix3 0 j d)) (1 / 32))
  unfold blkScore
  refine congrArg (· * ((1 / 32 : ℝ) : EReal)) (congrArg ((0 : EReal) + ·) (Finset.sum_congr rfl fun d _ => ?_))
  rw [hq, hk]

/-- The output block of an odd point at (p, e), over real blocks: the running maxima after key block 0 and after key
    block 1 are reals (maxima of finitely many real scores), so the accumulator over the sum is the unshifted quotient
    over both key blocks. -/
theorem outQ_apply (q k0 v0 k1 v1 : Vec Ideal S1x1024x1024 .bf16)
    (hq : ∀ i, ∃ r : ℝ, (q i : EReal) = (r : EReal)) (hk0 : ∀ i, ∃ r : ℝ, (k0 i : EReal) = (r : EReal))
    (hv0 : ∀ i, ∃ r : ℝ, (v0 i : EReal) = (r : EReal)) (hk1 : ∀ i, ∃ r : ℝ, (k1 i : EReal) = (r : EReal))
    (hv1 : ∀ i, ∃ r : ℝ, (v1 i : EReal) = (r : EReal)) (p e : Fin 1024) :
    outQ (F := Ideal) q k0 v0 k1 v1 (ix3 0 p e)
      = Ideal.div
          ((∑ j : Fin 1024, Ideal.exp (blkScore q k0 p j) * (v0 (ix3 0 j e) : EReal))
            + ∑ j : Fin 1024, Ideal.exp (blkScore q k1 p j) * (v1 (ix3 0 j e) : EReal))
          ((∑ j : Fin 1024, Ideal.exp (blkScore q k0 p j)) + ∑ j : Fin 1024, Ideal.exp (blkScore q k1 p j)) := by
  choose qr hqr using hq
  choose k0r hk0r using hk0
  choose v0r hv0r using hv0
  choose k1r hk1r using hk1
  choose v1r hv1r using hv1
  have hs0 := blkScore_coe q k0 qr k0r hqr hk0r p
  have hs1 := blkScore_coe q k1 qr k1r hqr hk1r p
  obtain ⟨r0, hr0⟩ := Cert.Softmax.fold_max_univ_isReal (by norm_num : 0 < 1024) (fun j => blkScore q k0 p j)
    fun j => ⟨_, hs0 j⟩
  obtain ⟨r1, hr1⟩ := Cert.Softmax.fold_max_univ_isReal (by norm_num : 0 < 1024) (fun j => blkScore q k1 p j)
    fun j => ⟨_, hs1 j⟩
  have hm1 : mB q k0 (k1_pay5 (F := Ideal)) (ix3 0 p 0) = (r0 : EReal) := by
    rw [mB_apply, resetMax_apply]
    exact (congrArg (max (⊥ : EReal)) hr0).trans (Cert.Softmax.max_bot_coe r0)
  have hm2 : mB q k1 (mB q k0 (k1_pay5 (F := Ideal))) (ix3 0 p 0) = ((max r0 r1 : ℝ) : EReal) := by
    rw [mB_apply, hm1]
    exact (congrArg (max (r0 : EReal)) hr1).trans (Cert.Softmax.max_coe_coe r0 r1)
  show outB q k1 v1 (mB q k0 (k1_pay5 (F := Ideal))) (lB q k0 (k1_pay5 (F := Ideal)) (k1_pay6 (F := Ideal))) (accB q k0 v0 (k1_pay5 (F := Ideal)) (k1_pay4 (F := Ideal))) (ix3 0 p e) = _
  rw [outB_apply, accB_apply, lB_apply, accB_apply, lB_apply, hm2, hm1, resetMax_apply, resetSum_apply, resetAcc_apply]
  simp only [hs0, hs1, hv0r, hv1r]
  exact Cert.Softmax.online_two_block (by norm_num)
    (fun j => (∑ d : Fin 1024, qr (ix3 0 p d) * k0r (ix3 0 j d)) * (1 / 32)) (fun j => v0r (ix3 0 j e))
    (fun j => (∑ d : Fin 1024, qr (ix3 0 p d) * k1r (ix3 0 j d)) * (1 / 32)) (fun j => v1r (ix3 0 j e)) r0 (max r0 r1)

/-! ## The blocks as parts of the arrays -/

/-- The printed index maps, decided over the 16 points (batch b, query block qi, key block kv), kv innermost: the
    query and output blocks are at (b, qi, 0), the key and value blocks at (b, kv, 0), with b = t / 4, qi = t / 2 mod 2
    and kv = t mod 2. -/
theorem idx_facts1 : ∀ t : Fin cfg1.N,
    win1_0.index t (0 : Fin 3) = t.val / 4 ∧ win1_0.index t (1 : Fin 3) = t.val / 2 % 2 ∧ win1_0.index t (2 : Fin 3) = 0
    ∧ win1_1.index t (0 : Fin 3) = t.val / 4 ∧ win1_1.index t (1 : Fin 3) = t.val % 2 ∧ win1_1.index t (2 : Fin 3) = 0
    ∧ win1_2.index t (0 : Fin 3) = t.val / 4 ∧ win1_2.index t (1 : Fin 3) = t.val % 2 ∧ win1_2.index t (2 : Fin 3) = 0
    ∧ win1_3.index t (0 : Fin 3) = t.val / 4 ∧ win1_3.index t (1 : Fin 3) = t.val / 2 % 2 ∧ win1_3.index t (2 : Fin 3) = 0 :=
  (by decide +kernel : ∀ t : Fin grid1.N, _)

/-- The query block of point t at x is the query array at the block's offset plus x. -/
theorem qblk_apply (W : Valuation τ sig (Elt Ideal)) (c : Dev nD) (t : Fin cfg1.N) (x : S1x1024x1024.Idx) (k : S4x2048x1024.Idx)
    (h0 : (k 0).val = win1_0.index t (0 : Fin 3) * 1 + (x 0).val)
    (h1 : (k 1).val = win1_0.index t (1 : Fin 3) * 1024 + (x 1).val)
    (h2 : (k 2).val = win1_0.index t (2 : Fin 3) * 1024 + (x 2).val) :
    (iblk1 (F := Ideal) W c 0 t : Vec Ideal S1x1024x1024 .bf16) x = qArr W k := by
  unfold iblk1
  rw [View.read_apply]
  show qArr W _ = qArr W _
  congr 1
  funext a
  apply Fin.ext
  match a with
  | ⟨0, _⟩ => show win1_0.index t (0 : Fin 3) * 1 + 1 * (x 0).val = (k 0).val; omega
  | ⟨1, _⟩ => show win1_0.index t (1 : Fin 3) * 1024 + 1 * (x 1).val = (k 1).val; omega
  | ⟨2, _⟩ => show win1_0.index t (2 : Fin 3) * 1024 + 1 * (x 2).val = (k 2).val; omega

/-- The key block of point t likewise. -/
theorem kblk_apply (W : Valuation τ sig (Elt Ideal)) (c : Dev nD) (t : Fin cfg1.N) (x : S1x1024x1024.Idx) (k : S4x2048x1024.Idx)
    (h0 : (k 0).val = win1_1.index t (0 : Fin 3) * 1 + (x 0).val)
    (h1 : (k 1).val = win1_1.index t (1 : Fin 3) * 1024 + (x 1).val)
    (h2 : (k 2).val = win1_1.index t (2 : Fin 3) * 1024 + (x 2).val) :
    (iblk1 (F := Ideal) W c 1 t : Vec Ideal S1x1024x1024 .bf16) x = kArr W k := by
  unfold iblk1
  rw [View.read_apply]
  show kArr W _ = kArr W _
  congr 1
  funext a
  apply Fin.ext
  match a with
  | ⟨0, _⟩ => show win1_1.index t (0 : Fin 3) * 1 + 1 * (x 0).val = (k 0).val; omega
  | ⟨1, _⟩ => show win1_1.index t (1 : Fin 3) * 1024 + 1 * (x 1).val = (k 1).val; omega
  | ⟨2, _⟩ => show win1_1.index t (2 : Fin 3) * 1024 + 1 * (x 2).val = (k 2).val; omega

/-- The value block of point t likewise. -/
theorem vblk_apply (W : Valuation τ sig (Elt Ideal)) (c : Dev nD) (t : Fin cfg1.N) (x : S1x1024x1024.Idx) (k : S4x2048x1024.Idx)
    (h0 : (k 0).val = win1_2.index t (0 : Fin 3) * 1 + (x 0).val)
    (h1 : (k 1).val = win1_2.index t (1 : Fin 3) * 1024 + (x 1).val)
    (h2 : (k 2).val = win1_2.index t (2 : Fin 3) * 1024 + (x 2).val) :
    (iblk1 (F := Ideal) W c 2 t : Vec Ideal S1x1024x1024 .bf16) x = vArr W k := by
  unfold iblk1
  rw [View.read_apply]
  show vArr W _ = vArr W _
  congr 1
  funext a
  apply Fin.ext
  match a with
  | ⟨0, _⟩ => show win1_2.index t (0 : Fin 3) * 1 + 1 * (x 0).val = (k 0).val; omega
  | ⟨1, _⟩ => show win1_2.index t (1 : Fin 3) * 1024 + 1 * (x 1).val = (k 1).val; omega
  | ⟨2, _⟩ => show win1_2.index t (2 : Fin 3) * 1024 + 1 * (x 2).val = (k 2).val; omega

/-! ## What an odd point writes back, and the array after the last point -/

/-- The result array's final contents: the specification's attention of the three input arrays. -/
def attnArr (W : Valuation τ sig (Elt Ideal)) : S4x2048x1024.Idx → EReal := fun i =>
  Cert.Spec.attend (fun b r e => qArr W (ix3 b r e)) (fun b r e => kArr W (ix3 b r e)) (fun b r e => vArr W (ix3 b r e))
    (i 0) (i 1) (i 2)

/-- At an odd point t = 4b + 2qi + 1 the output block at (p, e) is the attention of batch b at query row 1024 qi + p
    and feature e: the point's query block holds rows 1024 qi + p of batch b, the key and value blocks of the point
    before hold key rows j and those of this point key rows 1024 + j, so the two block sums are the two halves of the
    sum over the 2048 keys. -/
theorem outQ_point (W : Valuation τ sig (Elt Ideal)) (c : Dev nD)
    (hq : ∀ i, ∃ r : ℝ, qArr W i = (r : EReal)) (hk : ∀ i, ∃ r : ℝ, kArr W i = (r : EReal)) (hv : ∀ i, ∃ r : ℝ, vArr W i = (r : EReal))
    (t : Fin cfg1.N) (hodd : t.val % 2 = 1) (p e : Fin 1024) (b : Fin 4) (r : Fin 2048)
    (hb : b.val = t.val / 4) (hr : r.val = t.val / 2 % 2 * 1024 + p.val) :
    outQ (F := Ideal) (iblk1 W c 0 t) (iblk1 W c 1 (prev1 t)) (iblk1 W c 2 (prev1 t)) (iblk1 W c 1 t) (iblk1 W c 2 t) (ix3 0 p e)
      = Cert.Spec.attend (fun b r e => qArr W (ix3 b r e)) (fun b r e => kArr W (ix3 b r e)) (fun b r e => vArr W (ix3 b r e)) b r e := by
  obtain ⟨q0, q1, q2, k0, k1, k2, v0, v1, v2, -, -, -⟩ := idx_facts1 t
  obtain ⟨-, -, -, pk0, pk1, pk2, pv0, pv1, pv2, -, -, -⟩ := idx_facts1 (prev1 t)
  have hprev : (prev1 t).val = t.val - 1 := rfl
  have ht : t.val < 16 := t.isLt
  have hQ : ∀ i, ∃ r : ℝ, ((iblk1 (F := Ideal) W c 0 t : Vec Ideal S1x1024x1024 .bf16) i : EReal) = (r : EReal) := fun i => hq _
  have hK0 : ∀ i, ∃ r : ℝ, ((iblk1 (F := Ideal) W c 1 (prev1 t) : Vec Ideal S1x1024x1024 .bf16) i : EReal) = (r : EReal) := fun i => hk _
  have hV0 : ∀ i, ∃ r : ℝ, ((iblk1 (F := Ideal) W c 2 (prev1 t) : Vec Ideal S1x1024x1024 .bf16) i : EReal) = (r : EReal) := fun i => hv _
  have hK1 : ∀ i, ∃ r : ℝ, ((iblk1 (F := Ideal) W c 1 t : Vec Ideal S1x1024x1024 .bf16) i : EReal) = (r : EReal) := fun i => hk _
  have hV1 : ∀ i, ∃ r : ℝ, ((iblk1 (F := Ideal) W c 2 t : Vec Ideal S1x1024x1024 .bf16) i : EReal) = (r : EReal) := fun i => hv _
  rw [outQ_apply _ _ _ _ _ hQ hK0 hV0 hK1 hV1 p e]
  unfold Cert.Spec.attend
  rw [Cert.Softmax.sum_two_blocks, Cert.Softmax.sum_two_blocks]
  have hs0 : ∀ j : Fin 1024, blkScore (iblk1 (F := Ideal) W c 0 t) (iblk1 (F := Ideal) W c 1 (prev1 t)) p j
      = Cert.Spec.score (fun b r e => qArr W (ix3 b r e)) (fun b r e => kArr W (ix3 b r e)) b r (Fin.castAdd 1024 j) := by
    intro j
    unfold blkScore Cert.Spec.score
    refine congrArg (· * ((1 / 32 : ℝ) : EReal)) (congrArg ((0 : EReal) + ·) (Finset.sum_congr rfl fun d _ => ?_))
    exact congrArg₂ (· * ·)
      (qblk_apply W c t (ix3 0 p d) (ix3 b r d) (by show b.val = win1_0.index t (0 : Fin 3) * 1 + 0; omega)
        (by show r.val = win1_0.index t (1 : Fin 3) * 1024 + p.val; omega)
        (by show d.val = win1_0.index t (2 : Fin 3) * 1024 + d.val; omega))
      (kblk_apply W c (prev1 t) (ix3 0 j d) (ix3 b (Fin.castAdd 1024 j) d)
        (by show b.val = win1_1.index (prev1 t) (0 : Fin 3) * 1 + 0; omega)
        (by show j.val = win1_1.index (prev1 t) (1 : Fin 3) * 1024 + j.val; omega)
        (by show d.val = win1_1.index (prev1 t) (2 : Fin 3) * 1024 + d.val; omega))
  have hs1 : ∀ j : Fin 1024, blkScore (iblk1 (F := Ideal) W c 0 t) (iblk1 (F := Ideal) W c 1 t) p j
      = Cert.Spec.score (fun b r e => qArr W (ix3 b r e)) (fun b r e => kArr W (ix3 b r e)) b r (Fin.natAdd 1024 j) := by
    intro j
    unfold blkScore Cert.Spec.score
    refine congrArg (· * ((1 / 32 : ℝ) : EReal)) (congrArg ((0 : EReal) + ·) (Finset.sum_congr rfl fun d _ => ?_))
    exact congrArg₂ (· * ·)
      (qblk_apply W c t (ix3 0 p d) (ix3 b r d) (by show b.val = win1_0.index t (0 : Fin 3) * 1 + 0; omega)
        (by show r.val = win1_0.index t (1 : Fin 3) * 1024 + p.val; omega)
        (by show d.val = win1_0.index t (2 : Fin 3) * 1024 + d.val; omega))
      (kblk_apply W c t (ix3 0 j d) (ix3 b (Fin.natAdd 1024 j) d)
        (by show b.val = win1_1.index t (0 : Fin 3) * 1 + 0; omega)
        (by show 1024 + j.val = win1_1.index t (1 : Fin 3) * 1024 + j.val; omega)
        (by show d.val = win1_1.index t (2 : Fin 3) * 1024 + d.val; omega))
  have hv0 : ∀ j : Fin 1024, ((iblk1 (F := Ideal) W c 2 (prev1 t) : Vec Ideal S1x1024x1024 .bf16) (ix3 0 j e) : EReal)
      = vArr W (ix3 b (Fin.castAdd 1024 j) e) := fun j =>
    vblk_apply W c (prev1 t) (ix3 0 j e) (ix3 b (Fin.castAdd 1024 j) e)
      (by show b.val = win1_2.index (prev1 t) (0 : Fin 3) * 1 + 0; omega)
      (by show j.val = win1_2.index (prev1 t) (1 : Fin 3) * 1024 + j.val; omega)
      (by show e.val = win1_2.index (prev1 t) (2 : Fin 3) * 1024 + e.val; omega)
  have hv1 : ∀ j : Fin 1024, ((iblk1 (F := Ideal) W c 2 t : Vec Ideal S1x1024x1024 .bf16) (ix3 0 j e) : EReal)
      = vArr W (ix3 b (Fin.natAdd 1024 j) e) := fun j =>
    vblk_apply W c t (ix3 0 j e) (ix3 b (Fin.natAdd 1024 j) e)
      (by show b.val = win1_2.index t (0 : Fin 3) * 1 + 0; omega)
      (by show 1024 + j.val = win1_2.index t (1 : Fin 3) * 1024 + j.val; omega)
      (by show e.val = win1_2.index t (2 : Fin 3) * 1024 + e.val; omega)
  refine congrArg₂ Ideal.div
    (congrArg₂ (· + ·) (Finset.sum_congr rfl fun j _ => ?_) (Finset.sum_congr rfl fun j _ => ?_))
    (congrArg₂ (· + ·) (Finset.sum_congr rfl fun j _ => ?_) (Finset.sum_congr rfl fun j _ => ?_))
  · exact congrArg₂ (fun s v => Ideal.exp s * v) (hs0 j) (hv0 j)
  · exact congrArg₂ (fun s v => Ideal.exp s * v) (hs1 j) (hv1 j)
  · exact congrArg Ideal.exp (hs0 j)
  · exact congrArg Ideal.exp (hs1 j)

/-- The final contents at an index with coordinates (b, r, e). -/
theorem attnArr_apply (W : Valuation τ sig (Elt Ideal)) (i : S4x2048x1024.Idx) (b : Fin 4) (r : Fin 2048) (e : Fin 1024)
    (h0 : (i 0).val = b.val) (h1 : (i 1).val = r.val) (h2 : (i 2).val = e.val) :
    attnArr W i
      = Cert.Spec.attend (fun b r e => qArr W (ix3 b r e)) (fun b r e => kArr W (ix3 b r e)) (fun b r e => vArr W (ix3 b r e)) b r e := by
  have hi : i = ix3 b r e := funext fun a => Fin.ext (by
    match a with
    | ⟨0, _⟩ => exact h0
    | ⟨1, _⟩ => exact h1
    | ⟨2, _⟩ => exact h2)
  rw [hi]
  rfl

/-- WHAT AN ODD POINT WRITES BACK is its block of the attention of the three arrays. -/
theorem flushed1_3_eq (W : Valuation τ sig (Elt Ideal)) (c : Dev nD)
    (hq : ∀ i, ∃ r : ℝ, qArr W i = (r : EReal)) (hk : ∀ i, ∃ r : ℝ, kArr W i = (r : EReal)) (hv : ∀ i, ∃ r : ℝ, vArr W i = (r : EReal))
    (t : Fin cfg1.N) (hf : (cfg1.win 3).flush t = true) :
    (dat1 (F := Ideal) W c).flushed 3 t = ((cfg1.win 3).blk t).view.read (Elt Ideal) (attnArr W) := by
  have hodd : t.val % 2 = 1 := (flush1_3 t).mp hf
  have ht : t.val < 16 := t.isLt
  obtain ⟨-, -, -, -, -, -, -, -, -, o0, o1, o2⟩ := idx_facts1 t
  show (cfg1.win 3).cut (grid1.coords t) ((dat1 (F := Ideal) W c).after 3 t) = _
  dsimp only [dat1]
  funext y
  rw [View.read_apply]
  have hy0 : (y 0).val < 1 := (y 0).isLt
  have hy1 : (y 1).val < 1024 := (y 1).isLt
  have hy2 : (y 2).val < 1024 := (y 2).isLt
  have hxy : (cfg1.win 3).xinj (grid1.coords t) y
      = ix3 (0 : Fin 1) (⟨(y 1).val, hy1⟩ : Fin 1024) (⟨(y 2).val, hy2⟩ : Fin 1024) :=
    funext fun a => Fin.ext (by
      match a with
      | ⟨0, _⟩ => show (y 0).val = 0; omega
      | ⟨1, _⟩ => rfl
      | ⟨2, _⟩ => rfl)
  refine Eq.trans (congrArg (outQ (F := Ideal) (iblk1 W c 0 t) (iblk1 W c 1 (prev1 t)) (iblk1 W c 2 (prev1 t)) (iblk1 W c 1 t)
    (iblk1 W c 2 t)) hxy) ?_
  refine (outQ_point W c hq hk hv t hodd (⟨(y 1).val, hy1⟩ : Fin 1024) (⟨(y 2).val, hy2⟩ : Fin 1024) (⟨t.val / 4, by omega⟩ : Fin 4)
    (⟨t.val / 2 % 2 * 1024 + (y 1).val, by omega⟩ : Fin 2048) rfl rfl).trans ?_
  show _ = attnArr W (((cfg1.win 3).blk t).view.emb y)
  exact (attnArr_apply W _ _ _ _
    (by show win1_3.index t (0 : Fin 3) * 1 + 1 * (y 0).val = t.val / 4; omega)
    (by show win1_3.index t (1 : Fin 3) * 1024 + 1 * (y 1).val = t.val / 2 % 2 * 1024 + (y 1).val; omega)
    (by show win1_3.index t (2 : Fin 3) * 1024 + 1 * (y 2).val = (y 2).val; omega)).symm

/-- An index of the result array is in point t's block iff each coordinate is in the block's range on its axis. -/
theorem mem_blk1_3 (t : Fin cfg1.N) (i : S4x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v9).slice (win1_3.rect t)).set ↔ _
  rw [View.set_slice_whole, Rect.mem_set_unit]
  exact Iff.rfl

/-- Every index (b, r, e) of the result array is in the block of the odd point 4b + 2(r / 1024) + 1. -/
theorem cover1_3 (i : S4x2048x1024.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 1024 := (i 2).isLt
  have hN : cfg1.N = 16 := rfl
  obtain ⟨t, htv⟩ : ∃ t : Fin cfg1.N, t.val = 4 * (i 0).val + 2 * ((i 1).val / 1024) + 1 :=
    ⟨⟨4 * (i 0).val + 2 * ((i 1).val / 1024) + 1, by omega⟩, rfl⟩
  obtain ⟨-, -, -, -, -, -, -, -, -, o0, o1, o2⟩ := idx_facts1 t
  refine ⟨t, (flush1_3 t).mpr (by omega), ?_⟩
  rw [mem_blk1_3]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 1024 ≤ (i 1).val ∧ (i 1).val < win1_3.index t (1 : Fin 3) * 1024 + 1024
    omega
  | ⟨2, _⟩ =>
    show win1_3.index t (2 : Fin 3) * 1024 ≤ (i 2).val ∧ (i 2).val < win1_3.index t (2 : Fin 3) * 1024 + 1024
    omega

/-- The attention region's result array, entered with real queries, keys and values in its three input arrays, is the
    specification's attention of them. -/
theorem arr1_3 (W : Valuation τ sig (Elt Ideal)) (c : Dev nD)
    (hq : ∀ i, ∃ r : ℝ, qArr W i = (r : EReal)) (hk : ∀ i, ∃ r : ℝ, kArr W i = (r : EReal)) (hv : ∀ i, ∃ r : ℝ, vArr W i = (r : EReal))
    (b : Fin 4) (r : Fin 2048) (e : Fin 1024) :
    ((dat1 (F := Ideal) W c).arrAt 3 cfg1.N : S4x2048x1024.Idx → EReal) (ix3 b r e)
      = Cert.Spec.attend (fun b r e => qArr W (ix3 b r e)) (fun b r e => kArr W (ix3 b r e)) (fun b r e => vArr W (ix3 b r e)) b r e := by
  have h := (dat1 (F := Ideal) W c).arrAt_eq_of_cover 3 (attnArr W)
    (fun t hf => flushed1_3_eq W c hq hk hv t hf) cover1_3
  exact congrFun h (ix3 b r e)

end Cert.KernelIdeal.Hand

end
-- ==== Proof.KI.HostGlue.lean ====
/-
  The host lines of the kernel's program read at an index, at the ideal instance (where a change of float format is
  the identity): before the first region the activations reshaped to rows, the three weights concatenated by columns
  and the three biases concatenated into one row; between the regions the three projections reshaped back to batches.
-/
import proofs.«426186_j66417374266003_3_alg».proof.Proof.Gen.KernelIdeal.Regions
import Idealize.ShloMosaic.Lib.ValueIdx
import Idealize.ShloMosaic.Lib.Pipeline.Value
import Idealize.ShloMosaic.Lib.StableHlo.Run
import proofs.«426186_j66417374266003_3_alg».proof.Proof.KI.Arrays

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (outs : Outs (F := Ideal))

open Idealize.ShloMosaic.StableHlo in
/-- After the operations' result equations have been used: read the operands of a several-operand operation at their
    literal references and step back over the operations that do not write them. -/
macro "operands_back" : tactic =>
  `(tactic| (dsimp only [Matrix.cons_val]
             repeat (first
               | (rw [unary_result_ne]; rotate_left; decide)
               | (rw [nary_result_ne]; rotate_left; decide)
               | (rw [reshape_result_ne]; rotate_left; decide))))

/-! ## The arrays before the first region, as whole-array equations -/

/-- The reshaped activations are the launch activations under the row-major re-indexing. -/
theorem v0_eq (c : Dev nD) :
    (V1 m c main_v0 : S8192x1024.Idx → EReal)
      = shapeCast S8192x1024 (argX m c) Cert.KernelIdeal.Gen.shapeCasts_S4x2048x1024_S8192x1024 := by
  dsimp only [V1, V0, hostOps0]
  after_results
  rfl

/-- The concatenated weight, after its change of format (the identity here), is the three weights side by side along
    the columns: queries', keys', values'. -/
theorem v2_eq (c : Dev nD) :
    (V1 m c main_v2 : S1024x3072.Idx → EReal)
      = concatenate S1024x3072 1 [⟨S1024x1024, argWq m c⟩, ⟨S1024x1024, argWk m c⟩, ⟨S1024x1024, argWv m c⟩]
          Cert.KernelIdeal.Gen.concatenates_S1024x1024_S1024x1024_S1024x1024_S1024x3072_d1 := by
  dsimp only [V1, V0, hostOps0]
  after_results
  operands_back
  rfl

/-- The concatenated bias is the three biases end to end, seen as one row. -/
theorem v4_eq (c : Dev nD) :
    (V1 m c main_v4 : S1x3072.Idx → EReal)
      = shapeCast S1x3072 (concatenate S3072 0 [⟨S1024, argBq m c⟩, ⟨S1024, argBk m c⟩, ⟨S1024, argBv m c⟩]
          Cert.KernelIdeal.Gen.concatenates_S1024_S1024_S1024_S3072_d0) Cert.KernelIdeal.Gen.shapeCasts_S3072_S1x3072 := by
  dsimp only [V1, V0, hostOps0]
  after_results
  operands_back
  rfl

/-! ## Read at an index -/

/-- Row `2048 b + r` of the reshaped activations is row `r` of batch `b`. -/
theorem v0_apply (c : Dev nD) (b : Fin 4) (r : Fin 2048) (d : Fin 1024) :
    xRows (V1 m c) (ix2 (⟨2048 * b.val + r.val, by omega⟩ : Fin 8192) d) = argX m c (ix3 b r d) := by
  show (V1 m c main_v0 : S8192x1024.Idx → EReal) _ = _
  rw [v0_eq m c]
  refine shapeCast_apply _ _ _ _ ?_
  rw [Shape.rowMajor_val_two, Shape.rowMajor_val_three]
  show (b.val * 2048 + r.val) * 1024 + d.val = (2048 * b.val + r.val) * 1024 + d.val
  omega

/-- The concatenated weight's three column ranges: queries', keys', values'. -/
theorem v2_apply_q (c : Dev nD) (d e : Fin 1024) :
    wCat (V1 m c) (ix2 d (⟨e.val, by omega⟩ : Fin 3072)) = argWq m c (ix2 d e) := by
  show (V1 m c main_v2 : S1024x3072.Idx → EReal) _ = _
  rw [v2_eq m c]
  exact concatenate_apply_piece (α := EReal) (t := S1024x3072) (1 : Fin 2)
    [⟨S1024x1024, argWq m c⟩, ⟨S1024x1024, argWk m c⟩, ⟨S1024x1024, argWv m c⟩] _ _ 0 (by show 0 < 3; omega)
    S1024x1024 (argWq m c) rfl rfl 0 rfl (ix2 d e)
    (by
      intro b hb
      match b, hb with
      | ⟨0, _⟩, _ => rfl
      | ⟨1, _⟩, hb => exact absurd rfl hb) (Nat.zero_add _)
theorem v2_apply_k (c : Dev nD) (d e : Fin 1024) :
    wCat (V1 m c) (ix2 d (⟨1024 + e.val, by omega⟩ : Fin 3072)) = argWk m c (ix2 d e) := by
  show (V1 m c main_v2 : S1024x3072.Idx → EReal) _ = _
  rw [v2_eq m c]
  exact concatenate_apply_piece (α := EReal) (t := S1024x3072) (1 : Fin 2)
    [⟨S1024x1024, argWq m c⟩, ⟨S1024x1024, argWk m c⟩, ⟨S1024x1024, argWv m c⟩] _ _ 1 (by show 1 < 3; omega)
    S1024x1024 (argWk m c) rfl rfl 1024 rfl (ix2 d e)
    (by
      intro b hb
      match b, hb with
      | ⟨0, _⟩, _ => rfl
      | ⟨1, _⟩, hb => exact absurd rfl hb) rfl
theorem v2_apply_v (c : Dev nD) (d e : Fin 1024) :
    wCat (V1 m c) (ix2 d (⟨2048 + e.val, by omega⟩ : Fin 3072)) = argWv m c (ix2 d e) := by
  show (V1 m c main_v2 : S1024x3072.Idx → EReal) _ = _
  rw [v2_eq m c]
  exact concatenate_apply_piece (α := EReal) (t := S1024x3072) (1 : Fin 2)
    [⟨S1024x1024, argWq m c⟩, ⟨S1024x1024, argWk m c⟩, ⟨S1024x1024, argWv m c⟩] _ _ 2 (by show 2 < 3; omega)
    S1024x1024 (argWv m c) rfl rfl 2048 rfl (ix2 d e)
    (by
      intro b hb
      match b, hb with
      | ⟨0, _⟩, _ => rfl
      | ⟨1, _⟩, hb => exact absurd rfl hb) rfl

/-- The concatenated bias's three ranges. -/
theorem v4_apply_q (c : Dev nD) (e : Fin 1024) :
    bCat (V1 m c) (ix2 (0 : Fin 1) (⟨e.val, by omega⟩ : Fin 3072)) = argBq m c (ix1 e) := by
  show (V1 m c main_v4 : S1x3072.Idx → EReal) _ = _
  rw [v4_eq m c]
  rw [shapeCast_apply _ _ _ (ix1 (⟨e.val, by omega⟩ : Fin 3072))
    (by rw [Shape.rowMajor_val_one, Shape.rowMajor_val_two]
        show e.val = 0 * 3072 + (e.val)
        omega)]
  exact concatenate_apply_piece (α := EReal) (t := S3072) (0 : Fin 1)
    [⟨S1024, argBq m c⟩, ⟨S1024, argBk m c⟩, ⟨S1024, argBv m c⟩] _ _ 0 (by show 0 < 3; omega)
    S1024 (argBq m c) rfl rfl 0 rfl (ix1 e)
    (by
      intro b hb
      match b, hb with
      | ⟨0, _⟩, hb => exact absurd rfl hb) (Nat.zero_add _)
theorem v4_apply_k (c : Dev nD) (e : Fin 1024) :
    bCat (V1 m c) (ix2 (0 : Fin 1) (⟨1024 + e.val, by omega⟩ : Fin 3072)) = argBk m c (ix1 e) := by
  show (V1 m c main_v4 : S1x3072.Idx → EReal) _ = _
  rw [v4_eq m c]
  rw [shapeCast_apply _ _ _ (ix1 (⟨1024 + e.val, by omega⟩ : Fin 3072))
    (by rw [Shape.rowMajor_val_one, Shape.rowMajor_val_two]
        show 1024 + e.val = 0 * 3072 + (1024 + e.val)
        omega)]
  exact concatenate_apply_piece (α := EReal) (t := S3072) (0 : Fin 1)
    [⟨S1024, argBq m c⟩, ⟨S1024, argBk m c⟩, ⟨S1024, argBv m c⟩] _ _ 1 (by show 1 < 3; omega)
    S1024 (argBk m c) rfl rfl 1024 rfl (ix1 e)
    (by
      intro b hb
      match b, hb with
      | ⟨0, _⟩, hb => exact absurd rfl hb) rfl
theorem v4_apply_v (c : Dev nD) (e : Fin 1024) :
    bCat (V1 m c) (ix2 (0 : Fin 1) (⟨2048 + e.val, by omega⟩ : Fin 3072)) = argBv m c (ix1 e) := by
  show (V1 m c main_v4 : S1x3072.Idx → EReal) _ = _
  rw [v4_eq m c]
  rw [shapeCast_apply _ _ _ (ix1 (⟨2048 + e.val, by omega⟩ : Fin 3072))
    (by rw [Shape.rowMajor_val_one, Shape.rowMajor_val_two]
        show 2048 + e.val = 0 * 3072 + (2048 + e.val)
        omega)]
  exact concatenate_apply_piece (α := EReal) (t := S3072) (0 : Fin 1)
    [⟨S1024, argBq m c⟩, ⟨S1024, argBk m c⟩, ⟨S1024, argBv m c⟩] _ _ 2 (by show 2 < 3; omega)
    S1024 (argBv m c) rfl rfl 2048 rfl (ix1 e)
    (by
      intro b hb
      match b, hb with
      | ⟨0, _⟩, hb => exact absurd rfl hb) rfl

/-! ## Between the regions -/

/-- Each projection in batches is the first region's result under the row-major re-indexing. -/
theorem v6_eq (c : Dev nD) :
    (V3 m outs c main_v6 : S4x2048x1024.Idx → EReal)
      = shapeCast S4x2048x1024 (qRows (V2 m outs c)) Cert.KernelIdeal.Gen.shapeCasts_S8192x1024_S4x2048x1024 := by
  dsimp only [V3, hostOps1]
  after_results
  rfl
theorem v7_eq (c : Dev nD) :
    (V3 m outs c main_v7 : S4x2048x1024.Idx → EReal)
      = shapeCast S4x2048x1024 (kRows (V2 m outs c)) Cert.KernelIdeal.Gen.shapeCasts_S8192x1024_S4x2048x1024 := by
  dsimp only [V3, hostOps1]
  after_results
  rfl
theorem v8_eq (c : Dev nD) :
    (V3 m outs c main_v8 : S4x2048x1024.Idx → EReal)
      = shapeCast S4x2048x1024 (vRows (V2 m outs c)) Cert.KernelIdeal.Gen.shapeCasts_S8192x1024_S4x2048x1024 := by
  dsimp only [V3, hostOps1]
  after_results
  rfl

/-- Between the regions: batch `b`, row `r` of each projection is row `2048 b + r` of the first region's result. -/
theorem v6_apply (c : Dev nD) (b : Fin 4) (r : Fin 2048) (e : Fin 1024) :
    qArr (V3 m outs c) (ix3 b r e) = qRows (V2 m outs c) (ix2 (⟨2048 * b.val + r.val, by omega⟩ : Fin 8192) e) := by
  show (V3 m outs c main_v6 : S4x2048x1024.Idx → EReal) _ = _
  rw [v6_eq m outs c]
  refine shapeCast_apply _ _ _ _ ?_
  rw [Shape.rowMajor_val_two, Shape.rowMajor_val_three]
  show (2048 * b.val + r.val) * 1024 + e.val = (b.val * 2048 + r.val) * 1024 + e.val
  omega
theorem v7_apply (c : Dev nD) (b : Fin 4) (r : Fin 2048) (e : Fin 1024) :
    kArr (V3 m outs c) (ix3 b r e) = kRows (V2 m outs c) (ix2 (⟨2048 * b.val + r.val, by omega⟩ : Fin 8192) e) := by
  show (V3 m outs c main_v7 : S4x2048x1024.Idx → EReal) _ = _
  rw [v7_eq m outs c]
  refine shapeCast_apply _ _ _ _ ?_
  rw [Shape.rowMajor_val_two, Shape.rowMajor_val_three]
  show (2048 * b.val + r.val) * 1024 + e.val = (b.val * 2048 + r.val) * 1024 + e.val
  omega
theorem v8_apply (c : Dev nD) (b : Fin 4) (r : Fin 2048) (e : Fin 1024) :
    vArr (V3 m outs c) (ix3 b r e) = vRows (V2 m outs c) (ix2 (⟨2048 * b.val + r.val, by omega⟩ : Fin 8192) e) := by
  show (V3 m outs c main_v8 : S4x2048x1024.Idx → EReal) _ = _
  rw [v8_eq m outs c]
  refine shapeCast_apply _ _ _ _ ?_
  rw [Shape.rowMajor_val_two, Shape.rowMajor_val_three]
  show (2048 * b.val + r.val) * 1024 + e.val = (b.val * 2048 + r.val) * 1024 + e.val
  omega

end Cert.KernelIdeal.Hand

end
-- ==== Proof.Finite.lean ====
/-
  From the certificate's precondition to "every entry of every argument array is a real number".

  The precondition says that, on every device, the printed predicate `finite_inputs` of the seven argument arrays is
  the all-ones word. That predicate is a conjunction of seven tests, one per array, each of the form
  "all entries x satisfy |x| < +∞". Over the extended reals |x| = max x (-x), and max x (-x) < ⊤ excludes both
  x = ⊤ and x = ⊥ (for x = ⊥ the negation is ⊤), so x is the image of a real number. Hence each argument array is
  the coercion of a real array, namely of its entrywise `EReal.toReal`.
-/
import proofs.«426186_j66417374266003_3_alg».proof.Defs
import Idealize.ShloMosaic.Lib.ReduceAll
import Idealize.ShloMosaic.Lib.ValueIdx
import Mathlib.Data.EReal.Basic

noncomputable section

namespace Cert.Finite

open Idealize.ShloMosaic Idealize.SL.Sem

/-- The f32 pattern of +∞ denotes `⊤`. -/
theorem ofBits_inf : Ideal.ofBits .f32 0x7F800000#32 = (⊤ : EReal) := by
  simp [Ideal.ofBits, Ideal.ieee]

/-- An extended real whose absolute value `max x (-x)` compares strictly below the pattern of +∞ is a real number:
    `⊤` fails the test itself, `⊥` fails it through its negation `⊤`. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The result shape of a full reduction has a single index. -/
instance subsingleton_S_Idx : Subsingleton Cert.Pre_finite_inputs.S_.Idx := ⟨fun a b => funext fun d => d.elim0⟩

/-- One `jnp.all(|x| < +∞)`: if the reduction by `and` of the entrywise test over the whole array is 1, every entry
    of the array is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] hb (constant Cert.Pre_finite_inputs.S_ .f32 0x7F800000#32)))
          init hr hu j = 1#1)
    (i : s.Idx) : ∃ r : ℝ, x i = (r : EReal) :=
  real_of_abs_lt_inf (x i) (Host.reduce_andi_all _ init hr hu j e i)

/-- The entrywise `and` of two `i1` arrays is 1 at an index exactly when both are. -/
theorem andi_apply_eq_one {s : Shape} (a b : IVec s 1) (j : s.Idx) :
    andi a b j = 1#1 ↔ a j = 1#1 ∧ b j = 1#1 := IntOp.andi_eq_one

section
variable [hPre_finite_inputs : Cert.Pre_finite_inputs.Facts]
  (m : (ℓ : Loc Cert.KernelIdeal.nD Cert.KernelIdeal.τ Cert.KernelIdeal.sig) → Buf (Elt Ideal) ℓ)

/-- Under the precondition, on every device, every entry of each of the seven argument arrays is a real number. -/
theorem args_real (h : Cert.Pre_KernelIdeal m) (c : Dev Cert.KernelIdeal.nD) :
    (∀ i : Cert.Pre_finite_inputs.S4x2048x1024.Idx, ∃ r : ℝ, (m ((c.tc : Thread Cert.KernelIdeal.nD Cert.KernelIdeal.τ).loc Cert.KernelIdeal.main_arg0)) i = (r : EReal))
    ∧ (∀ i : Cert.Pre_finite_inputs.S1024x1024.Idx, ∃ r : ℝ, (m ((c.tc : Thread Cert.KernelIdeal.nD Cert.KernelIdeal.τ).loc Cert.KernelIdeal.main_arg1)) i = (r : EReal))
    ∧ (∀ i : Cert.Pre_finite_inputs.S1024.Idx, ∃ r : ℝ, (m ((c.tc : Thread Cert.KernelIdeal.nD Cert.KernelIdeal.τ).loc Cert.KernelIdeal.main_arg2)) i = (r : EReal))
    ∧ (∀ i : Cert.Pre_finite_inputs.S1024x1024.Idx, ∃ r : ℝ, (m ((c.tc : Thread Cert.KernelIdeal.nD Cert.KernelIdeal.τ).loc Cert.KernelIdeal.main_arg3)) i = (r : EReal))
    ∧ (∀ i : Cert.Pre_finite_inputs.S1024.Idx, ∃ r : ℝ, (m ((c.tc : Thread Cert.KernelIdeal.nD Cert.KernelIdeal.τ).loc Cert.KernelIdeal.main_arg4)) i = (r : EReal))
    ∧ (∀ i : Cert.Pre_finite_inputs.S1024x1024.Idx, ∃ r : ℝ, (m ((c.tc : Thread Cert.KernelIdeal.nD Cert.KernelIdeal.τ).loc Cert.KernelIdeal.main_arg5)) i = (r : EReal))
    ∧ (∀ i : Cert.Pre_finite_inputs.S1024.Idx, ∃ r : ℝ, (m ((c.tc : Thread Cert.KernelIdeal.nD Cert.KernelIdeal.τ).loc Cert.KernelIdeal.main_arg6)) i = (r : EReal)) := by
  have e := congrFun (h c) ValueIdx.ix0
  dsimp only [Cert.Pre_finite_inputs.fn, Cert.Pre_finite_inputs.fn_part1] at e
  obtain ⟨e, e6⟩ := (andi_apply_eq_one _ _ _).1 e
  obtain ⟨e, e5⟩ := (andi_apply_eq_one _ _ _).1 e
  obtain ⟨e, e4⟩ := (andi_apply_eq_one _ _ _).1 e
  obtain ⟨e, e3⟩ := (andi_apply_eq_one _ _ _).1 e
  obtain ⟨e, e2⟩ := (andi_apply_eq_one _ _ _).1 e
  obtain ⟨e0, e1⟩ := (andi_apply_eq_one _ _ _).1 e
  exact ⟨all_real _ _ _ _ _ _ e0, all_real _ _ _ _ _ _ e1, all_real _ _ _ _ _ _ e2, all_real _ _ _ _ _ _ e3,
    all_real _ _ _ _ _ _ e4, all_real _ _ _ _ _ _ e5, all_real _ _ _ _ _ _ e6⟩

end

/-- A family of extended reals each of which is a real number is the coercion of its entrywise real part. -/
theorem eq_coe_toReal {ι : Type} (f : ι → EReal) (hf : ∀ i, ∃ r : ℝ, f i = (r : EReal)) :
    f = fun i => ((EReal.toReal (f i) : ℝ) : EReal) := by
  funext i
  obtain ⟨r, hr⟩ := hf i
  rw [hr, EReal.toReal_coe]

section
variable [hPre_finite_inputs : Cert.Pre_finite_inputs.Facts]
  (m : (ℓ : Loc Cert.KernelIdeal.nD Cert.KernelIdeal.τ Cert.KernelIdeal.sig) → Buf (Elt Ideal) ℓ)

/-- Argument 0, one conjunct of `args_real`: every entry is a real number. -/
theorem args_real_0 (h : Cert.Pre_KernelIdeal m) (c : Dev Cert.KernelIdeal.nD) (i : Cert.Pre_finite_inputs.S4x2048x1024.Idx) :
    ∃ r : ℝ, (m ((c.tc : Thread Cert.KernelIdeal.nD Cert.KernelIdeal.τ).loc Cert.KernelIdeal.main_arg0)) i = (r : EReal) :=
  (args_real m h c).1 i

/-- Argument 1, one conjunct of `args_real`: every entry is a real number. -/
theorem args_real_1 (h : Cert.Pre_KernelIdeal m) (c : Dev Cert.KernelIdeal.nD) (i : Cert.Pre_finite_inputs.S1024x1024.Idx) :
    ∃ r : ℝ, (m ((c.tc : Thread Cert.KernelIdeal.nD Cert.KernelIdeal.τ).loc Cert.KernelIdeal.main_arg1)) i = (r : EReal) :=
  (args_real m h c).2.1 i

/-- Argument 2, one conjunct of `args_real`: every entry is a real number. -/
theorem args_real_2 (h : Cert.Pre_KernelIdeal m) (c : Dev Cert.KernelIdeal.nD) (i : Cert.Pre_finite_inputs.S1024.Idx) :
    ∃ r : ℝ, (m ((c.tc : Thread Cert.KernelIdeal.nD Cert.KernelIdeal.τ).loc Cert.KernelIdeal.main_arg2)) i = (r : EReal) :=
  (args_real m h c).2.2.1 i

/-- Argument 3, one conjunct of `args_real`: every entry is a real number. -/
theorem args_real_3 (h : Cert.Pre_KernelIdeal m) (c : Dev Cert.KernelIdeal.nD) (i : Cert.Pre_finite_inputs.S1024x1024.Idx) :
    ∃ r : ℝ, (m ((c.tc : Thread Cert.KernelIdeal.nD Cert.KernelIdeal.τ).loc Cert.KernelIdeal.main_arg3)) i = (r : EReal) :=
  (args_real m h c).2.2.2.1 i

/-- Argument 4, one conjunct of `args_real`: every entry is a real number. -/
theorem args_real_4 (h : Cert.Pre_KernelIdeal m) (c : Dev Cert.KernelIdeal.nD) (i : Cert.Pre_finite_inputs.S1024.Idx) :
    ∃ r : ℝ, (m ((c.tc : Thread Cert.KernelIdeal.nD Cert.KernelIdeal.τ).loc Cert.KernelIdeal.main_arg4)) i = (r : EReal) :=
  (args_real m h c).2.2.2.2.1 i

/-- Argument 5, one conjunct of `args_real`: every entry is a real number. -/
theorem args_real_5 (h : Cert.Pre_KernelIdeal m) (c : Dev Cert.KernelIdeal.nD) (i : Cert.Pre_finite_inputs.S1024x1024.Idx) :
    ∃ r : ℝ, (m ((c.tc : Thread Cert.KernelIdeal.nD Cert.KernelIdeal.τ).loc Cert.KernelIdeal.main_arg5)) i = (r : EReal) :=
  (args_real m h c).2.2.2.2.2.1 i

/-- Argument 6, one conjunct of `args_real`: every entry is a real number. -/
theorem args_real_6 (h : Cert.Pre_KernelIdeal m) (c : Dev Cert.KernelIdeal.nD) (i : Cert.Pre_finite_inputs.S1024.Idx) :
    ∃ r : ℝ, (m ((c.tc : Thread Cert.KernelIdeal.nD Cert.KernelIdeal.τ).loc Cert.KernelIdeal.main_arg6)) i = (r : EReal) :=
  (args_real m h c).2.2.2.2.2.2 i

end

section
variable (m : (ℓ : Loc Cert.KernelIdeal.nD Cert.KernelIdeal.τ Cert.KernelIdeal.sig) → Buf (Elt Ideal) ℓ)

/-- The real array behind argument 0 on device `c`: its entrywise real part. -/
def argR0 (c : Dev Cert.KernelIdeal.nD) : Cert.Pre_finite_inputs.S4x2048x1024.Idx → ℝ :=
  fun i => EReal.toReal ((m ((c.tc : Thread Cert.KernelIdeal.nD Cert.KernelIdeal.τ).loc Cert.KernelIdeal.main_arg0)) i)

/-- The real array behind argument 1 on device `c`: its entrywise real part. -/
def argR1 (c : Dev Cert.KernelIdeal.nD) : Cert.Pre_finite_inputs.S1024x1024.Idx → ℝ :=
  fun i => EReal.toReal ((m ((c.tc : Thread Cert.KernelIdeal.nD Cert.KernelIdeal.τ).loc Cert.KernelIdeal.main_arg1)) i)

/-- The real array behind argument 2 on device `c`: its entrywise real part. -/
def argR2 (c : Dev Cert.KernelIdeal.nD) : Cert.Pre_finite_inputs.S1024.Idx → ℝ :=
  fun i => EReal.toReal ((m ((c.tc : Thread Cert.KernelIdeal.nD Cert.KernelIdeal.τ).loc Cert.KernelIdeal.main_arg2)) i)

/-- The real array behind argument 3 on device `c`: its entrywise real part. -/
def argR3 (c : Dev Cert.KernelIdeal.nD) : Cert.Pre_finite_inputs.S1024x1024.Idx → ℝ :=
  fun i => EReal.toReal ((m ((c.tc : Thread Cert.KernelIdeal.nD Cert.KernelIdeal.τ).loc Cert.KernelIdeal.main_arg3)) i)

/-- The real array behind argument 4 on device `c`: its entrywise real part. -/
def argR4 (c : Dev Cert.KernelIdeal.nD) : Cert.Pre_finite_inputs.S1024.Idx → ℝ :=
  fun i => EReal.toReal ((m ((c.tc : Thread Cert.KernelIdeal.nD Cert.KernelIdeal.τ).loc Cert.KernelIdeal.main_arg4)) i)

/-- The real array behind argument 5 on device `c`: its entrywise real part. -/
def argR5 (c : Dev Cert.KernelIdeal.nD) : Cert.Pre_finite_inputs.S1024x1024.Idx → ℝ :=
  fun i => EReal.toReal ((m ((c.tc : Thread Cert.KernelIdeal.nD Cert.KernelIdeal.τ).loc Cert.KernelIdeal.main_arg5)) i)

/-- The real array behind argument 6 on device `c`: its entrywise real part. -/
def argR6 (c : Dev Cert.KernelIdeal.nD) : Cert.Pre_finite_inputs.S1024.Idx → ℝ :=
  fun i => EReal.toReal ((m ((c.tc : Thread Cert.KernelIdeal.nD Cert.KernelIdeal.τ).loc Cert.KernelIdeal.main_arg6)) i)

end

section
variable [hPre_finite_inputs : Cert.Pre_finite_inputs.Facts]
  (m : (ℓ : Loc Cert.KernelIdeal.nD Cert.KernelIdeal.τ Cert.KernelIdeal.sig) → Buf (Elt Ideal) ℓ)

/-- Under the precondition, argument 0 is the coercion of its real array. -/
theorem arg_eq_0 (h : Cert.Pre_KernelIdeal m) (c : Dev Cert.KernelIdeal.nD) :
    (m ((c.tc : Thread Cert.KernelIdeal.nD Cert.KernelIdeal.τ).loc Cert.KernelIdeal.main_arg0)) = fun i => ((argR0 m c i : ℝ) : EReal) :=
  eq_coe_toReal _ (args_real_0 m h c)

/-- Under the precondition, argument 1 is the coercion of its real array. -/
theorem arg_eq_1 (h : Cert.Pre_KernelIdeal m) (c : Dev Cert.KernelIdeal.nD) :
    (m ((c.tc : Thread Cert.KernelIdeal.nD Cert.KernelIdeal.τ).loc Cert.KernelIdeal.main_arg1)) = fun i => ((argR1 m c i : ℝ) : EReal) :=
  eq_coe_toReal _ (args_real_1 m h c)

/-- Under the precondition, argument 2 is the coercion of its real array. -/
theorem arg_eq_2 (h : Cert.Pre_KernelIdeal m) (c : Dev Cert.KernelIdeal.nD) :
    (m ((c.tc : Thread Cert.KernelIdeal.nD Cert.KernelIdeal.τ).loc Cert.KernelIdeal.main_arg2)) = fun i => ((argR2 m c i : ℝ) : EReal) :=
  eq_coe_toReal _ (args_real_2 m h c)

/-- Under the precondition, argument 3 is the coercion of its real array. -/
theorem arg_eq_3 (h : Cert.Pre_KernelIdeal m) (c : Dev Cert.KernelIdeal.nD) :
    (m ((c.tc : Thread Cert.KernelIdeal.nD Cert.KernelIdeal.τ).loc Cert.KernelIdeal.main_arg3)) = fun i => ((argR3 m c i : ℝ) : EReal) :=
  eq_coe_toReal _ (args_real_3 m h c)

/-- Under the precondition, argument 4 is the coercion of its real array. -/
theorem arg_eq_4 (h : Cert.Pre_KernelIdeal m) (c : Dev Cert.KernelIdeal.nD) :
    (m ((c.tc : Thread Cert.KernelIdeal.nD Cert.KernelIdeal.τ).loc Cert.KernelIdeal.main_arg4)) = fun i => ((argR4 m c i : ℝ) : EReal) :=
  eq_coe_toReal _ (args_real_4 m h c)

/-- Under the precondition, argument 5 is the coercion of its real array. -/
theorem arg_eq_5 (h : Cert.Pre_KernelIdeal m) (c : Dev Cert.KernelIdeal.nD) :
    (m ((c.tc : Thread Cert.KernelIdeal.nD Cert.KernelIdeal.τ).loc Cert.KernelIdeal.main_arg5)) = fun i => ((argR5 m c i : ℝ) : EReal) :=
  eq_coe_toReal _ (args_real_5 m h c)

/-- Under the precondition, argument 6 is the coercion of its real array. -/
theorem arg_eq_6 (h : Cert.Pre_KernelIdeal m) (c : Dev Cert.KernelIdeal.nD) :
    (m ((c.tc : Thread Cert.KernelIdeal.nD Cert.KernelIdeal.τ).loc Cert.KernelIdeal.main_arg6)) = fun i => ((argR6 m c i : ℝ) : EReal) :=
  eq_coe_toReal _ (args_real_6 m h c)

end

end Cert.Finite

end
-- ==== Proof.KI.Bridge.lean ====
/-
  The kernel program's result as the specification's function of the launch arrays, at the ideal instance. The three
  arrays the attention region reads are the three linear layers of the launch arrays: each is a reshape of one result
  array of the linear region, which holds the reshaped activations times the concatenated weight plus the concatenated
  bias on its range of columns, and those are the activations, one of the three weights and its bias. Under the
  precondition the launch arrays are real, so the projections are real, and the attention region's result on real
  queries, keys and values is the specification's attention of them.
-/
import proofs.«426186_j66417374266003_3_alg».proof.Proof.KI.Between
import proofs.«426186_j66417374266003_3_alg».proof.Proof.KI.Arrays
import proofs.«426186_j66417374266003_3_alg».proof.Proof.KI.Value0
import proofs.«426186_j66417374266003_3_alg».proof.Proof.KI.Value1
import proofs.«426186_j66417374266003_3_alg».proof.Proof.KI.HostGlue
import proofs.«426186_j66417374266003_3_alg».proof.Proof.Spec
import proofs.«426186_j66417374266003_3_alg».proof.Proof.Finite
import proofs.«426186_j66417374266003_3_alg».proof.Proof.Softmax
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The three projections, as the attention region finds them -/

/-- The queries the attention region reads are the specification's query projection of the launch arrays: the reshape
    between the regions reads row `2048 b + r` of the linear region's first result array, which there is that row of the
    reshaped activations against column `e` of the concatenated weight plus the concatenated bias at `e`; and those are the
    activations' row `r` of batch `b`, the query weight's column `e` and the query bias at `e`. -/
theorem qArr_eq_proj (m : (ℓ : Loc nD τ sig) → Buf (Elt Ideal) ℓ) (c : Dev nD) (b : Fin 4) (r : Fin 2048) (e : Fin 1024) :
    qArr (W3 m c) (ix3 b r e) = Cert.Spec.proj (argX m c) (argWq m c) (argBq m c) b r e := by
  rw [← V3_eq, v6_apply m (outsH m) c b r e, V2_eq]
  show (Q2 m c main_v5_0 : S8192x1024.Idx → EReal) (ix2 _ e) = _
  rw [Q2_50, arr0_3]
  unfold lin Cert.Spec.proj
  rw [v4_apply_q]
  congr 1; congr 1
  exact Finset.sum_congr rfl fun d _ => by rw [v0_apply, v2_apply_q]

/-- The keys likewise: the second result array, columns `1024 + e`. -/
theorem kArr_eq_proj (m : (ℓ : Loc nD τ sig) → Buf (Elt Ideal) ℓ) (c : Dev nD) (b : Fin 4) (r : Fin 2048) (e : Fin 1024) :
    kArr (W3 m c) (ix3 b r e) = Cert.Spec.proj (argX m c) (argWk m c) (argBk m c) b r e := by
  rw [← V3_eq, v7_apply m (outsH m) c b r e, V2_eq]
  show (Q2 m c main_v5_1 : S8192x1024.Idx → EReal) (ix2 _ e) = _
  rw [Q2_51, arr0_4]
  unfold lin Cert.Spec.proj
  rw [v4_apply_k]
  congr 1; congr 1
  exact Finset.sum_congr rfl fun d _ => by rw [v0_apply, v2_apply_k]

/-- And the values: the third result array, columns `2048 + e`. -/
theorem vArr_eq_proj (m : (ℓ : Loc nD τ sig) → Buf (Elt Ideal) ℓ) (c : Dev nD) (b : Fin 4) (r : Fin 2048) (e : Fin 1024) :
    vArr (W3 m c) (ix3 b r e) = Cert.Spec.proj (argX m c) (argWv m c) (argBv m c) b r e := by
  rw [← V3_eq, v8_apply m (outsH m) c b r e, V2_eq]
  show (Q2 m c main_v5_2 : S8192x1024.Idx → EReal) (ix2 _ e) = _
  rw [Q2_52, arr0_5]
  unfold lin Cert.Spec.proj
  rw [v4_apply_v]
  congr 1; congr 1
  exact Finset.sum_congr rfl fun d _ => by rw [v0_apply, v2_apply_v]

/-! ## A projection of real arrays is real -/

/-- A linear layer of arrays whose entries are all real numbers is, at every output element, a real number: the real
    inner product plus the real bias, since coercion commutes with finite sums, products and sums. -/
theorem proj_real (x : Cert.Spec.SX.Idx → EReal) (W : Cert.Spec.SW.Idx → EReal) (b : Cert.Spec.SB.Idx → EReal)
    (hx : ∀ i, ∃ y : ℝ, x i = (y : EReal)) (hW : ∀ i, ∃ y : ℝ, W i = (y : EReal)) (hb : ∀ i, ∃ y : ℝ, b i = (y : EReal))
    (bi : Fin 4) (r : Fin 2048) (e : Fin 1024) : ∃ y : ℝ, Cert.Spec.proj x W b bi r e = (y : EReal) := by
  choose xr hxr using hx
  choose Wr hWr using hW
  choose br hbr using hb
  refine ⟨∑ d : Fin 1024, xr (ix3 bi r d) * Wr (ix2 d e) + br (ix1 e), ?_⟩
  unfold Cert.Spec.proj
  simp only [hxr, hWr, hbr]
  exact Cert.Softmax.dot_coe_add_coe (fun d => xr (ix3 bi r d)) (fun d => Wr (ix2 d e)) (br (ix1 e))

/-! ## The kernel's result -/

/-- Under the precondition the kernel program's result array, after the attention region, is the specification's
    attention of the seven launch arrays: the region's result is the attention of the three arrays it reads, those are
    real (projections of real arrays), and they are the three projections. -/
theorem kernel_out [hPre_finite_inputs : Cert.Pre_finite_inputs.Facts] (m : (ℓ : Loc nD τ sig) → Buf (Elt Ideal) ℓ) (h : Cert.Pre_KernelIdeal m) (c : Dev nD) :
    outArr (Q4 m c) = Cert.Spec.attn (argX m c) (argWk m c) (argBk m c) (argWq m c) (argBq m c) (argWv m c) (argBv m c) := by
  have hq : ∀ i, ∃ y : ℝ, qArr (W3 m c) i = (y : EReal) := fun i => by
    obtain ⟨b, r, e, rfl⟩ : ∃ (b : Fin 4) (r : Fin 2048) (e : Fin 1024), i = ix3 b r e := ⟨i 0, i 1, i 2, eq_ix3 i⟩
    rw [qArr_eq_proj]
    exact proj_real _ _ _ (Cert.Finite.args_real_0 m h c) (Cert.Finite.args_real_3 m h c) (Cert.Finite.args_real_4 m h c) _ _ _
  have hk : ∀ i, ∃ y : ℝ, kArr (W3 m c) i = (y : EReal) := fun i => by
    obtain ⟨b, r, e, rfl⟩ : ∃ (b : Fin 4) (r : Fin 2048) (e : Fin 1024), i = ix3 b r e := ⟨i 0, i 1, i 2, eq_ix3 i⟩
    rw [kArr_eq_proj]
    exact proj_real _ _ _ (Cert.Finite.args_real_0 m h c) (Cert.Finite.args_real_1 m h c) (Cert.Finite.args_real_2 m h c) _ _ _
  have hv : ∀ i, ∃ y : ℝ, vArr (W3 m c) i = (y : EReal) := fun i => by
    obtain ⟨b, r, e, rfl⟩ : ∃ (b : Fin 4) (r : Fin 2048) (e : Fin 1024), i = ix3 b r e := ⟨i 0, i 1, i 2, eq_ix3 i⟩
    rw [vArr_eq_proj]
    exact proj_real _ _ _ (Cert.Finite.args_real_0 m h c) (Cert.Finite.args_real_5 m h c) (Cert.Finite.args_real_6 m h c) _ _ _
  have eq : (fun b r e => qArr (W3 m c) (ix3 b r e)) = Cert.Spec.proj (argX m c) (argWq m c) (argBq m c) := by
    funext b r e; exact qArr_eq_proj m c b r e
  have ek : (fun b r e => kArr (W3 m c) (ix3 b r e)) = Cert.Spec.proj (argX m c) (argWk m c) (argBk m c) := by
    funext b r e; exact kArr_eq_proj m c b r e
  have ev : (fun b r e => vArr (W3 m c) (ix3 b r e)) = Cert.Spec.proj (argX m c) (argWv m c) (argBv m c) := by
    funext b r e; exact vArr_eq_proj m c b r e
  funext i
  obtain ⟨b, r, e, rfl⟩ : ∃ (b : Fin 4) (r : Fin 2048) (e : Fin 1024), i = ix3 b r e := ⟨i 0, i 1, i 2, eq_ix3 i⟩
  show (Q4 m c main_v9 : S4x2048x1024.Idx → EReal) (ix3 b r e) = _
  unfold Q4; rw [Function.update_self]
  rw [arr1_3 (W3 m c) c hq hk hv, eq, ek, ev]
  rfl

end Cert.KernelIdeal.Hand

end
-- ==== Proof.RefRead.lean ====
/-
  The reference program's run and its read-at-an-index lemmas, brought in for the modules that state what the
  reference computes.
-/
import proofs.«426186_j66417374266003_3_alg».proof.Proof.Gen.ReferenceIdeal.Run
import proofs.«426186_j66417374266003_3_alg».proof.Proof.Gen.ReferenceIdeal.Read
-- ==== Proof.RefValue.lean ====
/-
  What the reference program computes, element by element: its last stage, read at an index through the
  read-at-an-index lemmas of its stages, is the specification's attention. The three linear layers are the
  specification's linear layer as written (a sum of products plus a bias); the scores are the inner products divided
  by 1024 ^ 0.5, which is the product with 1/32; the softmax is spelled with the row maximum subtracted,
  e_j = exp(s_j - M), L = 0 + Σ_k e_k, weights e_j / L. For inputs that are real numbers every score and every value is
  a real number, the row maximum (a maximum from -∞ of 2048 reals) is a real number, and the shift by a real number
  cancels between numerator and denominator: Σ_j (e_j / L) · v_j = (Σ_j exp(s_j) · v_j) / (Σ_j exp(s_j)).
-/
import proofs.«426186_j66417374266003_3_alg».proof.Proof.RefRead
import proofs.«426186_j66417374266003_3_alg».proof.Proof.Spec
import proofs.«426186_j66417374266003_3_alg».proof.Proof.Softmax
import proofs.«426186_j66417374266003_3_alg».proof.Proof.Consts
import Idealize.ShloMosaic.PureOps.Reduce
import Idealize.ShloMosaic.PureOps.Ideal.Laws
import Idealize.ShloMosaic.Lib.ValueIdx
import Mathlib.Data.EReal.Basic
import Mathlib.Data.EReal.Operations

noncomputable section

open scoped BigOperators

namespace Cert.RefValue

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx

/-- The activations' array type, -/
abbrev AX : Type := (⟨S4x2048x1024, .f32⟩ : BufTy).Contents (Elt Ideal)
/-- a weight matrix's, -/
abbrev AW : Type := (⟨S1024x1024, .f32⟩ : BufTy).Contents (Elt Ideal)
/-- and a bias's. -/
abbrev AB : Type := (⟨S1024, .f32⟩ : BufTy).Contents (Elt Ideal)

/-! ## The stages' operand indices, by coordinates

Each stage reads its operands at an index computed from the result index; at a result index given by its
coordinates these are again indices given by coordinates. -/

theorem lidx0 (b : Fin 4) (r : Fin 2048) (e k : Fin 1024) : lidx_main_v0 (ix3 b r e) k = ix3 b r k :=
  funext fun a => Fin.ext (by match a with | ⟨0, _⟩ => rfl | ⟨1, _⟩ => rfl | ⟨2, _⟩ => rfl)
theorem ridx0 (b : Fin 4) (r : Fin 2048) (e k : Fin 1024) : ridx_main_v0 (ix3 b r e) k = ix2 k e :=
  funext fun a => Fin.ext (by match a with | ⟨0, _⟩ => rfl | ⟨1, _⟩ => rfl)
theorem bidx0 (b : Fin 4) (r : Fin 2048) (e : Fin 1024) : idx_main_v1 (idx_main_v2 (ix3 b r e)) = ix1 e :=
  funext fun a => Fin.ext (by match a with | ⟨0, _⟩ => rfl)
theorem lidx4 (b : Fin 4) (r : Fin 2048) (e k : Fin 1024) : lidx_main_v4 (ix3 b r e) k = ix3 b r k :=
  funext fun a => Fin.ext (by match a with | ⟨0, _⟩ => rfl | ⟨1, _⟩ => rfl | ⟨2, _⟩ => rfl)
theorem ridx4 (b : Fin 4) (r : Fin 2048) (e k : Fin 1024) : ridx_main_v4 (ix3 b r e) k = ix2 k e :=
  funext fun a => Fin.ext (by match a with | ⟨0, _⟩ => rfl | ⟨1, _⟩ => rfl)
theorem bidx4 (b : Fin 4) (r : Fin 2048) (e : Fin 1024) : idx_main_v5 (idx_main_v6 (ix3 b r e)) = ix1 e :=
  funext fun a => Fin.ext (by match a with | ⟨0, _⟩ => rfl)
theorem lidx8 (b : Fin 4) (r : Fin 2048) (e k : Fin 1024) : lidx_main_v8 (ix3 b r e) k = ix3 b r k :=
  funext fun a => Fin.ext (by match a with | ⟨0, _⟩ => rfl | ⟨1, _⟩ => rfl | ⟨2, _⟩ => rfl)
theorem ridx8 (b : Fin 4) (r : Fin 2048) (e k : Fin 1024) : ridx_main_v8 (ix3 b r e) k = ix2 k e :=
  funext fun a => Fin.ext (by match a with | ⟨0, _⟩ => rfl | ⟨1, _⟩ => rfl)
theorem bidx8 (b : Fin 4) (r : Fin 2048) (e : Fin 1024) : idx_main_v9 (idx_main_v10 (ix3 b r e)) = ix1 e :=
  funext fun a => Fin.ext (by match a with | ⟨0, _⟩ => rfl)
theorem lidx13 (b : Fin 4) (r j : Fin 2048) (k : Fin 1024) : lidx_main_v13 (ix3 b r j) k = ix3 b r k :=
  funext fun a => Fin.ext (by match a with | ⟨0, _⟩ => rfl | ⟨1, _⟩ => rfl | ⟨2, _⟩ => rfl)
theorem ridx13 (b : Fin 4) (r j : Fin 2048) (k : Fin 1024) : ridx_main_v13 (ix3 b r j) k = ix3 b j k :=
  funext fun a => Fin.ext (by match a with | ⟨0, _⟩ => rfl | ⟨1, _⟩ => rfl | ⟨2, _⟩ => rfl)
theorem idx1920 (b : Fin 4) (r j : Fin 2048) : idx_main_v19 (idx_main_v20 (ix3 b r j)) = ix2 b r :=
  funext fun a => Fin.ext (by match a with | ⟨0, _⟩ => rfl | ⟨1, _⟩ => rfl)
theorem idx2425 (b : Fin 4) (r j : Fin 2048) : idx_main_v24 (idx_main_v25 (ix3 b r j)) = ix2 b r :=
  funext fun a => Fin.ext (by match a with | ⟨0, _⟩ => rfl | ⟨1, _⟩ => rfl)
theorem idx23 (b : Fin 4) (r k : Fin 2048) : idx_main_v23 (ix2 b r) k = ix3 b r k :=
  funext fun a => Fin.ext (by match a with | ⟨0, _⟩ => rfl | ⟨1, _⟩ => rfl | ⟨2, _⟩ => rfl)
theorem lidx27 (b : Fin 4) (r : Fin 2048) (e : Fin 1024) (k : Fin 2048) : lidx_main_v27 (ix3 b r e) k = ix3 b r k :=
  funext fun a => Fin.ext (by match a with | ⟨0, _⟩ => rfl | ⟨1, _⟩ => rfl | ⟨2, _⟩ => rfl)
theorem ridx27 (b : Fin 4) (r : Fin 2048) (e : Fin 1024) (k : Fin 2048) : ridx_main_v27 (ix3 b r e) k = ix3 b k e :=
  funext fun a => Fin.ext (by match a with | ⟨0, _⟩ => rfl | ⟨1, _⟩ => rfl | ⟨2, _⟩ => rfl)

/-! ## The three linear layers are the specification's -/

/-- The key projection at one element: the row's inner product with the weight's column plus the bias. -/
theorem v3_eq_proj (x : AX) (W : AW) (bb : AB) (b : Fin 4) (r : Fin 2048) (e : Fin 1024) :
    val_main_v3 (F := Ideal) x W bb (ix3 b r e) = Cert.Spec.proj x W bb b r e := by
  rw [val_main_v3_apply, val_main_v0_apply, val_main_v2_apply, val_main_v1_apply]
  unfold Cert.Spec.proj
  rw [zero_add, bidx0]
  simp only [lidx0, ridx0]
  rfl

/-- The query projection likewise. -/
theorem v7_eq_proj (x : AX) (W : AW) (bb : AB) (b : Fin 4) (r : Fin 2048) (e : Fin 1024) :
    val_main_v7 (F := Ideal) x W bb (ix3 b r e) = Cert.Spec.proj x W bb b r e := by
  rw [val_main_v7_apply, val_main_v4_apply, val_main_v6_apply, val_main_v5_apply]
  unfold Cert.Spec.proj
  rw [zero_add, bidx4]
  simp only [lidx4, ridx4]
  rfl

/-- The value projection likewise. -/
theorem v11_eq_proj (x : AX) (W : AW) (bb : AB) (b : Fin 4) (r : Fin 2048) (e : Fin 1024) :
    val_main_v11 (F := Ideal) x W bb (ix3 b r e) = Cert.Spec.proj x W bb b r e := by
  rw [val_main_v11_apply, val_main_v8_apply, val_main_v10_apply, val_main_v9_apply]
  unfold Cert.Spec.proj
  rw [zero_add, bidx8]
  simp only [lidx8, ridx8]
  rfl

/-! ## The scores are the specification's -/

/-- The divisor is the power of the two constants, at every index. -/
theorem v14_eq (i : S4x2048x2048.Idx) :
    val_main_v14 (F := Ideal) i
      = FloatOps.hostPowf (F := Ideal) (φ := .f32) (FloatOps.ofBits .f32 0x44800000#32) (FloatOps.ofBits .f32 0x3F000000#32) := by
  rw [val_main_v14_apply, val_main_v12_apply, val_main_cst_apply, val_main_cst_0_apply]

/-- The score of query row r against key row j: the inner product of the two projections, divided by
    1024 ^ 0.5 = 32, that is, times 1/32. -/
theorem v15_eq_score (x0 : AX) (x1 : AW) (x2 : AB) (x3 : AW) (x4 : AB) (b : Fin 4) (r j : Fin 2048) :
    val_main_v15 (F := Ideal) x0 x1 x2 x3 x4 (ix3 b r j)
      = Cert.Spec.score (Cert.Spec.proj x0 x3 x4) (Cert.Spec.proj x0 x1 x2) b r j := by
  rw [val_main_v15_apply, val_main_v13_apply, v14_eq, Cert.Consts.hostDivf_hostPowf_consts']
  unfold Cert.Spec.score
  rw [zero_add]
  simp only [lidx13, ridx13, v7_eq_proj, v3_eq_proj]

/-! ## The softmax stages -/

/-- The row maximum as the program spells it: the maximum of -∞ and the max-reduction of the row's scores. -/
theorem v18_eq (x0 : AX) (x1 : AW) (x2 : AB) (x3 : AW) (x4 : AB) (b : Fin 4) (r : Fin 2048) :
    val_main_v18 (F := Ideal) x0 x1 x2 x3 x4 (ix2 b r)
      = max (⊥ : EReal) (val_main_v16 (F := Ideal) x0 x1 x2 x3 x4 (ix2 b r)) := by
  rw [val_main_v18_apply, val_main_v17_apply, val_main_cst_2_apply, Cert.Consts.floatOps_ofBits_neg_inf]
  rfl

/-- The exponentials: of the score minus the row maximum. -/
theorem v22_eq (x0 : AX) (x1 : AW) (x2 : AB) (x3 : AW) (x4 : AB) (b : Fin 4) (r j : Fin 2048) :
    val_main_v22 (F := Ideal) x0 x1 x2 x3 x4 (ix3 b r j)
      = Ideal.exp (val_main_v15 (F := Ideal) x0 x1 x2 x3 x4 (ix3 b r j) - val_main_v18 (F := Ideal) x0 x1 x2 x3 x4 (ix2 b r)) := by
  rw [val_main_v22_apply, val_main_v21_apply, val_main_v20_apply, val_main_v19_apply, idx1920]
  rfl

/-- The normalizer, broadcast back along the row: zero plus the sum of the row's exponentials. -/
theorem v25_eq (x0 : AX) (x1 : AW) (x2 : AB) (x3 : AW) (x4 : AB) (b : Fin 4) (r j : Fin 2048) :
    val_main_v25 (F := Ideal) x0 x1 x2 x3 x4 (ix3 b r j)
      = 0 + ∑ k : Fin 2048, val_main_v22 (F := Ideal) x0 x1 x2 x3 x4 (ix3 b r k) := by
  rw [val_main_v25_apply, val_main_v24_apply, idx2425, val_main_v23_apply, val_main_cst_3_apply, Cert.Consts.floatOps_ofBits_zero]
  simp only [idx23]

/-- The whole program at one output element, over the scores s_j, the row maximum M and the values v_j:
    Σ_j (exp(s_j - M) / (0 + Σ_k exp(s_k - M))) · v_j. -/
theorem v27_eq_row (x0 : AX) (x1 : AW) (x2 : AB) (x3 : AW) (x4 : AB) (x5 : AW) (x6 : AB)
    (b : Fin 4) (r : Fin 2048) (e : Fin 1024) :
    val_main_v27 (F := Ideal) x0 x1 x2 x3 x4 x5 x6 (ix3 b r e)
      = ∑ j : Fin 2048,
          Ideal.div
            (Ideal.exp (val_main_v15 (F := Ideal) x0 x1 x2 x3 x4 (ix3 b r j) - val_main_v18 (F := Ideal) x0 x1 x2 x3 x4 (ix2 b r)))
            (0 + ∑ k : Fin 2048,
              Ideal.exp (val_main_v15 (F := Ideal) x0 x1 x2 x3 x4 (ix3 b r k) - val_main_v18 (F := Ideal) x0 x1 x2 x3 x4 (ix2 b r)))
          * val_main_v11 (F := Ideal) x0 x5 x6 (ix3 b j e) := by
  rw [val_main_v27_apply]
  simp only [lidx27, ridx27, val_main_v26_apply, v25_eq, v22_eq]
  rfl

/-! ## Real inputs give real projections, scores and row maxima -/

/-- A linear layer of real arrays is real at every element. -/
theorem proj_real (x : AX) (W : AW) (bb : AB) (hx : ∀ i, ∃ t : ℝ, x i = (t : EReal)) (hW : ∀ i, ∃ t : ℝ, W i = (t : EReal))
    (hb : ∀ i, ∃ t : ℝ, bb i = (t : EReal)) (b : Fin 4) (r : Fin 2048) (e : Fin 1024) :
    ∃ t : ℝ, Cert.Spec.proj x W bb b r e = (t : EReal) := by
  choose fx hfx using hx
  choose fW hfW using hW
  choose fb hfb using hb
  refine ⟨∑ d : Fin 1024, fx (ix3 b r d) * fW (ix2 d e) + fb (ix1 e), ?_⟩
  unfold Cert.Spec.proj
  simp only [hfx, hfW, hfb]
  exact Cert.Softmax.dot_coe_add_coe _ _ _

/-- A score of real queries and keys is real. -/
theorem score_real (q k : Fin 4 → Fin 2048 → Fin 1024 → EReal) (hq : ∀ b r d, ∃ t : ℝ, q b r d = (t : EReal))
    (hk : ∀ b r d, ∃ t : ℝ, k b r d = (t : EReal)) (b : Fin 4) (r j : Fin 2048) :
    ∃ t : ℝ, Cert.Spec.score q k b r j = (t : EReal) := by
  choose fq hfq using hq
  choose fk hfk using hk
  refine ⟨(∑ d : Fin 1024, fq b r d * fk b j d) * (1 / 32 : ℝ), ?_⟩
  unfold Cert.Spec.score
  simp only [hfq, hfk]
  exact Cert.Softmax.dot_coe_mul_coe _ _ _

/-- The max-reduction of an array of reals along its last axis, from -∞, is real at every index: it is the
    maximum from -∞ over the 2048 coordinates of that axis. -/
theorem v16_real (x0 : AX) (x1 : AW) (x2 : AB) (x3 : AW) (x4 : AB)
    (hs : ∀ i, ∃ t : ℝ, val_main_v15 (F := Ideal) x0 x1 x2 x3 x4 i = (t : EReal)) (j : S4x2048.Idx) :
    ∃ t : ℝ, val_main_v16 (F := Ideal) x0 x1 x2 x3 x4 j = (t : EReal) := by
  unfold val_main_v16
  generalize val_main_v15 (F := Ideal) x0 x1 x2 x3 x4 = y at hs ⊢
  have h : S4x2048x2048.Reduces [2] S4x2048 := by decide
  have key := Host.reduce_eq_fold_single (α := EReal) (FloatOps.maximumf (F := Ideal) (φ := .f32)) y
    (val_main_cst_1 (F := Ideal)) reducesTo_S4x2048x2048_S4x2048_d2 h h_S_ j
  rw [key, val_main_cst_1_apply, Cert.Consts.floatOps_ofBits_neg_inf]
  exact Cert.Softmax.fold_maximumf_univ_isReal (by decide) _ fun k => hs _

/-! ## The reference is the specification -/

/-- The term the reference's run names for its result is the last stage of the arguments' launch contents. -/
theorem res_eq_val {F : FTy → Type} [FloatOps F] (m : (ℓ : Loc nD τ sig) → Buf (Elt F) ℓ) (c : Dev nD) :
    Cert.ReferenceIdeal.Value.res_main_v27 m c
      = val_main_v27 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  val_main_v27_eq m c

/-- For argument arrays of real numbers the reference program's result is the specification's attention of them:
    stage by stage the program is the specification's projections and scores, and its softmax, which subtracts
    the row maximum (a real number) before exponentiating, is the unshifted quotient. -/
theorem ref_eq_attn (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal))
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) :
    Cert.ReferenceIdeal.Read.val_main_v27 (F := Ideal) x0 x1 x2 x3 x4 x5 x6 = Cert.Spec.attn x0 x1 x2 x3 x4 x5 x6 := by
  funext i
  obtain ⟨b, r, e, rfl⟩ : ∃ b r e, i = ix3 b r e := ⟨i 0, i 1, i 2, eq_ix3 i⟩
  show val_main_v27 (F := Ideal) x0 x1 x2 x3 x4 x5 x6 (ix3 b r e)
    = Cert.Spec.attend (Cert.Spec.proj x0 x3 x4) (Cert.Spec.proj x0 x1 x2) (Cert.Spec.proj x0 x5 x6) b r e
  have hq := proj_real x0 x3 x4 h0 h3 h4
  have hk := proj_real x0 x1 x2 h0 h1 h2
  have hv := proj_real x0 x5 x6 h0 h5 h6
  have hsc := score_real _ _ hq hk
  have hs15 : ∀ i, ∃ t : ℝ, val_main_v15 (F := Ideal) x0 x1 x2 x3 x4 i = (t : EReal) := fun i => by
    obtain ⟨b', r', j', rfl⟩ : ∃ (b' : Fin 4) (r' j' : Fin 2048), i = ix3 b' r' j' := ⟨i 0, i 1, i 2, eq_ix3 i⟩
    rw [v15_eq_score]; exact hsc _ _ _
  obtain ⟨M, hM⟩ : ∃ M : ℝ, val_main_v18 (F := Ideal) x0 x1 x2 x3 x4 (ix2 b r) = (M : EReal) := by
    obtain ⟨t, ht⟩ := v16_real x0 x1 x2 x3 x4 hs15 (ix2 b r)
    exact ⟨t, by rw [v18_eq, ht]; exact max_eq_right bot_le⟩
  choose s hs using hsc b r
  choose v hv' using fun j => hv b j e
  rw [v27_eq_row, hM]
  unfold Cert.Spec.attend
  simp only [v15_eq_score, v11_eq_proj, hs, hv']
  exact Cert.Softmax.softmax_row (by decide) s v M

/-- The two together: for launch contents that are real numbers, the term the reference's run names for its result
    is the specification's attention of the seven argument arrays. -/
theorem res_eq_attn (m : (ℓ : Loc nD τ sig) → Buf (Elt Ideal) ℓ) (c : Dev nD)
    (h0 : ∀ i, ∃ r : ℝ, m ((c.tc : Thread nD τ).loc main_arg0) i = (r : EReal))
    (h1 : ∀ i, ∃ r : ℝ, m ((c.tc : Thread nD τ).loc main_arg1) i = (r : EReal))
    (h2 : ∀ i, ∃ r : ℝ, m ((c.tc : Thread nD τ).loc main_arg2) i = (r : EReal))
    (h3 : ∀ i, ∃ r : ℝ, m ((c.tc : Thread nD τ).loc main_arg3) i = (r : EReal))
    (h4 : ∀ i, ∃ r : ℝ, m ((c.tc : Thread nD τ).loc main_arg4) i = (r : EReal))
    (h5 : ∀ i, ∃ r : ℝ, m ((c.tc : Thread nD τ).loc main_arg5) i = (r : EReal))
    (h6 : ∀ i, ∃ r : ℝ, m ((c.tc : Thread nD τ).loc main_arg6) i = (r : EReal)) :
    Cert.ReferenceIdeal.Value.res_main_v27 m c
      = Cert.Spec.attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (res_eq_val m c).trans (ref_eq_attn _ _ _ _ _ _ _ h0 h1 h2 h3 h4 h5 h6)

end Cert.RefValue

end
-- ==== Proof.lean ====
/-
  The certificate's five claims.

  The program is single-head scaled dot-product attention over f32[4, 2048, 1024] activations: three linear layers,
  scores scaled by 1/32 (the feature width is 1024 = 32²), a softmax over the 2048 keys of a batch, and the weighted sum
  of the values. The Pallas program fuses the three layers into one pipelined region over 16 row blocks and computes the
  attention in a second region by ONLINE softmax over two key blocks (running maximum, running sum, running accumulator
  in scratch buffers, reset at key block 0, divided and stored at key block 1); the reference is the plain formula with the
  row maximum subtracted.

  * The three frames. The kernel program, at the word-level and at the ideal instance alike, runs to the end with its
    arguments unchanged: the two regions' body obligations (each body run symbolically on whole staging buffers) under
    the pipeline library's launch, the host lines by the generated conditional frame. The reference's frame is its
    generated run with the result dropped.
  * The idealization rewrote nothing, so it preserves the word-level program trivially.
  * Equal results over the extended reals, for finite inputs. Both programs compute, at each output element, the quotient
    (Σ_j exp(s_j) · v_j) / (Σ_j exp(s_j)) of the specification: over the reals a common shift of a row's scores cancels
    between numerator and denominator, whether the shift is the row maximum (the reference) or running maxima block after
    block (the kernel, whose first block starts from -inf, where exp is 0); the reference's scale 1024 ^ (1/2) is 32, so
    its quotient by it is the kernel's product with 1/32; and a matmul accumulated from zero, a lane sum and the host's
    dot_general and reduce are the same sums. Finiteness of the inputs makes every intermediate value a real number,
    which is what the cancellation needs.
-/
import proofs.«426186_j66417374266003_3_alg».proof.Defs
import proofs.«426186_j66417374266003_3_alg».proof.Proof.Gen.Kernel
import proofs.«426186_j66417374266003_3_alg».proof.Proof.Gen.KernelIdeal
import proofs.«426186_j66417374266003_3_alg».proof.Proof.Gen.ReferenceIdeal
import proofs.«426186_j66417374266003_3_alg».proof.Proof.Gen.Pre_finite_inputs
import proofs.«426186_j66417374266003_3_alg».proof.Proof.K.Body0
import proofs.«426186_j66417374266003_3_alg».proof.Proof.K.Body1
import proofs.«426186_j66417374266003_3_alg».proof.Proof.K.Frame
import proofs.«426186_j66417374266003_3_alg».proof.Proof.KI.Body0
import proofs.«426186_j66417374266003_3_alg».proof.Proof.KI.Body1
import proofs.«426186_j66417374266003_3_alg».proof.Proof.KI.Frame
import proofs.«426186_j66417374266003_3_alg».proof.Proof.KI.Bridge
import proofs.«426186_j66417374266003_3_alg».proof.Proof.RefValue
import proofs.«426186_j66417374266003_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ =>
  Cert.Kernel.Hand.frameH (F := Bits) m Cert.Kernel.Hand.body_obligation0 Cert.Kernel.Hand.body_obligation1 ρ

/-- So does the idealized one. -/
theorem frame_ki : Cert.frame_KernelIdeal := fun m ρ _ =>
  Cert.KernelIdeal.Hand.frameH (F := Ideal) m Cert.KernelIdeal.Hand.body_obligation0 Cert.KernelIdeal.Hand.body_obligation1 ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on finite arguments both idealized programs end with the specification's attention of them in
    their result arrays: the kernel by its two regions' values, the reference by its stages read at an index. -/
theorem algebraic : Cert.algebraic_KernelIdeal_ReferenceIdeal := by
  intro m ρ m' ρ' hpre hagree
  refine ⟨fun c => Cert.KernelIdeal.Hand.Q4 m c Cert.KernelIdeal.main_v9,
    Cert.KernelIdeal.Hand.valueH (F := Ideal) m Cert.KernelIdeal.Hand.body_obligation0 Cert.KernelIdeal.Hand.body_obligation1 ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.RefValue.res_eq_attn m' c
    (fun i => by rw [e0]; exact Cert.Finite.args_real_0 m hpre c i) (fun i => by rw [e1]; exact Cert.Finite.args_real_1 m hpre c i)
    (fun i => by rw [e2]; exact Cert.Finite.args_real_2 m hpre c i) (fun i => by rw [e3]; exact Cert.Finite.args_real_3 m hpre c i)
    (fun i => by rw [e4]; exact Cert.Finite.args_real_4 m hpre c i) (fun i => by rw [e5]; exact Cert.Finite.args_real_5 m hpre c i)
    (fun i => by rw [e6]; exact Cert.Finite.args_real_6 m hpre c i)]
  rw [e0, e1, e2, e3, e4, e5, e6]
  exact (Cert.KernelIdeal.Hand.kernel_out m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
